-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S800000 : S_.BroadcastsInDim S800000 (![] : Fin 0 → Fin S800000.rank)
  reducesTo_S800000_S_d0 : S800000.ReducesTo [0] S_

variable [Facts]

def fn_part3 {F : FTy → Type} [FloatOps F] (main_arg1 : IVec S800000 32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_c_20 : IVec S_ 32 := constantI S_ 32 4294917296#32
  let main_v54 : IVec S800000 32 := broadcastInDim S800000 ![] bcast_S_S800000 main_c_20
  let main_v55 : IVec S800000 1 := cmpi .sge main_arg1 main_v54
  let main_c_21 : IVec S_ 32 := constantI S_ 32 50000#32
  let main_v56 : IVec S800000 32 := broadcastInDim S800000 ![] bcast_S_S800000 main_c_21
  let main_v57 : IVec S800000 1 := cmpi .slt main_arg1 main_v56
  let main_v58 : IVec S800000 1 := andi main_v55 main_v57
  let main_c_22 : IVec S_ 1 := constantI S_ 1 1#1
  let main_v59 : IVec S_ 1 := (fun x v => Host.reduce IntOp.andi x v reducesTo_S800000_S_d0 h_S_) main_v58 main_c_22
  let main_v60 : IVec S_ 1 := andi main_v53 main_v59
  main_v60

def fn_part2 {F : FTy → Type} [FloatOps F] (main_arg1 : IVec S800000 32) (main_arg9 : FVec F S128x128 .f32) (main_arg10 : FVec F S128 .f32) (main_arg11 : FVec F S128x64 .f32) (main_arg12 : FVec F S64 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x64 .f32 := Host.absf main_arg11
  let main_cst_16 : FVec F S_ .f32 := constant S_ .f32 0x7F800000#32
  let main_v45 : FVec F S128x64 .f32 := broadcastInDim S128x64 ![] bcast_S_S128x64 main_cst_16
  let main_v46 : IVec S128x64 1 := cmpf .olt main_v44 main_v45
  let main_c_17 : IVec S_ 1 := constantI S_ 1 1#1
  let main_v47 : IVec S_ 1 := (fun x v => Host.reduce IntOp.andi x v reducesTo_S128x64_S_d0_1 h_S_) main_v46 main_c_17
  let main_v48 : IVec S_ 1 := andi main_v43 main_v47
  let main_v49 : FVec F S64 .f32 := Host.absf main_arg12
  let main_cst_18 : FVec F S_ .f32 := constant S_ .f32 0x7F800000#32
  let main_v50 : FVec F S64 .f32 := broadcastInDim S64 ![] bcast_S_S64 main_cst_18
  fn_part3 (F := F) main_arg1 main_v48 main_v49 main_v50

def fn_part1 {F : FTy → Type} [FloatOps F] (main_arg1 : IVec S800000 32) (main_arg6 : FVec F S128 .f32) (main_arg7 : FVec F S128x128 .f32) (main_arg8 : FVec F S128 .f32) (main_arg9 : FVec F S128x128 .f32) (main_arg10 : FVec F S128 .f32) (main_arg11 : FVec F S128x64 .f32) (main_arg12 : FVec F S64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg1 main_arg9 main_arg10 main_arg11 main_arg12 main_v33

def fn {F : FTy → Type} [FloatOps F] (main_arg0 : FVec F S50000x128 .f32) (main_arg1 : IVec S800000 32) (main_arg2 : IVec S800000 32) (main_arg3 : FVec F S128x128 .f32) (main_arg4 : FVec F S128 .f32) (main_arg5 : FVec F S128x128 .f32) (main_arg6 : FVec F S128 .f32) (main_arg7 : FVec F S128x128 .f32) (main_arg8 : FVec F S128 .f32) (main_arg9 : FVec F S128x128 .f32) (main_arg10 : FVec F S128 .f32) (main_arg11 : FVec F S128x64 .f32) (main_arg12 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg1 main_arg6 main_arg7 main_arg8 main_arg9 main_arg10 main_arg11 main_arg12 main_v13 main_v16
-- ==== Kernel.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S1x128 : Shape := ⟨2, ![1, 128]⟩
abbrev S1x64 : Shape := ⟨2, ![1, 64]⟩
abbrev S5000x128 : Shape := ⟨2, ![5000, 128]⟩
abbrev S5000x1 : Shape := ⟨2, ![5000, 1]⟩
abbrev S1 : Shape := ⟨1, ![1]⟩
abbrev S1x1 : Shape := ⟨2, ![1, 1]⟩
abbrev S800000x128 : Shape := ⟨2, ![800000, 128]⟩
abbrev S50000x64 : Shape := ⟨2, ![50000, 64]⟩
abbrev S5000x64 : Shape := ⟨2, ![5000, 64]⟩
abbrev S800000x64 : Shape := ⟨2, ![800000, 64]⟩

abbrev nBuf : Space → Nat
  | .hbm => 125
  | .vmem => 38
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x64, .f32⟩
  | .hbm, ⟨12, _⟩ => ⟨S64, .f32⟩
  | .hbm, ⟨13, _⟩ => ⟨S_, .f32⟩
  | .hbm, ⟨14, _⟩ => ⟨S800000, .f32⟩
  | .hbm, ⟨15, _⟩ => ⟨S_, .f32⟩
  | .hbm, ⟨16, _⟩ => ⟨S50000, .f32⟩
  | .hbm, ⟨17, _⟩ => ⟨S800000x1, .i32⟩
  | .hbm, ⟨18, _⟩ => ⟨S50000, .f32⟩
  | .hbm, ⟨19, _⟩ => ⟨S_, .f32⟩
  | .hbm, ⟨20, _⟩ => ⟨S_, .f32⟩
  | .hbm, ⟨21, _⟩ => ⟨S50000, .f32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S800000x1, .i32⟩
  | .hbm, ⟨26, _⟩ => ⟨S50000, .f32⟩
  | .hbm, ⟨27, _⟩ => ⟨S_, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S50000, .f32⟩
  | .hbm, ⟨32, _⟩ => ⟨S50000, .f32⟩
  | .hbm, ⟨33, _⟩ => ⟨S50000x1, .f32⟩
  | .hbm, ⟨34, _⟩ => ⟨S50000x1, .f32⟩
  | .hbm, ⟨35, _⟩ => ⟨S1x128, .f32⟩
  | .hbm, ⟨36, _⟩ => ⟨S1x128, .f32⟩
  | .hbm, ⟨37, _⟩ => ⟨S1x128, .f32⟩
  | .hbm, ⟨38, _⟩ => ⟨S1x128, .f32⟩
  | .hbm, ⟨39, _⟩ => ⟨S1x64, .f32⟩
  | .hbm, ⟨40, _⟩ => ⟨S50000x128, .f32⟩
  | .hbm, ⟨41, _⟩ => ⟨S_, .i32⟩
  | .hbm, ⟨42, _⟩ => ⟨S800000, .i32⟩
  | .hbm, ⟨43, _⟩ => ⟨S800000, .i1⟩
  | .hbm, ⟨44, _⟩ => ⟨S_, .i32⟩
  | .hbm, ⟨45, _⟩ => ⟨S800000, .i32⟩
  | .hbm, ⟨46, _⟩ => ⟨S800000, .i32⟩
  | .hbm, ⟨47, _⟩ => ⟨S800000, .i32⟩
  | .hbm, ⟨48, _⟩ => ⟨S800000x1, .i32⟩
  | .hbm, ⟨49, _⟩ => ⟨S1, .i32⟩
  | .hbm, ⟨50, _⟩ => ⟨S_, .i32⟩
  | .hbm, ⟨51, _⟩ => ⟨S800000x1, .i32⟩
  | .hbm, ⟨52, _⟩ => ⟨S800000x1, .i1⟩
  | .hbm, ⟨53, _⟩ => ⟨S1x1, .i32⟩
  | .hbm, ⟨54, _⟩ => ⟨S800000x1, .i32⟩
  | .hbm, ⟨55, _⟩ => ⟨S800000x1, .i1⟩
  | .hbm, ⟨56, _⟩ => ⟨S800000x1, .i1⟩
  | .hbm, ⟨57, _⟩ => ⟨S_, .i1⟩
  | .hbm, ⟨58, _⟩ => ⟨S800000, .i1⟩
  | .hbm, ⟨59, _⟩ => ⟨S800000x128, .f32⟩
  | .hbm, ⟨60, _⟩ => ⟨S800000x128, .i1⟩
  | .hbm, ⟨61, _⟩ => ⟨S_, .f32⟩
  | .hbm, ⟨62, _⟩ => ⟨S800000x128, .f32⟩
  | .hbm, ⟨63, _⟩ => ⟨S800000x128, .f32⟩
  | .hbm, ⟨64, _⟩ => ⟨S_, .f32⟩
  | .hbm, ⟨65, _⟩ => ⟨S50000x128, .f32⟩
  | .hbm, ⟨66, _⟩ => ⟨S800000x1, .i32⟩
  | .hbm, ⟨67, _⟩ => ⟨S50000x128, .f32⟩
  | .hbm, ⟨68, _⟩ => ⟨S50000x128, .f32⟩
  | .hbm, ⟨69, _⟩ => ⟨S_, .i32⟩
  | .hbm, ⟨70, _⟩ => ⟨S800000, .i32⟩
  | .hbm, ⟨71, _⟩ => ⟨S800000, .i1⟩
  | .hbm, ⟨72, _⟩ => ⟨S_, .i32⟩
  | .hbm, ⟨73, _⟩ => ⟨S800000, .i32⟩
  | .hbm, ⟨74, _⟩ => ⟨S800000, .i32⟩
  | .hbm, ⟨75, _⟩ => ⟨S800000, .i32⟩
  | .hbm, ⟨76, _⟩ => ⟨S800000x1, .i32⟩
  | .hbm, ⟨77, _⟩ => ⟨S1, .i32⟩
  | .hbm, ⟨78, _⟩ => ⟨S_, .i32⟩
  | .hbm, ⟨79, _⟩ => ⟨S800000x1, .i32⟩
  | .hbm, ⟨80, _⟩ => ⟨S800000x1, .i1⟩
  | .hbm, ⟨81, _⟩ => ⟨S1x1, .i32⟩
  | .hbm, ⟨82, _⟩ => ⟨S800000x1, .i32⟩
  | .hbm, ⟨83, _⟩ => ⟨S800000x1, .i1⟩
  | .hbm, ⟨84, _⟩ => ⟨S800000x1, .i1⟩
  | .hbm, ⟨85, _⟩ => ⟨S_, .i1⟩
  | .hbm, ⟨86, _⟩ => ⟨S800000, .i1⟩
  | .hbm, ⟨87, _⟩ => ⟨S800000x128, .f32⟩
  | .hbm, ⟨88, _⟩ => ⟨S800000x128, .i1⟩
  | .hbm, ⟨89, _⟩ => ⟨S_, .f32⟩
  | .hbm, ⟨90, _⟩ => ⟨S800000x128, .f32⟩
  | .hbm, ⟨91, _⟩ => ⟨S800000x128, .f32⟩
  | .hbm, ⟨92, _⟩ => ⟨S_, .f32⟩
  | .hbm, ⟨93, _⟩ => ⟨S50000x128, .f32⟩
  | .hbm, ⟨94, _⟩ => ⟨S800000x1, .i32⟩
  | .hbm, ⟨95, _⟩ => ⟨S50000x128, .f32⟩
  | .hbm, ⟨96, _⟩ => ⟨S50000x64, .f32⟩
  | .hbm, ⟨97, _⟩ => ⟨S_, .i32⟩
  | .hbm, ⟨98, _⟩ => ⟨S800000, .i32⟩
  | .hbm, ⟨99, _⟩ => ⟨S800000, .i1⟩
  | .hbm, ⟨100, _⟩ => ⟨S_, .i32⟩
  | .hbm, ⟨101, _⟩ => ⟨S800000, .i32⟩
  | .hbm, ⟨102, _⟩ => ⟨S800000, .i32⟩
  | .hbm, ⟨103, _⟩ => ⟨S800000, .i32⟩
  | .hbm, ⟨104, _⟩ => ⟨S800000x1, .i32⟩
  | .hbm, ⟨105, _⟩ => ⟨S1, .i32⟩
  | .hbm, ⟨106, _⟩ => ⟨S_, .i32⟩
  | .hbm, ⟨107, _⟩ => ⟨S800000x1, .i32⟩
  | .hbm, ⟨108, _⟩ => ⟨S800000x1, .i1⟩
  | .hbm, ⟨109, _⟩ => ⟨S1x1, .i32⟩
  | .hbm, ⟨110, _⟩ => ⟨S800000x1, .i32⟩
  | .hbm, ⟨111, _⟩ => ⟨S800000x1, .i1⟩
  | .hbm, ⟨112, _⟩ => ⟨S800000x1, .i1⟩
  | .hbm, ⟨113, _⟩ => ⟨S_, .i1⟩
  | .hbm, ⟨114, _⟩ => ⟨S800000, .i1⟩
  | .hbm, ⟨115, _⟩ => ⟨S800000x64, .f32⟩
  | .hbm, ⟨116, _⟩ => ⟨S800000x64, .i1⟩
  | .hbm, ⟨117, _⟩ => ⟨S_, .f32⟩
  | .hbm, ⟨118, _⟩ => ⟨S800000x64, .f32⟩
  | .hbm, ⟨119, _⟩ => ⟨S800000x64, .f32⟩
  | .hbm, ⟨120, _⟩ => ⟨S_, .f32⟩
  | .hbm, ⟨121, _⟩ => ⟨S50000x64, .f32⟩
  | .hbm, ⟨122, _⟩ => ⟨S800000x1, .i32⟩
  | .hbm, ⟨123, _⟩ => ⟨S50000x64, .f32⟩
  | .hbm, ⟨124, _⟩ => ⟨S50000x64, .f32⟩
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S128x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S1x128, .f32⟩
  | .local _ .vmem, ⟨12, _⟩ => ⟨S128x128, .f32⟩
  | .local _ .vmem, ⟨13, _⟩ => ⟨S1x128, .f32⟩
  | .local _ .vmem, ⟨14, _⟩ => ⟨S128x128, .f32⟩
  | .local _ .vmem, ⟨15, _⟩ => ⟨S1x128, .f32⟩
  | .local _ .vmem, ⟨16, _⟩ => ⟨S5000x1, .f32⟩
  | .local _ .vmem, ⟨17, _⟩ => ⟨S5000x1, .f32⟩
  | .local _ .vmem, ⟨18, _⟩ => ⟨S128x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x1, .f32⟩
  | .local _ .vmem, ⟨24, _⟩ => ⟨S5000x1, .f32⟩
  | .local _ .vmem, ⟨25, _⟩ => ⟨S1x128, .f32⟩
  | .local _ .vmem, ⟨26, _⟩ => ⟨S5000x1, .f32⟩
  | .local _ .vmem, ⟨27, _⟩ => ⟨S5000x1, .f32⟩
  | .local _ .vmem, ⟨28, _⟩ => ⟨S128x64, .f32⟩
  | .local _ .vmem, ⟨29, _⟩ => ⟨S5000x64, .f32⟩
  | .local _ .vmem, ⟨30, _⟩ => ⟨S5000x64, .f32⟩
  | .local _ .vmem, ⟨31, _⟩ => ⟨S5000x64, .f32⟩
  | .local _ .vmem, ⟨32, _⟩ => ⟨S5000x64, .f32⟩
  | .local _ .vmem, ⟨33, _⟩ => ⟨S5000x1, .f32⟩
  | .local _ .vmem, ⟨34, _⟩ => ⟨S5000x1, .f32⟩
  | .local _ .vmem, ⟨35, _⟩ => ⟨S1x64, .f32⟩
  | .local _ .vmem, ⟨36, _⟩ => ⟨S5000x64, .f32⟩
  | .local _ .vmem, ⟨37, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_cst_0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst_1 : Ref sig .tc := ⟨.hbm, 19, rfl⟩
abbrev main_call0_v0 : Ref sig .tc := ⟨.hbm, 20, rfl⟩
abbrev main_call0_v1 : Ref sig .tc := ⟨.hbm, 21, rfl⟩
abbrev main_v4 : Ref sig .tc := ⟨.hbm, 22, rfl⟩
abbrev main_cst_2 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_cst_3 : Ref sig .tc := ⟨.hbm, 27, rfl⟩
abbrev main_call1_v0 : Ref sig .tc := ⟨.hbm, 28, rfl⟩
abbrev main_call1_v1 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_call2_c : Ref sig .tc := ⟨.hbm, 41, rfl⟩
abbrev main_call2_v0 : Ref sig .tc := ⟨.hbm, 42, rfl⟩
abbrev main_call2_v1 : Ref sig .tc := ⟨.hbm, 43, rfl⟩
abbrev main_call2_c_0 : Ref sig .tc := ⟨.hbm, 44, rfl⟩
abbrev main_call2_v2 : Ref sig .tc := ⟨.hbm, 45, rfl⟩
abbrev main_call2_v3 : Ref sig .tc := ⟨.hbm, 46, rfl⟩
abbrev main_call2_v4 : Ref sig .tc := ⟨.hbm, 47, rfl⟩
abbrev main_call2_v5 : Ref sig .tc := ⟨.hbm, 48, rfl⟩
abbrev main_call2_c_1 : Ref sig .tc := ⟨.hbm, 49, rfl⟩
abbrev main_call2_c_2 : Ref sig .tc := ⟨.hbm, 50, rfl⟩
abbrev main_call2_v6 : Ref sig .tc := ⟨.hbm, 51, rfl⟩
abbrev main_call2_v7 : Ref sig .tc := ⟨.hbm, 52, rfl⟩
abbrev main_call2_v8 : Ref sig .tc := ⟨.hbm, 53, rfl⟩
abbrev main_call2_v9 : Ref sig .tc := ⟨.hbm, 54, rfl⟩
abbrev main_call2_v10 : Ref sig .tc := ⟨.hbm, 55, rfl⟩
abbrev main_call2_v11 : Ref sig .tc := ⟨.hbm, 56, rfl⟩
abbrev main_call2_c_3 : Ref sig .tc := ⟨.hbm, 57, rfl⟩
abbrev main_call2_v12 : Ref sig .tc := ⟨.hbm, 58, rfl⟩
abbrev main_call2_v13 : Ref sig .tc := ⟨.hbm, 59, rfl⟩
abbrev main_call2_v14 : Ref sig .tc := ⟨.hbm, 60, rfl⟩
abbrev main_call2_cst : Ref sig .tc := ⟨.hbm, 61, rfl⟩
abbrev main_call2_v15 : Ref sig .tc := ⟨.hbm, 62, rfl⟩
abbrev main_v19 : Ref sig .tc := ⟨.hbm, 63, rfl⟩
abbrev main_cst_4 : Ref sig .tc := ⟨.hbm, 64, rfl⟩
abbrev main_v20 : Ref sig .tc := ⟨.hbm, 65, rfl⟩
abbrev main_v21 : Ref sig .tc := ⟨.hbm, 66, rfl⟩
abbrev main_v22 : Ref sig .tc := ⟨.hbm, 67, rfl⟩
abbrev main_v23 : Ref sig .tc := ⟨.hbm, 68, rfl⟩
abbrev main_call3_c : Ref sig .tc := ⟨.hbm, 69, rfl⟩
abbrev main_call3_v0 : Ref sig .tc := ⟨.hbm, 70, rfl⟩
abbrev main_call3_v1 : Ref sig .tc := ⟨.hbm, 71, rfl⟩
abbrev main_call3_c_0 : Ref sig .tc := ⟨.hbm, 72, rfl⟩
abbrev main_call3_v2 : Ref sig .tc := ⟨.hbm, 73, rfl⟩
abbrev main_call3_v3 : Ref sig .tc := ⟨.hbm, 74, rfl⟩
abbrev main_call3_v4 : Ref sig .tc := ⟨.hbm, 75, rfl⟩
abbrev main_call3_v5 : Ref sig .tc := ⟨.hbm, 76, rfl⟩
abbrev main_call3_c_1 : Ref sig .tc := ⟨.hbm, 77, rfl⟩
abbrev main_call3_c_2 : Ref sig .tc := ⟨.hbm, 78, rfl⟩
abbrev main_call3_v6 : Ref sig .tc := ⟨.hbm, 79, rfl⟩
abbrev main_call3_v7 : Ref sig .tc := ⟨.hbm, 80, rfl⟩
abbrev main_call3_v8 : Ref sig .tc := ⟨.hbm, 81, rfl⟩
abbrev main_call3_v9 : Ref sig .tc := ⟨.hbm, 82, rfl⟩
abbrev main_call3_v10 : Ref sig .tc := ⟨.hbm, 83, rfl⟩
abbrev main_call3_v11 : Ref sig .tc := ⟨.hbm, 84, rfl⟩
abbrev main_call3_c_3 : Ref sig .tc := ⟨.hbm, 85, rfl⟩
abbrev main_call3_v12 : Ref sig .tc := ⟨.hbm, 86, rfl⟩
abbrev main_call3_v13 : Ref sig .tc := ⟨.hbm, 87, rfl⟩
abbrev main_call3_v14 : Ref sig .tc := ⟨.hbm, 88, rfl⟩
abbrev main_call3_cst : Ref sig .tc := ⟨.hbm, 89, rfl⟩
abbrev main_call3_v15 : Ref sig .tc := ⟨.hbm, 90, rfl⟩
abbrev main_v24 : Ref sig .tc := ⟨.hbm, 91, rfl⟩
abbrev main_cst_5 : Ref sig .tc := ⟨.hbm, 92, rfl⟩
abbrev main_v25 : Ref sig .tc := ⟨.hbm, 93, rfl⟩
abbrev main_v26 : Ref sig .tc := ⟨.hbm, 94, rfl⟩
abbrev main_v27 : Ref sig .tc := ⟨.hbm, 95, rfl⟩
abbrev main_v28 : Ref sig .tc := ⟨.hbm, 96, rfl⟩
abbrev main_call4_c : Ref sig .tc := ⟨.hbm, 97, rfl⟩
abbrev main_call4_v0 : Ref sig .tc := ⟨.hbm, 98, rfl⟩
abbrev main_call4_v1 : Ref sig .tc := ⟨.hbm, 99, rfl⟩
abbrev main_call4_c_0 : Ref sig .tc := ⟨.hbm, 100, rfl⟩
abbrev main_call4_v2 : Ref sig .tc := ⟨.hbm, 101, rfl⟩
abbrev main_call4_v3 : Ref sig .tc := ⟨.hbm, 102, rfl⟩
abbrev main_call4_v4 : Ref sig .tc := ⟨.hbm, 103, rfl⟩
abbrev main_call4_v5 : Ref sig .tc := ⟨.hbm, 104, rfl⟩
abbrev main_call4_c_1 : Ref sig .tc := ⟨.hbm, 105, rfl⟩
abbrev main_call4_c_2 : Ref sig .tc := ⟨.hbm, 106, rfl⟩
abbrev main_call4_v6 : Ref sig .tc := ⟨.hbm, 107, rfl⟩
abbrev main_call4_v7 : Ref sig .tc := ⟨.hbm, 108, rfl⟩
abbrev main_call4_v8 : Ref sig .tc := ⟨.hbm, 109, rfl⟩
abbrev main_call4_v9 : Ref sig .tc := ⟨.hbm, 110, rfl⟩
abbrev main_call4_v10 : Ref sig .tc := ⟨.hbm, 111, rfl⟩
abbrev main_call4_v11 : Ref sig .tc := ⟨.hbm, 112, rfl⟩
abbrev main_call4_c_3 : Ref sig .tc := ⟨.hbm, 113, rfl⟩
abbrev main_call4_v12 : Ref sig .tc := ⟨.hbm, 114, rfl⟩
abbrev main_call4_v13 : Ref sig .tc := ⟨.hbm, 115, rfl⟩
abbrev main_call4_v14 : Ref sig .tc := ⟨.hbm, 116, rfl⟩
abbrev main_call4_cst : Ref sig .tc := ⟨.hbm, 117, rfl⟩
abbrev main_call4_v15 : Ref sig .tc := ⟨.hbm, 118, rfl⟩
abbrev main_v29 : Ref sig .tc := ⟨.hbm, 119, rfl⟩
abbrev main_cst_6 : Ref sig .tc := ⟨.hbm, 120, rfl⟩
abbrev main_v30 : Ref sig .tc := ⟨.hbm, 121, rfl⟩
abbrev main_v31 : Ref sig .tc := ⟨.hbm, 122, rfl⟩
abbrev main_v32 : Ref sig .tc := ⟨.hbm, 123, rfl⟩
abbrev main_v33 : Ref sig .tc := ⟨.hbm, 124, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg7_0 : Ref sig .tc := ⟨.vmem, 16, rfl⟩
abbrev cc1_stg7_1 : Ref sig .tc := ⟨.vmem, 17, rfl⟩
abbrev cc1_stg8_0 : Ref sig .tc := ⟨.vmem, 18, rfl⟩
abbrev cc1_stg9_0 : Ref sig .tc := ⟨.vmem, 19, rfl⟩
abbrev cc1_stg9_1 : Ref sig .tc := ⟨.vmem, 20, rfl⟩
abbrev cc2_stg0_0 : Ref sig .tc := ⟨.vmem, 21, rfl⟩
abbrev cc2_stg0_1 : Ref sig .tc := ⟨.vmem, 22, rfl⟩
abbrev cc2_stg1_0 : Ref sig .tc := ⟨.vmem, 23, rfl⟩
abbrev cc2_stg1_1 : Ref sig .tc := ⟨.vmem, 24, rfl⟩
abbrev cc2_stg2_0 : Ref sig .tc := ⟨.vmem, 25, rfl⟩
abbrev cc2_stg3_0 : Ref sig .tc := ⟨.vmem, 26, rfl⟩
abbrev cc2_stg3_1 : Ref sig .tc := ⟨.vmem, 27, rfl⟩
abbrev cc2_stg4_0 : Ref sig .tc := ⟨.vmem, 28, rfl⟩
abbrev cc2_stg5_0 : Ref sig .tc := ⟨.vmem, 29, rfl⟩
abbrev cc2_stg5_1 : Ref sig .tc := ⟨.vmem, 30, rfl⟩
abbrev cc3_stg0_0 : Ref sig .tc := ⟨.vmem, 31, rfl⟩
abbrev cc3_stg0_1 : Ref sig .tc := ⟨.vmem, 32, rfl⟩
abbrev cc3_stg1_0 : Ref sig .tc := ⟨.vmem, 33, rfl⟩
abbrev cc3_stg1_1 : Ref sig .tc := ⟨.vmem, 34, rfl⟩
abbrev cc3_stg2_0 : Ref sig .tc := ⟨.vmem, 35, rfl⟩
abbrev cc3_stg3_0 : Ref sig .tc := ⟨.vmem, 36, rfl⟩
abbrev cc3_stg3_1 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem7_0 : DmaSem sig := 16
abbrev cc1_sem7_1 : DmaSem sig := 17
abbrev cc1_sem8_0 : DmaSem sig := 18
abbrev cc1_sem9_0 : DmaSem sig := 19
abbrev cc1_sem9_1 : DmaSem sig := 20
abbrev cc2_sem0_0 : DmaSem sig := 21
abbrev cc2_sem0_1 : DmaSem sig := 22
abbrev cc2_sem1_0 : DmaSem sig := 23
abbrev cc2_sem1_1 : DmaSem sig := 24
abbrev cc2_sem2_0 : DmaSem sig := 25
abbrev cc2_sem3_0 : DmaSem sig := 26
abbrev cc2_sem3_1 : DmaSem sig := 27
abbrev cc2_sem4_0 : DmaSem sig := 28
abbrev cc2_sem5_0 : DmaSem sig := 29
abbrev cc2_sem5_1 : DmaSem sig := 30
abbrev cc3_sem0_0 : DmaSem sig := 31
abbrev cc3_sem0_1 : DmaSem sig := 32
abbrev cc3_sem1_0 : DmaSem sig := 33
abbrev cc3_sem1_1 : DmaSem sig := 34
abbrev cc3_sem2_0 : DmaSem sig := 35
abbrev cc3_sem3_0 : DmaSem sig := 36
abbrev cc3_sem3_1 : DmaSem sig := 37

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x1 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 1 → Memref sig .tc .vmem S128x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S5000x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S128x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  shapeCasts_S128_S1x128 : S128.ShapeCasts S1x128
  shapeCasts_S64_S1x64 : S64.ShapeCasts S1x64
  inb_S5000x128_S5000x128_0_0 : ∀ a, (![0, 0] : Fin 2 → Nat) a + S5000x128.size a ≤ S5000x128.size a
  h_S5000x128 : 0 < S5000x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x128_0 : S800000.BroadcastsInDim S800000x128 (![0] : Fin 1 → Fin S800000x128.rank)
  bcast_S_S800000x128 : S_.BroadcastsInDim S800000x128 (![] : Fin 0 → Fin S800000x128.rank)
  bcast_S_S50000x128 : S_.BroadcastsInDim S50000x128 (![] : Fin 0 → Fin S50000x128.rank)
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S800000_S800000x64_0 : S800000.BroadcastsInDim S800000x64 (![0] : Fin 1 → Fin S800000x64.rank)
  bcast_S_S800000x64 : S_.BroadcastsInDim S800000x64 (![] : Fin 0 → Fin S800000x64.rank)
  bcast_S_S50000x64 : S_.BroadcastsInDim S50000x64 (![] : Fin 0 → Fin S50000x64.rank)
  shapeCasts_S5000x64_S5000x64 : S5000x64.ShapeCasts S5000x64
  broadcasts_S5000x1_S5000x64 : S5000x1.Broadcasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  scatter_S50000_S800000x1_S800000_n_0_0_1_wf : ScatterDims.WF S50000 S800000x1 S800000 [] [0] [0] 1
  dot_S5000x128_S128x128_S5000x128_1_0_0_1_n_n_wf : DotDims.WF S5000x128 S128x128 S5000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x64_S5000x64_1_0_0_1_n_n_wf : DotDims.WF S5000x128 S128x64 S5000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S50000x1.size a
  hwx0_1 : ∀ i : grid0.Coords, EltTy.bits .f32 = 32 ∨ (Rect.block (s := S50000x1) S5000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .f32 = 32 ∨ (Rect.block (s := S50000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x1.size a ≤ S50000x1.size a
  hwx1_7 : ∀ i : grid1.Coords, EltTy.bits .f32 = 32 ∨ (Rect.block (s := S50000x1) S5000x1.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S128x128.size a ≤ S128x128.size a
  hwx1_8 : ∀ i : grid1.Coords, EltTy.bits .f32 = 32 ∨ (Rect.block (s := S128x128) S128x128.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S5000x128.size a ≤ S50000x128.size a
  hwx1_9 : ∀ i : grid1.Coords, EltTy.bits .f32 = 32 ∨ (Rect.block (s := S50000x128) S5000x128.size (cc1_transform_9 i) (hinb1_9 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S50000x1.size a
  hwx2_1 : ∀ i : grid2.Coords, EltTy.bits .f32 = 32 ∨ (Rect.block (s := S50000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x1.size a ≤ S50000x1.size a
  hwx2_3 : ∀ i : grid2.Coords, EltTy.bits .f32 = 32 ∨ (Rect.block (s := S50000x1) S5000x1.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x64.size a ≤ S128x64.size a
  hwx2_4 : ∀ i : grid2.Coords, EltTy.bits .f32 = 32 ∨ (Rect.block (s := S128x64) S128x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x64.size a ≤ S50000x64.size a
  hwx2_5 : ∀ i : grid2.Coords, EltTy.bits .f32 = 32 ∨ (Rect.block (s := S50000x64) S5000x64.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .f32 = 32 ∨ (Rect.block (s := S50000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S50000x1.size a
  hwx3_1 : ∀ i : grid3.Coords, EltTy.bits .f32 = 32 ∨ (Rect.block (s := S50000x1) S5000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x64.size a ≤ S50000x64.size a
  hwx3_3 : ∀ i : grid3.Coords, EltTy.bits .f32 = 32 ∨ (Rect.block (s := S50000x64) S5000x64.size (cc3_transform_3 i) (hinb3_3 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v18) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v22) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v13) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v14) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg7) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v15) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v11) S5000x1.size cc1_transform_7 reads1_7 false false 2 stage1_7 sem1_7
    hrank1 hreads1_7 hinb1_7 nbuf1_7 (Memref.isWhole_whole _) hwx1_7 hstage1_7

abbrev win1_8 : Pipeline.Window sig grid1 :=
  Pipeline.Window.ofSpec (Memref.whole main_arg9) S128x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v23) S5000x128.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev win2_0 : Pipeline.Window sig grid2 :=
  Pipeline.Window.ofSpec (Memref.whole main_v27) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v12) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v16) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v11) S5000x1.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_arg11) S128x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v28) S5000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v32) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v12) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v17) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v33) S5000x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S1x128 : Shape := ⟨2, ![1, 128]⟩
abbrev S50000x64 : Shape := ⟨2, ![50000, 64]⟩
abbrev S800000x64 : Shape := ⟨2, ![800000, 64]⟩
abbrev S1x64 : Shape := ⟨2, ![1, 64]⟩

abbrev nBuf : Space → Nat
  | .hbm => 122
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x64, .f32⟩
  | .hbm, ⟨12, _⟩ => ⟨S64, .f32⟩
  | .hbm, ⟨13, _⟩ => ⟨S_, .f32⟩
  | .hbm, ⟨14, _⟩ => ⟨S800000, .f32⟩
  | .hbm, ⟨15, _⟩ => ⟨S_, .f32⟩
  | .hbm, ⟨16, _⟩ => ⟨S50000, .f32⟩
  | .hbm, ⟨17, _⟩ => ⟨S800000x1, .i32⟩
  | .hbm, ⟨18, _⟩ => ⟨S50000, .f32⟩
  | .hbm, ⟨19, _⟩ => ⟨S_, .f32⟩
  | .hbm, ⟨20, _⟩ => ⟨S_, .f32⟩
  | .hbm, ⟨21, _⟩ => ⟨S50000, .f32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S800000x1, .i32⟩
  | .hbm, ⟨26, _⟩ => ⟨S50000, .f32⟩
  | .hbm, ⟨27, _⟩ => ⟨S_, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S50000, .f32⟩
  | .hbm, ⟨32, _⟩ => ⟨S50000, .f32⟩
  | .hbm, ⟨33, _⟩ => ⟨S50000x1, .f32⟩
  | .hbm, ⟨34, _⟩ => ⟨S50000x128, .f32⟩
  | .hbm, ⟨35, _⟩ => ⟨S50000x128, .f32⟩
  | .hbm, ⟨36, _⟩ => ⟨S50000x128, .f32⟩
  | .hbm, ⟨37, _⟩ => ⟨S_, .i32⟩
  | .hbm, ⟨38, _⟩ => ⟨S800000, .i32⟩
  | .hbm, ⟨39, _⟩ => ⟨S800000, .i1⟩
  | .hbm, ⟨40, _⟩ => ⟨S_, .i32⟩
  | .hbm, ⟨41, _⟩ => ⟨S800000, .i32⟩
  | .hbm, ⟨42, _⟩ => ⟨S800000, .i32⟩
  | .hbm, ⟨43, _⟩ => ⟨S800000, .i32⟩
  | .hbm, ⟨44, _⟩ => ⟨S800000x1, .i32⟩
  | .hbm, ⟨45, _⟩ => ⟨S800000x128, .f32⟩
  | .hbm, ⟨46, _⟩ => ⟨S_, .f32⟩
  | .hbm, ⟨47, _⟩ => ⟨S50000x128, .f32⟩
  | .hbm, ⟨48, _⟩ => ⟨S800000x1, .i32⟩
  | .hbm, ⟨49, _⟩ => ⟨S50000x128, .f32⟩
  | .hbm, ⟨50, _⟩ => ⟨S50000x1, .f32⟩
  | .hbm, ⟨51, _⟩ => ⟨S50000x128, .f32⟩
  | .hbm, ⟨52, _⟩ => ⟨S50000x128, .f32⟩
  | .hbm, ⟨53, _⟩ => ⟨S1x128, .f32⟩
  | .hbm, ⟨54, _⟩ => ⟨S50000x128, .f32⟩
  | .hbm, ⟨55, _⟩ => ⟨S50000x128, .f32⟩
  | .hbm, ⟨56, _⟩ => ⟨S_, .f32⟩
  | .hbm, ⟨57, _⟩ => ⟨S50000x128, .f32⟩
  | .hbm, ⟨58, _⟩ => ⟨S50000x128, .f32⟩
  | .hbm, ⟨59, _⟩ => ⟨S50000x128, .f32⟩
  | .hbm, ⟨60, _⟩ => ⟨S1x128, .f32⟩
  | .hbm, ⟨61, _⟩ => ⟨S50000x128, .f32⟩
  | .hbm, ⟨62, _⟩ => ⟨S50000x128, .f32⟩
  | .hbm, ⟨63, _⟩ => ⟨S_, .f32⟩
  | .hbm, ⟨64, _⟩ => ⟨S50000x128, .f32⟩
  | .hbm, ⟨65, _⟩ => ⟨S50000x128, .f32⟩
  | .hbm, ⟨66, _⟩ => ⟨S50000x128, .f32⟩
  | .hbm, ⟨67, _⟩ => ⟨S1x128, .f32⟩
  | .hbm, ⟨68, _⟩ => ⟨S50000x128, .f32⟩
  | .hbm, ⟨69, _⟩ => ⟨S50000x128, .f32⟩
  | .hbm, ⟨70, _⟩ => ⟨S_, .f32⟩
  | .hbm, ⟨71, _⟩ => ⟨S50000x128, .f32⟩
  | .hbm, ⟨72, _⟩ => ⟨S50000x128, .f32⟩
  | .hbm, ⟨73, _⟩ => ⟨S50000x1, .f32⟩
  | .hbm, ⟨74, _⟩ => ⟨S50000x128, .f32⟩
  | .hbm, ⟨75, _⟩ => ⟨S50000x128, .f32⟩
  | .hbm, ⟨76, _⟩ => ⟨S50000x128, .f32⟩
  | .hbm, ⟨77, _⟩ => ⟨S_, .i32⟩
  | .hbm, ⟨78, _⟩ => ⟨S800000, .i32⟩
  | .hbm, ⟨79, _⟩ => ⟨S800000, .i1⟩
  | .hbm, ⟨80, _⟩ => ⟨S_, .i32⟩
  | .hbm, ⟨81, _⟩ => ⟨S800000, .i32⟩
  | .hbm, ⟨82, _⟩ => ⟨S800000, .i32⟩
  | .hbm, ⟨83, _⟩ => ⟨S800000, .i32⟩
  | .hbm, ⟨84, _⟩ => ⟨S800000x1, .i32⟩
  | .hbm, ⟨85, _⟩ => ⟨S800000x128, .f32⟩
  | .hbm, ⟨86, _⟩ => ⟨S_, .f32⟩
  | .hbm, ⟨87, _⟩ => ⟨S50000x128, .f32⟩
  | .hbm, ⟨88, _⟩ => ⟨S800000x1, .i32⟩
  | .hbm, ⟨89, _⟩ => ⟨S50000x128, .f32⟩
  | .hbm, ⟨90, _⟩ => ⟨S50000x1, .f32⟩
  | .hbm, ⟨91, _⟩ => ⟨S50000x128, .f32⟩
  | .hbm, ⟨92, _⟩ => ⟨S50000x128, .f32⟩
  | .hbm, ⟨93, _⟩ => ⟨S1x128, .f32⟩
  | .hbm, ⟨94, _⟩ => ⟨S50000x128, .f32⟩
  | .hbm, ⟨95, _⟩ => ⟨S50000x128, .f32⟩
  | .hbm, ⟨96, _⟩ => ⟨S_, .f32⟩
  | .hbm, ⟨97, _⟩ => ⟨S50000x128, .f32⟩
  | .hbm, ⟨98, _⟩ => ⟨S50000x128, .f32⟩
  | .hbm, ⟨99, _⟩ => ⟨S50000x1, .f32⟩
  | .hbm, ⟨100, _⟩ => ⟨S50000x128, .f32⟩
  | .hbm, ⟨101, _⟩ => ⟨S50000x128, .f32⟩
  | .hbm, ⟨102, _⟩ => ⟨S50000x64, .f32⟩
  | .hbm, ⟨103, _⟩ => ⟨S_, .i32⟩
  | .hbm, ⟨104, _⟩ => ⟨S800000, .i32⟩
  | .hbm, ⟨105, _⟩ => ⟨S800000, .i1⟩
  | .hbm, ⟨106, _⟩ => ⟨S_, .i32⟩
  | .hbm, ⟨107, _⟩ => ⟨S800000, .i32⟩
  | .hbm, ⟨108, _⟩ => ⟨S800000, .i32⟩
  | .hbm, ⟨109, _⟩ => ⟨S800000, .i32⟩
  | .hbm, ⟨110, _⟩ => ⟨S800000x1, .i32⟩
  | .hbm, ⟨111, _⟩ => ⟨S800000x64, .f32⟩
  | .hbm, ⟨112, _⟩ => ⟨S_, .f32⟩
  | .hbm, ⟨113, _⟩ => ⟨S50000x64, .f32⟩
  | .hbm, ⟨114, _⟩ => ⟨S800000x1, .i32⟩
  | .hbm, ⟨115, _⟩ => ⟨S50000x64, .f32⟩
  | .hbm, ⟨116, _⟩ => ⟨S50000x1, .f32⟩
  | .hbm, ⟨117, _⟩ => ⟨S50000x64, .f32⟩
  | .hbm, ⟨118, _⟩ => ⟨S50000x64, .f32⟩
  | .hbm, ⟨119, _⟩ => ⟨S1x64, .f32⟩
  | .hbm, ⟨120, _⟩ => ⟨S50000x64, .f32⟩
  | .hbm, ⟨121, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_cst_0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst_1 : Ref sig .tc := ⟨.hbm, 19, rfl⟩
abbrev main_call0_v0 : Ref sig .tc := ⟨.hbm, 20, rfl⟩
abbrev main_call0_v1 : Ref sig .tc := ⟨.hbm, 21, rfl⟩
abbrev main_v4 : Ref sig .tc := ⟨.hbm, 22, rfl⟩
abbrev main_cst_2 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_cst_3 : Ref sig .tc := ⟨.hbm, 27, rfl⟩
abbrev main_call1_v0 : Ref sig .tc := ⟨.hbm, 28, rfl⟩
abbrev main_call1_v1 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_c : Ref sig .tc := ⟨.hbm, 37, rfl⟩
abbrev main_v15 : Ref sig .tc := ⟨.hbm, 38, rfl⟩
abbrev main_v16 : Ref sig .tc := ⟨.hbm, 39, rfl⟩
abbrev main_c_4 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_cst_5 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_call2_cst : Ref sig .tc := ⟨.hbm, 56, rfl⟩
abbrev main_call2_v0 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_call3_cst : Ref sig .tc := ⟨.hbm, 63, rfl⟩
abbrev main_call3_v0 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_call4_cst : Ref sig .tc := ⟨.hbm, 70, rfl⟩
abbrev main_call4_v0 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_c_6 : Ref sig .tc := ⟨.hbm, 77, rfl⟩
abbrev main_v46 : Ref sig .tc := ⟨.hbm, 78, rfl⟩
abbrev main_v47 : Ref sig .tc := ⟨.hbm, 79, rfl⟩
abbrev main_c_7 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_cst_8 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_call5_cst : Ref sig .tc := ⟨.hbm, 96, rfl⟩
abbrev main_call5_v0 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_c_9 : Ref sig .tc := ⟨.hbm, 103, rfl⟩
abbrev main_v67 : Ref sig .tc := ⟨.hbm, 104, rfl⟩
abbrev main_v68 : Ref sig .tc := ⟨.hbm, 105, rfl⟩
abbrev main_c_10 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_cst_11 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S800000x1_S800000_n_0_0_1_wf : ScatterDims.WF S50000 S800000x1 S800000 [] [0] [0] 1
  dot_S50000x128_S128x128_S50000x128_1_0_0_1_n_n_wf : DotDims.WF S50000x128 S128x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x64_S50000x64_1_0_0_1_n_n_wf : DotDims.WF S50000x128 S128x64 S50000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

class Facts : Prop extends Facts₀ where

variable [Facts]
-- ==== Proof.SrcRange.lean ====
/-
  The range of the source indices. The precondition's last conjunct says that every source index s satisfies
  -50000 ≤ s and s < 50000 as signed 32-bit words; read back at one index it bounds the word's signed value.
-/
import proofs.«413461_j28398323761562_2_alg».proof.Defs
import proofs.«413461_j28398323761562_2_alg».proof.Proof.Gen.Pre_finite_inputs
import proofs.«413461_j28398323761562_2_alg».proof.Proof.Gen.KernelIdeal
import Idealize.ShloMosaic.Lib.ReduceAll
import Idealize.ShloMosaic.Lib.StableHlo.Predicate
import Idealize.ShloMosaic.Lib.IdealHost

noncomputable section

namespace Cert.Take

open Idealize.ShloMosaic Idealize.ShloMosaic.TcCoe Idealize.ShloMosaic.ValueIdx Idealize.SL.Sem

instance : Subsingleton Cert.Pre_finite_inputs.S_.Idx := ⟨fun a b => funext fun d => d.elim0⟩

/-- A 32-bit word at least the word of -50000 and below the word of 50000, both read signed, has its signed value in [-50000, 50000). -/
theorem word_range (w : BitVec 32) (ha : IntOp.cmpi .sge w 4294917296#32 = 1#1) (hb : IntOp.cmpi .slt w 50000#32 = 1#1) :
    (-50000 : Int) ≤ w.toInt ∧ w.toInt < 50000 := by
  unfold IntOp.cmpi at ha hb
  simp only [StableHlo.Predicate.ofBool_eq_one_iff] at ha hb
  rw [BitVec.sle_iff_toInt_le] at ha
  rw [BitVec.slt_iff_toInt_lt] at hb
  have e1 : (4294917296#32 : BitVec 32).toInt = -50000 := by decide
  have e2 : (50000#32 : BitVec 32).toInt = 50000 := by decide
  omega

/-- Every source index of a memory satisfying the precondition lies in [-50000, 50000). -/
theorem src_range (m : (ℓ : Loc Cert.KernelIdeal.nD Cert.KernelIdeal.τ Cert.KernelIdeal.sig) → Buf (Elt Ideal) ℓ) (hpre : Cert.Pre_KernelIdeal m) (c : Dev Cert.KernelIdeal.nD) (e : Cert.KernelIdeal.S800000.Idx) :
    (-50000 : Int) ≤ ((m ((c.tc : Thread Cert.KernelIdeal.nD Cert.KernelIdeal.τ).loc Cert.KernelIdeal.main_arg1) : IVec Cert.KernelIdeal.S800000 32) e).toInt ∧ ((m ((c.tc : Thread Cert.KernelIdeal.nD Cert.KernelIdeal.τ).loc Cert.KernelIdeal.main_arg1) : IVec Cert.KernelIdeal.S800000 32) e).toInt < 50000 := by
  have h := congrFun (hpre c) ValueIdx.ix0
  dsimp only [Cert.Pre_finite_inputs.fn, Cert.Pre_finite_inputs.fn_part1, Cert.Pre_finite_inputs.fn_part2, Cert.Pre_finite_inputs.fn_part3] at h
  have h2 := (IntOp.andi_eq_one.1 h).2
  clear h
  have h3 := Host.reduce_andi_all _ _ _ _ _ h2 e
  clear h2
  obtain ⟨ha, hb⟩ := IntOp.andi_eq_one.1 h3
  exact word_range _ ha hb

end Cert.Take

end
-- ==== Proof.TakeGather.lean ====
/-
  Gathering rows with an out-of-range mask, when no index is out of range.
  A source index s in [-50000, 50000) is normalised to s + 50000 if negative and to s otherwise, which lies in [0, 49999];
  the mask "0 ≤ normalised index ≤ 49999", reduced by `and` over its one column, is then one at every row, and selecting
  the gathered rows under it against any fill returns the gathered rows.
-/
import proofs.«413461_j28398323761562_2_alg».proof.Defs
import proofs.«413461_j28398323761562_2_alg».proof.Proof.Gen.Pre_finite_inputs
import proofs.«413461_j28398323761562_2_alg».proof.Proof.Gen.KernelIdeal
import proofs.«413461_j28398323761562_2_alg».proof.Proof.Gen.KernelIdeal.Launch
import Idealize.ShloMosaic.Lib.ReduceAll
import Idealize.ShloMosaic.Lib.StableHlo.Predicate
import Idealize.ShloMosaic.Lib.StableHlo.Run
import Idealize.ShloMosaic.Lib.IdealHost

noncomputable section

namespace Cert.Take

open Idealize.ShloMosaic Idealize.ShloMosaic.TcCoe Idealize.ShloMosaic.ValueIdx Idealize.SL.Sem
open Cert.KernelIdeal Cert.KernelIdeal.Gen

/-- The source indices as the gather reads them: a negative index moved up by the table's 50000 rows, then laid out as a column. -/
abbrev nidx (s : IVec S800000 32) : IVec S800000x1 32 :=
  broadcastInDim S800000x1 ![0] bcast_S800000_S800000x1_0
    (select (cmpi .slt s (broadcastInDim S800000 ![] bcast_S_S800000 (constantI S_ 32 0#32)))
      (addi s (broadcastInDim S800000 ![] bcast_S_S800000 (constantI S_ 32 50000#32))) s)

/-- Every source index lies in [-50000, 50000). -/
def InRange (s : IVec S800000 32) : Prop := ∀ e : S800000.Idx, (-50000 : Int) ≤ (s e).toInt ∧ (s e).toInt < 50000

/-! ## Words -/

/-- The normalised index word of a source index in [-50000, 50000) lies in [0, 49999], read signed. -/
theorem norm_word (w : BitVec 32) (h1 : (-50000 : Int) ≤ w.toInt) (h2 : w.toInt < 50000) :
    IntOp.andi (IntOp.cmpi .sge (Scalar.select (IntOp.cmpi .slt w 0#32) (IntOp.addi w 50000#32) w) 0#32)
      (IntOp.cmpi .sle (Scalar.select (IntOp.cmpi .slt w 0#32) (IntOp.addi w 50000#32) w) 49999#32) = 1#1 := by
  have e0 : (0#32 : BitVec 32).toInt = 0 := by decide
  have e1 : (50000#32 : BitVec 32).toInt = 50000 := by decide
  have e2 : (49999#32 : BitVec 32).toInt = 49999 := by decide
  rw [IntOp.andi_eq_one]
  by_cases hneg : w.slt 0#32 = true
  · have hc : IntOp.cmpi .slt w 0#32 = 1#1 := by unfold IntOp.cmpi; rw [hneg]; rfl
    have hlt : w.toInt < 0 := by have := BitVec.slt_iff_toInt_lt.1 hneg; omega
    have hadd : (w + 50000#32).toInt = w.toInt + 50000 := by
      rw [BitVec.toInt_add, e1]
      exact Int.bmod_eq_of_le_mul_two (by omega) (by omega)
    rw [hc, select_one]
    unfold IntOp.cmpi IntOp.addi
    simp only [StableHlo.Predicate.ofBool_eq_one_iff]
    constructor
    · rw [BitVec.sle_iff_toInt_le, hadd, e0]; omega
    · rw [BitVec.sle_iff_toInt_le, hadd, e2]; omega
  · have hf : w.slt 0#32 = false := by simpa using hneg
    have hc : IntOp.cmpi .slt w 0#32 = 0#1 := by unfold IntOp.cmpi; rw [hf]; rfl
    have hge : 0 ≤ w.toInt := by
      have := mt BitVec.slt_iff_toInt_lt.2 hneg; omega
    rw [hc, select_zero]
    unfold IntOp.cmpi
    simp only [StableHlo.Predicate.ofBool_eq_one_iff]
    constructor
    · rw [BitVec.sle_iff_toInt_le, e0]; omega
    · rw [BitVec.sle_iff_toInt_le, e2]; omega

/-! ## A conjunction of ones -/

/-- A left fold by `and` of ones from one is one. -/
theorem foldl_andi_ones {ι : Type} (l : List ι) : l.foldl (fun r _ => IntOp.andi r (1#1 : BitVec 1)) 1#1 = 1#1 := by
  induction l with
  | nil => rfl
  | cons a l ih => rw [List.foldl_cons, show IntOp.andi (1#1 : BitVec 1) 1#1 = 1#1 by decide]; exact ih

/-- A reduction by `and`, from one, of an array of ones is an array of ones. -/
theorem reduce_andi_ones {s t u : Shape} {axes : List (Fin s.rank)} (x : s.Idx → BitVec 1) (init : u.Idx → BitVec 1)
    (hx : ∀ i, x i = 1#1) (hi : ∀ i, init i = 1#1) (h : s.ReducesTo axes t) (hu : 0 < u.numel) (j : t.Idx) :
    Host.reduce IntOp.andi x init h hu j = 1#1 := by
  rw [Host.reduce_eq_foldl, hi, show x = fun _ => 1#1 from funext hx]
  exact foldl_andi_ones _

/-! ## The mask -/

/-- The in-bounds mask of the normalised indices is all ones when every source index is in range. -/
theorem mask_ones (s : IVec S800000 32) (h : InRange s) (e : S800000.Idx) :
    Host.reduce IntOp.andi
      (andi (cmpi .sge (nidx s) (broadcastInDim S800000x1 ![] bcast_S_S800000x1 (constantI S_ 32 0#32)))
        (cmpi .sle (nidx s) (broadcastInDim S800000x1 ![0, 1] bcast_S1x1_S800000x1_0_1
          (broadcastInDim S1x1 ![1] bcast_S1_S1x1_1 (constantI S1 32 49999#32)))))
      (constantI S_ 1 1#1) reducesTo_S800000x1_S800000_d1 h_S_ e = 1#1 := by
  apply reduce_andi_ones
  · intro j
    exact norm_word _ (h _).1 (h _).2
  · intro _; rfl

/-- Masking by the in-bounds mask, laid along the rows of the data, changes nothing when every source index is in range. -/
theorem select_mask {T : Shape} {α : Type} {dims : Fin S800000.rank → Fin T.rank} (hb : S800000.BroadcastsInDim T dims)
    (s : IVec S800000 32) (h : InRange s) (g f : T.Idx → α) :
    select (broadcastInDim T dims hb
      (Host.reduce IntOp.andi
        (andi (cmpi .sge (nidx s) (broadcastInDim S800000x1 ![] bcast_S_S800000x1 (constantI S_ 32 0#32)))
          (cmpi .sle (nidx s) (broadcastInDim S800000x1 ![0, 1] bcast_S1x1_S800000x1_0_1
            (broadcastInDim S1x1 ![1] bcast_S1_S1x1_1 (constantI S1 32 49999#32)))))
        (constantI S_ 1 1#1) reducesTo_S800000x1_S800000_d1 h_S_)) g f = g := by
  funext j
  rw [select_apply]
  have hm : broadcastInDim T dims hb
      (Host.reduce IntOp.andi
        (andi (cmpi .sge (nidx s) (broadcastInDim S800000x1 ![] bcast_S_S800000x1 (constantI S_ 32 0#32)))
          (cmpi .sle (nidx s) (broadcastInDim S800000x1 ![0, 1] bcast_S1x1_S800000x1_0_1
            (broadcastInDim S1x1 ![1] bcast_S1_S1x1_1 (constantI S1 32 49999#32)))))
        (constantI S_ 1 1#1) reducesTo_S800000x1_S800000_d1 h_S_) j = 1#1 := mask_ones s h _
  rw [hm, select_one]

/-- Contents moved to a buffer's own type and back are the contents. -/
theorem ofBuf_toBuf {sig : RefSig} {Val : EltTy → Type} {T : BufTy} (x : StableHlo.TRef sig T) (v : T.Contents Val) :
    x.ofBuf (x.toBuf v) = v := by
  unfold StableHlo.TRef.ofBuf StableHlo.TRef.toBuf
  rw [cast_cast, cast_eq]

/-- Contents read at a buffer's carried type are the contents, when the two types are the same. -/
theorem ofBuf_eq {sig : RefSig} {Val : EltTy → Type} {T : BufTy} (r : Ref sig .tc) (p1 : r.ty = T) (p2 : r.space ≠ .host)
    (p3 : r.isScoped = false) (u : r.ty.Contents Val) (u' : T.Contents Val) (hu : HEq u u') :
    (StableHlo.TRef.of r p1 p2 p3).ofBuf u = u' := by
  subst p1; exact eq_of_heq hu

/-- Contents written at a buffer's own type are the contents, when the two types are the same. -/
theorem toBuf_eq {sig : RefSig} {Val : EltTy → Type} {T : BufTy} (r : Ref sig .tc) (p1 : r.ty = T) (p2 : r.space ≠ .host)
    (p3 : r.isScoped = false) (v : T.Contents Val) (v' : r.ty.Contents Val) (hv : HEq v v') :
    (StableHlo.TRef.of r p1 p2 p3).toBuf v = v' := by
  subst p1; exact eq_of_heq hv

set_option maxHeartbeats 4000000 in
/-- The first masked gather, when every source index is in range, is the plain gather at the normalised indices. -/
theorem take1 (V : Valuation τ sig (Elt Ideal)) (h : InRange (V (Proc.devRef .tc main_arg1))) :
    StableHlo.after (hostOps1 (F := Ideal)) V (Proc.devRef .tc main_v19)
      = Host.gather gather_S50000x128_S800000x1_S800000x128_1_0_n_n_0_1_1128 (V (Proc.devRef .tc main_v18)) (nidx (V (Proc.devRef .tc main_arg1))) := by
  show StableHlo.after (hostOps1 (F := Ideal)) V (Proc.devRef .tc main_v19) = _
  after_results_simp
  simp only [ofBuf_toBuf]
  rw [ofBuf_eq (T := ⟨S800000, .i32⟩) main_arg1 _ _ _ _ (V (Proc.devRef .tc main_arg1)) HEq.rfl]
  rw [ofBuf_eq (T := ⟨S50000x128, .f32⟩) main_v18 _ _ _ _ (V (Proc.devRef .tc main_v18)) HEq.rfl]
  refine (toBuf_eq (T := ⟨S800000x128, .f32⟩) main_v19 _ _ _ _ _ HEq.rfl).trans ?_
  exact select_mask _ (V (Proc.devRef .tc main_arg1)) h _ _

set_option maxHeartbeats 4000000 in
/-- The second masked gather, when every source index is in range, is the plain gather at the normalised indices. -/
theorem take2 (V : Valuation τ sig (Elt Ideal)) (h : InRange (V (Proc.devRef .tc main_arg1))) :
    StableHlo.after (hostOps2 (F := Ideal)) V (Proc.devRef .tc main_v24)
      = Host.gather gather_S50000x128_S800000x1_S800000x128_1_0_n_n_0_1_1128 (V (Proc.devRef .tc main_v23)) (nidx (V (Proc.devRef .tc main_arg1))) := by
  show StableHlo.after (hostOps2 (F := Ideal)) V (Proc.devRef .tc main_v24) = _
  after_results_simp
  simp only [ofBuf_toBuf]
  rw [ofBuf_eq (T := ⟨S800000, .i32⟩) main_arg1 _ _ _ _ (V (Proc.devRef .tc main_arg1)) HEq.rfl]
  rw [ofBuf_eq (T := ⟨S50000x128, .f32⟩) main_v23 _ _ _ _ (V (Proc.devRef .tc main_v23)) HEq.rfl]
  refine (toBuf_eq (T := ⟨S800000x128, .f32⟩) main_v24 _ _ _ _ _ HEq.rfl).trans ?_
  exact select_mask _ (V (Proc.devRef .tc main_arg1)) h _ _

set_option maxHeartbeats 4000000 in
/-- The third masked gather, when every source index is in range, is the plain gather at the normalised indices. -/
theorem take3 (V : Valuation τ sig (Elt Ideal)) (h : InRange (V (Proc.devRef .tc main_arg1))) :
    StableHlo.after (hostOps3 (F := Ideal)) V (Proc.devRef .tc main_v29)
      = Host.gather gather_S50000x64_S800000x1_S800000x64_1_0_n_n_0_1_164 (V (Proc.devRef .tc main_v28)) (nidx (V (Proc.devRef .tc main_arg1))) := by
  show StableHlo.after (hostOps3 (F := Ideal)) V (Proc.devRef .tc main_v29) = _
  after_results_simp
  simp only [ofBuf_toBuf]
  rw [ofBuf_eq (T := ⟨S800000, .i32⟩) main_arg1 _ _ _ _ (V (Proc.devRef .tc main_arg1)) HEq.rfl]
  rw [ofBuf_eq (T := ⟨S50000x64, .f32⟩) main_v28 _ _ _ _ (V (Proc.devRef .tc main_v28)) HEq.rfl]
  refine (toBuf_eq (T := ⟨S800000x64, .f32⟩) main_v29 _ _ _ _ _ HEq.rfl).trans ?_
  exact select_mask _ (V (Proc.devRef .tc main_arg1)) h _ _

end Cert.Take

end
-- ==== Proof.Entry0.lean ====
/-
  What the TensorCore's buffers hold when the first region is entered: the arguments as launched, each bias vector
  as a one-row matrix, and the two degree-norm columns — the reciprocal square root of the degree count floored at
  one, the count a scatter-add of ones at the edge endpoints — as one-column matrices.
  Each stretch of host operations before the first region is read first over an arbitrary valuation, then the
  stretches are composed from the launch contents on; the reference's degree norms are the same functions.
-/
import proofs.«413461_j28398323761562_2_alg».proof.Proof.Gen.KernelIdeal.Frame
import proofs.«413461_j28398323761562_2_alg».proof.Proof.Gen.ReferenceIdeal.Read
import proofs.«413461_j28398323761562_2_alg».proof.Proof.TakeGather
import Idealize.ShloMosaic.Lib.StableHlo.Run
import Idealize.ShloMosaic.Lib.Pipeline.Value
import Idealize.ShloMosaic.Lib.ValueLayout
import Idealize.ShloMosaic.Lib.ValueIdx

set_option maxRecDepth 16384

noncomputable section

namespace Cert.Chain

open Cert.KernelIdeal Cert.KernelIdeal.Gen
open Idealize.ShloMosaic Idealize.ShloMosaic.TcCoe Idealize.ShloMosaic.ValueIdx Idealize.ShloMosaic.StableHlo
open Cert.Take (ofBuf_toBuf ofBuf_eq toBuf_eq)

/-- An `[a]` array cast to `[a, 1]` reads, at `(i, u)`, the operand at `i`, whatever the unit coordinate `u`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-! ## One stretch of host operations at a time, over an arbitrary valuation -/

section Stretches

variable (X : Valuation τ sig (Elt Ideal))

/-- A column floored by a scalar: the entry-wise maximum of the scalar, broadcast, and the column. -/
def floorAt (one : FVec Ideal S_ .f32) (s : FVec Ideal S50000 .f32) : FVec Ideal S50000 .f32 :=
  maximumf (broadcastInDim S50000 ![] bcast_S_S50000 (id one)) s

/-- The count: the update values added into a zero column at the given indices. -/
def countAt (idx : IVec S800000 32) (u : FVec Ideal S800000 .f32) : FVec Ideal S50000 .f32 :=
  Host.scatterAdd (F := Ideal) scatter_S50000_S800000x1_S800000_n_0_0_1
    (broadcastInDim S50000 ![] bcast_S_S50000 (constant (F := Ideal) S_ .f32 0x00000000#32))
    (broadcastInDim S800000x1 ![0] bcast_S800000_S800000x1_0 idx) u

/-- The column of ones. -/
def ones : FVec Ideal S800000 .f32 :=
  broadcastInDim S800000 ![] bcast_S_S800000 (constant (F := Ideal) S_ .f32 0x3F800000#32)

set_option maxHeartbeats 400000 in
theorem s0_v3 : StableHlo.after (hostOps0 (F := Ideal)) X (Proc.devRef .tc main_v3)
    = countAt (X (Proc.devRef .tc main_arg1)) ones := by
  after_results
  rfl

set_option maxHeartbeats 400000 in
theorem s0_v0 : StableHlo.after (hostOps0 (F := Ideal)) X (Proc.devRef .tc main_v0) = ones := by
  after_results
  rfl

set_option maxHeartbeats 400000 in
theorem s0_cst_1 : StableHlo.after (hostOps0 (F := Ideal)) X (Proc.devRef .tc main_cst_1)
    = constant (F := Ideal) S_ .f32 0x3F800000#32 := by
  after_results

set_option maxHeartbeats 400000 in
theorem s0_arg2 : StableHlo.after (hostOps0 (F := Ideal)) X (Proc.devRef .tc main_arg2) = X (Proc.devRef .tc main_arg2) := by
  after_results

set_option maxHeartbeats 400000 in
theorem s1_v4 : StableHlo.after (hostOps0_1 (F := Ideal)) X (Proc.devRef .tc main_v4)
    = floorAt (X (Proc.devRef .tc main_cst_1)) (X (Proc.devRef .tc main_v3)) := by
  after_results
  simp only [ofBuf_toBuf]
  rw [ofBuf_eq (T := ⟨S_, .f32⟩) main_cst_1 _ _ _ _ (X (Proc.devRef .tc main_cst_1)) HEq.rfl]
  rw [ofBuf_eq (T := ⟨S50000, .f32⟩) main_v3 _ _ _ _ (X (Proc.devRef .tc main_v3)) HEq.rfl]
  refine (toBuf_eq (T := ⟨S50000, .f32⟩) main_v4 _ _ _ _ _ HEq.rfl).trans ?_
  rfl

set_option maxHeartbeats 400000 in
theorem s1_v0 : StableHlo.after (hostOps0_1 (F := Ideal)) X (Proc.devRef .tc main_v0) = X (Proc.devRef .tc main_v0) := by
  after_results

set_option maxHeartbeats 400000 in
theorem s1_arg2 : StableHlo.after (hostOps0_1 (F := Ideal)) X (Proc.devRef .tc main_arg2) = X (Proc.devRef .tc main_arg2) := by
  after_results

set_option maxHeartbeats 400000 in
theorem s2_v7 : StableHlo.after (hostOps0_2 (F := Ideal)) X (Proc.devRef .tc main_v7)
    = countAt (X (Proc.devRef .tc main_arg2)) (X (Proc.devRef .tc main_v0)) := by
  after_results
  rfl

set_option maxHeartbeats 400000 in
theorem s2_cst_3 : StableHlo.after (hostOps0_2 (F := Ideal)) X (Proc.devRef .tc main_cst_3)
    = constant (F := Ideal) S_ .f32 0x3F800000#32 := by
  after_results

set_option maxHeartbeats 400000 in
theorem s2_v4 : StableHlo.after (hostOps0_2 (F := Ideal)) X (Proc.devRef .tc main_v4) = X (Proc.devRef .tc main_v4) := by
  after_results

set_option maxHeartbeats 400000 in
theorem s3_v8 : StableHlo.after (hostOps0_3 (F := Ideal)) X (Proc.devRef .tc main_v8)
    = floorAt (X (Proc.devRef .tc main_cst_3)) (X (Proc.devRef .tc main_v7)) := by
  after_results
  simp only [ofBuf_toBuf]
  rw [ofBuf_eq (T := ⟨S_, .f32⟩) main_cst_3 _ _ _ _ (X (Proc.devRef .tc main_cst_3)) HEq.rfl]
  rw [ofBuf_eq (T := ⟨S50000, .f32⟩) main_v7 _ _ _ _ (X (Proc.devRef .tc main_v7)) HEq.rfl]
  refine (toBuf_eq (T := ⟨S50000, .f32⟩) main_v8 _ _ _ _ _ HEq.rfl).trans ?_
  rfl

set_option maxHeartbeats 400000 in
theorem s3_v4 : StableHlo.after (hostOps0_3 (F := Ideal)) X (Proc.devRef .tc main_v4) = X (Proc.devRef .tc main_v4) := by
  after_results

set_option maxHeartbeats 400000 in
theorem s4_v11 : StableHlo.after (hostOps0_4 (F := Ideal)) X (Proc.devRef .tc main_v11)
    = shapeCast S50000x1 (Host.rsqrt (F := Ideal) (s := S50000) (φ := .f32) (X (Proc.devRef .tc main_v4))) shapeCasts_S50000_S50000x1 := by
  after_results
  rfl

set_option maxHeartbeats 400000 in
theorem s4_v12 : StableHlo.after (hostOps0_4 (F := Ideal)) X (Proc.devRef .tc main_v12)
    = shapeCast S50000x1 (Host.rsqrt (F := Ideal) (s := S50000) (φ := .f32) (X (Proc.devRef .tc main_v8))) shapeCasts_S50000_S50000x1 := by
  after_results
  rfl

end Stretches

/-! ## The reference's degree norms as the same functions -/

section Reference

open Cert.ReferenceIdeal.Read

/-- The reference's floor at one is the floor above. -/
theorem floor_ref0 (s : FVec Ideal S50000 .f32) :
    maximumf (val_main_call0_v1 (F := Ideal)) s = floorAt (constant (F := Ideal) S_ .f32 0x3F800000#32) s := rfl

theorem floor_ref1 (s : FVec Ideal S50000 .f32) :
    maximumf (val_main_call1_v1 (F := Ideal)) s = floorAt (constant (F := Ideal) S_ .f32 0x3F800000#32) s := rfl

set_option maxHeartbeats 400000 in
/-- The reference's count of the first endpoint array is the count above. -/
theorem count_ref3 (x1 : IVec S800000 32) : val_main_v3 (F := Ideal) x1 = countAt x1 ones := by
  unfold val_main_v3 val_main_v1 val_main_v2 val_main_v0 val_main_cst val_main_cst_0 countAt ones
  rfl

set_option maxHeartbeats 400000 in
/-- The reference's count of the second endpoint array is the count above. -/
theorem count_ref7 (x2 : IVec S800000 32) : val_main_v7 (F := Ideal) x2 = countAt x2 ones := by
  unfold val_main_v7 val_main_v5 val_main_v6 val_main_v0 val_main_cst val_main_cst_2 countAt ones
  rfl

/-- The reference's first degree norm. -/
theorem norm_ref9 (x1 : IVec S800000 32) :
    val_main_v9 (F := Ideal) x1
      = Host.rsqrt (F := Ideal) (s := S50000) (φ := .f32) (floorAt (constant (F := Ideal) S_ .f32 0x3F800000#32) (countAt x1 ones)) := by
  unfold val_main_v9 val_main_v4
  rw [count_ref3 x1, floor_ref0]

/-- The reference's second degree norm. -/
theorem norm_ref10 (x2 : IVec S800000 32) :
    val_main_v10 (F := Ideal) x2
      = Host.rsqrt (F := Ideal) (s := S50000) (φ := .f32) (floorAt (constant (F := Ideal) S_ .f32 0x3F800000#32) (countAt x2 ones)) := by
  unfold val_main_v10 val_main_v8
  rw [count_ref7 x2, floor_ref1]

end Reference

/-! ## The buffers at the first region's entry -/

section Entry

variable (m : (ℓ : Loc nD τ sig) → Buf (Elt Ideal) ℓ) (ρ : Dev nD → PrngReg)

/-! ### The arguments are as launched -/

set_option maxHeartbeats 400000 in
theorem w5_arg0 (c : Dev nD) : W5 m ρ c (Proc.devRef .tc main_arg0) = m ((c : Thread nD τ).loc main_arg0) := by
  dsimp only [W5]; after_results

set_option maxHeartbeats 400000 in
theorem w5_arg1 (c : Dev nD) : W5 m ρ c (Proc.devRef .tc main_arg1) = m ((c : Thread nD τ).loc main_arg1) := by
  dsimp only [W5]; after_results

set_option maxHeartbeats 400000 in
theorem w5_arg2 (c : Dev nD) : W5 m ρ c (Proc.devRef .tc main_arg2) = m ((c : Thread nD τ).loc main_arg2) := by
  dsimp only [W5]; after_results

set_option maxHeartbeats 400000 in
theorem w5_arg3 (c : Dev nD) : W5 m ρ c (Proc.devRef .tc main_arg3) = m ((c : Thread nD τ).loc main_arg3) := by
  dsimp only [W5]; after_results

set_option maxHeartbeats 400000 in
theorem w5_arg5 (c : Dev nD) : W5 m ρ c (Proc.devRef .tc main_arg5) = m ((c : Thread nD τ).loc main_arg5) := by
  dsimp only [W5]; after_results

set_option maxHeartbeats 400000 in
theorem w5_arg7 (c : Dev nD) : W5 m ρ c (Proc.devRef .tc main_arg7) = m ((c : Thread nD τ).loc main_arg7) := by
  dsimp only [W5]; after_results

set_option maxHeartbeats 400000 in
theorem w5_arg9 (c : Dev nD) : W5 m ρ c (Proc.devRef .tc main_arg9) = m ((c : Thread nD τ).loc main_arg9) := by
  dsimp only [W5]; after_results

set_option maxHeartbeats 400000 in
theorem w5_arg11 (c : Dev nD) : W5 m ρ c (Proc.devRef .tc main_arg11) = m ((c : Thread nD τ).loc main_arg11) := by
  dsimp only [W5]; after_results

/-! ### Each bias vector as a one-row matrix -/

set_option maxHeartbeats 400000 in
theorem w5_v13 (c : Dev nD) : W5 m ρ c (Proc.devRef .tc main_v13)
    = shapeCast S1x128 (m ((c : Thread nD τ).loc main_arg4)) shapeCasts_S128_S1x128 := by
  dsimp only [W5]; after_results; rfl

theorem w5_v13_apply (c : Dev nD) (k : Fin 128) :
    (W5 m ρ c (Proc.devRef .tc main_v13) : Vec Ideal S1x128 .f32) (ix2 (0 : Fin 1) k)
      = (m ((c : Thread nD τ).loc main_arg4) : Vec Ideal S128 .f32) (ix1 k) :=
  (congrFun (w5_v13 m ρ c) (ix2 (0 : Fin 1) k)).trans
    (shapeCast_a_1a_apply (m ((c : Thread nD τ).loc main_arg4) : Vec Ideal S128 .f32) shapeCasts_S128_S1x128 (0 : Fin 1) k)

set_option maxHeartbeats 400000 in
theorem w5_v14 (c : Dev nD) : W5 m ρ c (Proc.devRef .tc main_v14)
    = shapeCast S1x128 (m ((c : Thread nD τ).loc main_arg6)) shapeCasts_S128_S1x128 := by
  dsimp only [W5]; after_results; rfl

theorem w5_v14_apply (c : Dev nD) (k : Fin 128) :
    (W5 m ρ c (Proc.devRef .tc main_v14) : Vec Ideal S1x128 .f32) (ix2 (0 : Fin 1) k)
      = (m ((c : Thread nD τ).loc main_arg6) : Vec Ideal S128 .f32) (ix1 k) :=
  (congrFun (w5_v14 m ρ c) (ix2 (0 : Fin 1) k)).trans
    (shapeCast_a_1a_apply (m ((c : Thread nD τ).loc main_arg6) : Vec Ideal S128 .f32) shapeCasts_S128_S1x128 (0 : Fin 1) k)

set_option maxHeartbeats 400000 in
theorem w5_v15 (c : Dev nD) : W5 m ρ c (Proc.devRef .tc main_v15)
    = shapeCast S1x128 (m ((c : Thread nD τ).loc main_arg8)) shapeCasts_S128_S1x128 := by
  dsimp only [W5]; after_results; rfl

theorem w5_v15_apply (c : Dev nD) (k : Fin 128) :
    (W5 m ρ c (Proc.devRef .tc main_v15) : Vec Ideal S1x128 .f32) (ix2 (0 : Fin 1) k)
      = (m ((c : Thread nD τ).loc main_arg8) : Vec Ideal S128 .f32) (ix1 k) :=
  (congrFun (w5_v15 m ρ c) (ix2 (0 : Fin 1) k)).trans
    (shapeCast_a_1a_apply (m ((c : Thread nD τ).loc main_arg8) : Vec Ideal S128 .f32) shapeCasts_S128_S1x128 (0 : Fin 1) k)

set_option maxHeartbeats 400000 in
theorem w5_v16 (c : Dev nD) : W5 m ρ c (Proc.devRef .tc main_v16)
    = shapeCast S1x128 (m ((c : Thread nD τ).loc main_arg10)) shapeCasts_S128_S1x128 := by
  dsimp only [W5]; after_results; rfl

theorem w5_v16_apply (c : Dev nD) (k : Fin 128) :
    (W5 m ρ c (Proc.devRef .tc main_v16) : Vec Ideal S1x128 .f32) (ix2 (0 : Fin 1) k)
      = (m ((c : Thread nD τ).loc main_arg10) : Vec Ideal S128 .f32) (ix1 k) :=
  (congrFun (w5_v16 m ρ c) (ix2 (0 : Fin 1) k)).trans
    (shapeCast_a_1a_apply (m ((c : Thread nD τ).loc main_arg10) : Vec Ideal S128 .f32) shapeCasts_S128_S1x128 (0 : Fin 1) k)

set_option maxHeartbeats 400000 in
theorem w5_v17 (c : Dev nD) : W5 m ρ c (Proc.devRef .tc main_v17)
    = shapeCast S1x64 (m ((c : Thread nD τ).loc main_arg12)) shapeCasts_S64_S1x64 := by
  dsimp only [W5]; after_results; rfl

theorem w5_v17_apply (c : Dev nD) (k : Fin 64) :
    (W5 m ρ c (Proc.devRef .tc main_v17) : Vec Ideal S1x64 .f32) (ix2 (0 : Fin 1) k)
      = (m ((c : Thread nD τ).loc main_arg12) : Vec Ideal S64 .f32) (ix1 k) :=
  (congrFun (w5_v17 m ρ c) (ix2 (0 : Fin 1) k)).trans
    (shapeCast_a_1a_apply (m ((c : Thread nD τ).loc main_arg12) : Vec Ideal S64 .f32) shapeCasts_S64_S1x64 (0 : Fin 1) k)

/-! ### The two degree-norm columns, one stretch at a time -/

theorem w1_v3 (c : Dev nD) : W1 m ρ c (Proc.devRef .tc main_v3) = countAt (m ((c : Thread nD τ).loc main_arg1)) ones :=
  s0_v3 (W0 m ρ c)

theorem w1_v0 (c : Dev nD) : W1 m ρ c (Proc.devRef .tc main_v0) = ones := s0_v0 (W0 m ρ c)

theorem w1_cst_1 (c : Dev nD) : W1 m ρ c (Proc.devRef .tc main_cst_1) = constant (F := Ideal) S_ .f32 0x3F800000#32 :=
  s0_cst_1 (W0 m ρ c)

theorem w1_arg2 (c : Dev nD) : W1 m ρ c (Proc.devRef .tc main_arg2) = m ((c : Thread nD τ).loc main_arg2) :=
  s0_arg2 (W0 m ρ c)

theorem w2_v4 (c : Dev nD) : W2 m ρ c (Proc.devRef .tc main_v4)
    = floorAt (constant (F := Ideal) S_ .f32 0x3F800000#32) (countAt (m ((c : Thread nD τ).loc main_arg1)) ones) := by
  refine (s1_v4 (W1 m ρ c)).trans ?_
  rw [w1_cst_1 m ρ c, w1_v3 m ρ c]

theorem w2_v0 (c : Dev nD) : W2 m ρ c (Proc.devRef .tc main_v0) = ones := (s1_v0 (W1 m ρ c)).trans (w1_v0 m ρ c)

theorem w2_arg2 (c : Dev nD) : W2 m ρ c (Proc.devRef .tc main_arg2) = m ((c : Thread nD τ).loc main_arg2) :=
  (s1_arg2 (W1 m ρ c)).trans (w1_arg2 m ρ c)

theorem w3_v4 (c : Dev nD) : W3 m ρ c (Proc.devRef .tc main_v4)
    = floorAt (constant (F := Ideal) S_ .f32 0x3F800000#32) (countAt (m ((c : Thread nD τ).loc main_arg1)) ones) :=
  (s2_v4 (W2 m ρ c)).trans (w2_v4 m ρ c)

theorem w3_v7 (c : Dev nD) : W3 m ρ c (Proc.devRef .tc main_v7) = countAt (m ((c : Thread nD τ).loc main_arg2)) ones := by
  refine (s2_v7 (W2 m ρ c)).trans ?_
  rw [w2_arg2 m ρ c, w2_v0 m ρ c]

theorem w3_cst_3 (c : Dev nD) : W3 m ρ c (Proc.devRef .tc main_cst_3) = constant (F := Ideal) S_ .f32 0x3F800000#32 :=
  s2_cst_3 (W2 m ρ c)

theorem w4_v4 (c : Dev nD) : W4 m ρ c (Proc.devRef .tc main_v4)
    = floorAt (constant (F := Ideal) S_ .f32 0x3F800000#32) (countAt (m ((c : Thread nD τ).loc main_arg1)) ones) :=
  (s3_v4 (W3 m ρ c)).trans (w3_v4 m ρ c)

theorem w4_v8 (c : Dev nD) : W4 m ρ c (Proc.devRef .tc main_v8)
    = floorAt (constant (F := Ideal) S_ .f32 0x3F800000#32) (countAt (m ((c : Thread nD τ).loc main_arg2)) ones) := by
  refine (s3_v8 (W3 m ρ c)).trans ?_
  rw [w3_cst_3 m ρ c, w3_v7 m ρ c]

theorem w5_v11 (c : Dev nD) : W5 m ρ c (Proc.devRef .tc main_v11)
    = shapeCast S50000x1 (Host.rsqrt (F := Ideal) (s := S50000) (φ := .f32)
        (floorAt (constant (F := Ideal) S_ .f32 0x3F800000#32) (countAt (m ((c : Thread nD τ).loc main_arg1)) ones)))
        shapeCasts_S50000_S50000x1 := by
  refine (s4_v11 (W4 m ρ c)).trans ?_
  rw [w4_v4 m ρ c]

theorem w5_v12 (c : Dev nD) : W5 m ρ c (Proc.devRef .tc main_v12)
    = shapeCast S50000x1 (Host.rsqrt (F := Ideal) (s := S50000) (φ := .f32)
        (floorAt (constant (F := Ideal) S_ .f32 0x3F800000#32) (countAt (m ((c : Thread nD τ).loc main_arg2)) ones)))
        shapeCasts_S50000_S50000x1 := by
  refine (s4_v12 (W4 m ρ c)).trans ?_
  rw [w4_v8 m ρ c]

/-- The out-degree norm column at row r is the reference's first degree norm at r. -/
theorem w5_v11_apply (c : Dev nD) (r : Fin 50000) :
    (W5 m ρ c (Proc.devRef .tc main_v11) : Vec Ideal S50000x1 .f32) (ix2 r (0 : Fin 1))
      = Cert.ReferenceIdeal.Read.val_main_v9 (F := Ideal) (m ((c : Thread nD τ).loc main_arg1)) (ix1 r) :=
  (congrFun (w5_v11 m ρ c) (ix2 r (0 : Fin 1))).trans
    ((shapeCast_a_a1_apply _ shapeCasts_S50000_S50000x1 r (0 : Fin 1)).trans
      (congrFun (norm_ref9 (m ((c : Thread nD τ).loc main_arg1))).symm (ix1 r)))

/-- The in-degree norm column at row r is the reference's second degree norm at r. -/
theorem w5_v12_apply (c : Dev nD) (r : Fin 50000) :
    (W5 m ρ c (Proc.devRef .tc main_v12) : Vec Ideal S50000x1 .f32) (ix2 r (0 : Fin 1))
      = Cert.ReferenceIdeal.Read.val_main_v10 (F := Ideal) (m ((c : Thread nD τ).loc main_arg2)) (ix1 r) :=
  (congrFun (w5_v12 m ρ c) (ix2 r (0 : Fin 1))).trans
    ((shapeCast_a_a1_apply _ shapeCasts_S50000_S50000x1 r (0 : Fin 1)).trans
      (congrFun (norm_ref10 (m ((c : Thread nD τ).loc main_arg2))).symm (ix1 r)))

end Entry

end Cert.Chain

end
-- ==== Proof.Between1.lean ====
/-
  The two host stretches between region 0 and region 1: the gather of source rows (stretch `hostOps1`) and the
  segment sum over destination nodes (stretch `hostOps1_1`). Neither writes a buffer that a later region or stretch
  reads, other than its own result: at every such buffer the fold over both stretches is the identity. The segment
  sum's result is the scatter-add, into zeros, of the gathered rows at the destination indices.
-/
import proofs.«413461_j28398323761562_2_alg».proof.Proof.Gen.KernelIdeal.Launch
import Idealize.ShloMosaic.Lib.StableHlo.Run
import Idealize.ShloMosaic.PureOps.Ideal

set_option maxRecDepth 16384

noncomputable section

namespace Cert.Chain

open Cert.KernelIdeal Cert.KernelIdeal.Gen
open Idealize.ShloMosaic Idealize.ShloMosaic.TcCoe Idealize.SL.Sem Idealize.ShloMosaic.StableHlo

variable (V : Valuation τ sig (Elt Ideal))

/-- The segment sum: what stretch `hostOps1_1` leaves in `main_v22`, from the gathered rows `main_v19` and the destination indices. -/
theorem seg1 : after (hostOps1_1 (F := Ideal)) V (Proc.devRef .tc main_v22) =
    Host.scatterAdd (F := Ideal) scatter_S50000x128_S800000x1_S800000x128_1_0_0_1 (broadcastInDim S50000x128 ![] bcast_S_S50000x128 (constant (F := Ideal) S_ .f32 0x00000000#32))
      (broadcastInDim S800000x1 ![0] bcast_S800000_S800000x1_0 (V (Proc.devRef .tc main_arg2))) (V (Proc.devRef .tc main_v19)) := by
  after_results <;> rfl

/-- The gather stretch does not write the destination indices. -/
theorem take1_arg2 : after (hostOps1 (F := Ideal)) V (Proc.devRef .tc main_arg2) = V (Proc.devRef .tc main_arg2) := by
  after_results

theorem btw1_v12 : after (hostOps1_1 (F := Ideal)) (after (hostOps1 (F := Ideal)) V) (Proc.devRef .tc main_v12) = V (Proc.devRef .tc main_v12) := by
  after_results

theorem btw1_v13 : after (hostOps1_1 (F := Ideal)) (after (hostOps1 (F := Ideal)) V) (Proc.devRef .tc main_v13) = V (Proc.devRef .tc main_v13) := by
  after_results

theorem btw1_arg5 : after (hostOps1_1 (F := Ideal)) (after (hostOps1 (F := Ideal)) V) (Proc.devRef .tc main_arg5) = V (Proc.devRef .tc main_arg5) := by
  after_results

theorem btw1_v14 : after (hostOps1_1 (F := Ideal)) (after (hostOps1 (F := Ideal)) V) (Proc.devRef .tc main_v14) = V (Proc.devRef .tc main_v14) := by
  after_results

theorem btw1_arg7 : after (hostOps1_1 (F := Ideal)) (after (hostOps1 (F := Ideal)) V) (Proc.devRef .tc main_arg7) = V (Proc.devRef .tc main_arg7) := by
  after_results

theorem btw1_v15 : after (hostOps1_1 (F := Ideal)) (after (hostOps1 (F := Ideal)) V) (Proc.devRef .tc main_v15) = V (Proc.devRef .tc main_v15) := by
  after_results

theorem btw1_v11 : after (hostOps1_1 (F := Ideal)) (after (hostOps1 (F := Ideal)) V) (Proc.devRef .tc main_v11) = V (Proc.devRef .tc main_v11) := by
  after_results

theorem btw1_arg9 : after (hostOps1_1 (F := Ideal)) (after (hostOps1 (F := Ideal)) V) (Proc.devRef .tc main_arg9) = V (Proc.devRef .tc main_arg9) := by
  after_results

theorem btw1_v16 : after (hostOps1_1 (F := Ideal)) (after (hostOps1 (F := Ideal)) V) (Proc.devRef .tc main_v16) = V (Proc.devRef .tc main_v16) := by
  after_results

theorem btw1_v17 : after (hostOps1_1 (F := Ideal)) (after (hostOps1 (F := Ideal)) V) (Proc.devRef .tc main_v17) = V (Proc.devRef .tc main_v17) := by
  after_results

theorem btw1_arg1 : after (hostOps1_1 (F := Ideal)) (after (hostOps1 (F := Ideal)) V) (Proc.devRef .tc main_arg1) = V (Proc.devRef .tc main_arg1) := by
  after_results

theorem btw1_arg2 : after (hostOps1_1 (F := Ideal)) (after (hostOps1 (F := Ideal)) V) (Proc.devRef .tc main_arg2) = V (Proc.devRef .tc main_arg2) := by
  after_results

theorem btw1_arg11 : after (hostOps1_1 (F := Ideal)) (after (hostOps1 (F := Ideal)) V) (Proc.devRef .tc main_arg11) = V (Proc.devRef .tc main_arg11) := by
  after_results

end Cert.Chain

end
-- ==== Proof.Between2.lean ====
/-
  The two host stretches between region 1 and region 2: the gather of source rows (stretch `hostOps2`) and the
  segment sum over destination nodes (stretch `hostOps2_1`). Neither writes a buffer that a later region or stretch
  reads, other than its own result: at every such buffer the fold over both stretches is the identity. The segment
  sum's result is the scatter-add, into zeros, of the gathered rows at the destination indices.
-/
import proofs.«413461_j28398323761562_2_alg».proof.Proof.Gen.KernelIdeal.Launch
import Idealize.ShloMosaic.Lib.StableHlo.Run
import Idealize.ShloMosaic.PureOps.Ideal

set_option maxRecDepth 16384

noncomputable section

namespace Cert.Chain

open Cert.KernelIdeal Cert.KernelIdeal.Gen
open Idealize.ShloMosaic Idealize.ShloMosaic.TcCoe Idealize.SL.Sem Idealize.ShloMosaic.StableHlo

variable (V : Valuation τ sig (Elt Ideal))

/-- The segment sum: what stretch `hostOps2_1` leaves in `main_v27`, from the gathered rows `main_v24` and the destination indices. -/
theorem seg2 : after (hostOps2_1 (F := Ideal)) V (Proc.devRef .tc main_v27) =
    Host.scatterAdd (F := Ideal) scatter_S50000x128_S800000x1_S800000x128_1_0_0_1 (broadcastInDim S50000x128 ![] bcast_S_S50000x128 (constant (F := Ideal) S_ .f32 0x00000000#32))
      (broadcastInDim S800000x1 ![0] bcast_S800000_S800000x1_0 (V (Proc.devRef .tc main_arg2))) (V (Proc.devRef .tc main_v24)) := by
  after_results <;> rfl

/-- The gather stretch does not write the destination indices. -/
theorem take2_arg2 : after (hostOps2 (F := Ideal)) V (Proc.devRef .tc main_arg2) = V (Proc.devRef .tc main_arg2) := by
  after_results

theorem btw2_v12 : after (hostOps2_1 (F := Ideal)) (after (hostOps2 (F := Ideal)) V) (Proc.devRef .tc main_v12) = V (Proc.devRef .tc main_v12) := by
  after_results

theorem btw2_v16 : after (hostOps2_1 (F := Ideal)) (after (hostOps2 (F := Ideal)) V) (Proc.devRef .tc main_v16) = V (Proc.devRef .tc main_v16) := by
  after_results

theorem btw2_v11 : after (hostOps2_1 (F := Ideal)) (after (hostOps2 (F := Ideal)) V) (Proc.devRef .tc main_v11) = V (Proc.devRef .tc main_v11) := by
  after_results

theorem btw2_arg11 : after (hostOps2_1 (F := Ideal)) (after (hostOps2 (F := Ideal)) V) (Proc.devRef .tc main_arg11) = V (Proc.devRef .tc main_arg11) := by
  after_results

theorem btw2_v17 : after (hostOps2_1 (F := Ideal)) (after (hostOps2 (F := Ideal)) V) (Proc.devRef .tc main_v17) = V (Proc.devRef .tc main_v17) := by
  after_results

theorem btw2_arg1 : after (hostOps2_1 (F := Ideal)) (after (hostOps2 (F := Ideal)) V) (Proc.devRef .tc main_arg1) = V (Proc.devRef .tc main_arg1) := by
  after_results

theorem btw2_arg2 : after (hostOps2_1 (F := Ideal)) (after (hostOps2 (F := Ideal)) V) (Proc.devRef .tc main_arg2) = V (Proc.devRef .tc main_arg2) := by
  after_results

end Cert.Chain

end
-- ==== Proof.Between3.lean ====
/-
  The two host stretches between region 2 and region 3: the gather of source rows (stretch `hostOps3`) and the
  segment sum over destination nodes (stretch `hostOps3_1`). Neither writes a buffer that a later region or stretch
  reads, other than its own result: at every such buffer the fold over both stretches is the identity. The segment
  sum's result is the scatter-add, into zeros, of the gathered rows at the destination indices.
-/
import proofs.«413461_j28398323761562_2_alg».proof.Proof.Gen.KernelIdeal.Launch
import Idealize.ShloMosaic.Lib.StableHlo.Run
import Idealize.ShloMosaic.PureOps.Ideal

set_option maxRecDepth 16384

noncomputable section

namespace Cert.Chain

open Cert.KernelIdeal Cert.KernelIdeal.Gen
open Idealize.ShloMosaic Idealize.ShloMosaic.TcCoe Idealize.SL.Sem Idealize.ShloMosaic.StableHlo

variable (V : Valuation τ sig (Elt Ideal))

/-- The segment sum: what stretch `hostOps3_1` leaves in `main_v32`, from the gathered rows `main_v29` and the destination indices. -/
theorem seg3 : after (hostOps3_1 (F := Ideal)) V (Proc.devRef .tc main_v32) =
    Host.scatterAdd (F := Ideal) scatter_S50000x64_S800000x1_S800000x64_1_0_0_1 (broadcastInDim S50000x64 ![] bcast_S_S50000x64 (constant (F := Ideal) S_ .f32 0x00000000#32))
      (broadcastInDim S800000x1 ![0] bcast_S800000_S800000x1_0 (V (Proc.devRef .tc main_arg2))) (V (Proc.devRef .tc main_v29)) := by
  after_results <;> rfl

/-- The gather stretch does not write the destination indices. -/
theorem take3_arg2 : after (hostOps3 (F := Ideal)) V (Proc.devRef .tc main_arg2) = V (Proc.devRef .tc main_arg2) := by
  after_results

theorem btw3_v12 : after (hostOps3_1 (F := Ideal)) (after (hostOps3 (F := Ideal)) V) (Proc.devRef .tc main_v12) = V (Proc.devRef .tc main_v12) := by
  after_results

theorem btw3_v17 : after (hostOps3_1 (F := Ideal)) (after (hostOps3 (F := Ideal)) V) (Proc.devRef .tc main_v17) = V (Proc.devRef .tc main_v17) := by
  after_results

end Cert.Chain

end
-- ==== Proof.AggEq.lean ====
/-
  The aggregation between two layers is ONE host term in both programs: the rows of a node-feature matrix h gathered at
  the normalised source indices, scatter-added into zeros at the destination indices. The kernel's program and the
  reference's spell it over their own copies of the same dimension records and index constants; the three lemmas
  here identify the two spellings, for any h and any index words, without opening the gather or the sum.
-/
import proofs.«413461_j28398323761562_2_alg».proof.Proof.TakeGather
import proofs.«413461_j28398323761562_2_alg».proof.Proof.Gen.ReferenceIdeal.Read

noncomputable section

namespace Cert.Chain

open Idealize.ShloMosaic Idealize.ShloMosaic.TcCoe
open Cert.KernelIdeal Cert.KernelIdeal.Facts₀ Cert.KernelIdeal.Facts
open Cert.ReferenceIdeal.Read

/-- Layer 0's aggregation: the kernel's spelling is the reference's stages 20 to 24 applied to h. -/
theorem agg_v24 (h : FVec Ideal S50000x128 .f32) (s d : IVec S800000 32) :
    Host.scatterAdd (F := Ideal) scatter_S50000x128_S800000x1_S800000x128_1_0_0_1
      (broadcastInDim S50000x128 ![] bcast_S_S50000x128 (constant (F := Ideal) S_ .f32 0x00000000#32))
      (broadcastInDim S800000x1 ![0] bcast_S800000_S800000x1_0 d)
      (Host.gather gather_S50000x128_S800000x1_S800000x128_1_0_n_n_0_1_1128 h (Cert.Take.nidx s))
    = Host.scatterAdd (F := Ideal) Cert.ReferenceIdeal.scatter_S50000x128_S800000x1_S800000x128_1_0_0_1 (val_main_v22 (F := Ideal)) (val_main_v23 (F := Ideal) d)
      (Host.gather Cert.ReferenceIdeal.gather_S50000x128_S800000x1_S800000x128_1_0_n_n_0_1_1128 h (val_main_v20 (F := Ideal) s)) := by
  unfold val_main_v22 val_main_cst_5 val_main_v23 val_main_v20 val_main_v19 val_main_v16 val_main_v15 val_main_c val_main_v18 val_main_v17 val_main_c_4 Cert.Take.nidx
  rfl

/-- Layer 1's aggregation: the kernel's spelling is the reference's stages 51 to 55 applied to h. -/
theorem agg_v55 (h : FVec Ideal S50000x128 .f32) (s d : IVec S800000 32) :
    Host.scatterAdd (F := Ideal) scatter_S50000x128_S800000x1_S800000x128_1_0_0_1
      (broadcastInDim S50000x128 ![] bcast_S_S50000x128 (constant (F := Ideal) S_ .f32 0x00000000#32))
      (broadcastInDim S800000x1 ![0] bcast_S800000_S800000x1_0 d)
      (Host.gather gather_S50000x128_S800000x1_S800000x128_1_0_n_n_0_1_1128 h (Cert.Take.nidx s))
    = Host.scatterAdd (F := Ideal) Cert.ReferenceIdeal.scatter_S50000x128_S800000x1_S800000x128_1_0_0_1 (val_main_v53 (F := Ideal)) (val_main_v54 (F := Ideal) d)
      (Host.gather Cert.ReferenceIdeal.gather_S50000x128_S800000x1_S800000x128_1_0_n_n_0_1_1128 h (val_main_v51 (F := Ideal) s)) := by
  unfold val_main_v53 val_main_cst_8 val_main_v54 val_main_v51 val_main_v50 val_main_v47 val_main_v46 val_main_c_6 val_main_v49 val_main_v48 val_main_c_7 Cert.Take.nidx
  rfl

/-- Layer 2's aggregation (64 features): the kernel's spelling is the reference's stages 72 to 76 applied to h. -/
theorem agg_v76 (h : FVec Ideal S50000x64 .f32) (s d : IVec S800000 32) :
    Host.scatterAdd (F := Ideal) scatter_S50000x64_S800000x1_S800000x64_1_0_0_1
      (broadcastInDim S50000x64 ![] bcast_S_S50000x64 (constant (F := Ideal) S_ .f32 0x00000000#32))
      (broadcastInDim S800000x1 ![0] bcast_S800000_S800000x1_0 d)
      (Host.gather gather_S50000x64_S800000x1_S800000x64_1_0_n_n_0_1_164 h (Cert.Take.nidx s))
    = Host.scatterAdd (F := Ideal) Cert.ReferenceIdeal.scatter_S50000x64_S800000x1_S800000x64_1_0_0_1 (val_main_v74 (F := Ideal)) (val_main_v75 (F := Ideal) d)
      (Host.gather Cert.ReferenceIdeal.gather_S50000x64_S800000x1_S800000x64_1_0_n_n_0_1_164 h (val_main_v72 (F := Ideal) s)) := by
  unfold val_main_v74 val_main_cst_11 val_main_v75 val_main_v72 val_main_v71 val_main_v68 val_main_v67 val_main_c_9 val_main_v70 val_main_v69 val_main_c_10 Cert.Take.nidx
  rfl

end Cert.Chain

end
-- ==== Proof.Spec.lean ====
/-
  The row functions of the three graph-convolution layers, over the extended reals.
  Every dense stage of the network acts on ONE row of node features at a time (a node's 128 or 64 features):
  a projection  q ↦ Σ_k (h k · s) · W k q  of the row scaled by the node's out-degree norm s,
  a post-aggregation step  q ↦ a q · d + b q  (in-degree norm d, bias b), a rectifier, and a dense layer.
  Kernel and reference are compared row by row against these functions; the aggregation between layers
  (gather of source rows, segment sum over destination nodes) is the same host term on both sides and is never opened.
-/
import Idealize.ShloMosaic.PureOps.Ideal.Laws

noncomputable section

namespace Cert.Spec

open Idealize.ShloMosaic

/-- The float zero both programs rectify against, kept as its bit pattern. -/
abbrev z32 : EReal := Ideal.ofBits .f32 0x00000000#32

/-- A feature row scaled by a scalar and projected through a weight matrix: q ↦ Σ_k (h k · s) · W k q. -/
def proj {n : Nat} (h : Fin 128 → EReal) (s : EReal) (W : Fin 128 → Fin n → EReal) : Fin n → EReal :=
  fun q => ∑ k : Fin 128, (h k * s) * W k q

/-- An aggregated row scaled by a scalar plus a bias row: q ↦ a q · d + b q. -/
def post {n : Nat} (a : Fin n → EReal) (d : EReal) (b : Fin n → EReal) : Fin n → EReal :=
  fun q => a q * d + b q

/-- The rectifier, entry by entry: q ↦ max (v q) 0. -/
def relu {n : Nat} (v : Fin n → EReal) : Fin n → EReal := fun q => max (v q) z32

/-- A dense layer on a row: q ↦ (Σ_k h k · W k q) + b q. -/
def dense (h : Fin 128 → EReal) (W : Fin 128 → Fin 128 → EReal) (b : Fin 128 → EReal) : Fin 128 → EReal :=
  fun q => (∑ k : Fin 128, h k * W k q) + b q

/-- Layer 0 after aggregation, its two inner dense layers, and layer 1's projection, on one row. -/
def layer1 (a : Fin 128 → EReal) (d : EReal) (b0 : Fin 128 → EReal) (fcW : Fin 128 → Fin 128 → EReal) (fcb : Fin 128 → EReal)
    (fc2W : Fin 128 → Fin 128 → EReal) (fc2b : Fin 128 → EReal) (s : EReal) (W1 : Fin 128 → Fin 128 → EReal) : Fin 128 → EReal :=
  proj (relu (dense (relu (dense (relu (post a d b0)) fcW fcb)) fc2W fc2b)) s W1

/-- Layer 1 after aggregation and layer 2's projection, on one row. -/
def layer2 (a : Fin 128 → EReal) (d : EReal) (b1 : Fin 128 → EReal) (s : EReal) (W2 : Fin 128 → Fin 64 → EReal) : Fin 64 → EReal :=
  proj (relu (post a d b1)) s W2

end Cert.Spec

end
-- ==== Proof.KMatmul.lean ====
/-
  The kernel's two matrix products into a zero accumulator, read at a coordinate pair:
  entry (p, q) of  l · r  is  Σ_k l (p, k) · r (k, q),  the contraction running over the 128 shared features.
  Each product's dimension numbers contract axis 1 of the left operand with axis 0 of the right; the four axis
  lemmas per record say which coordinate of the output index or of the contraction index each operand axis reads.
-/
import proofs.«413461_j28398323761562_2_alg».proof.KernelIdeal
import Idealize.ShloMosaic.Lib.ValueIdx
import Idealize.ShloMosaic.PureOps.Ideal.Laws

noncomputable section

namespace Cert.KV

open Cert.KernelIdeal Idealize.ShloMosaic Idealize.ShloMosaic.TcCoe Idealize.ShloMosaic.ValueIdx

variable [Cert.KernelIdeal.Facts]

/-! ## The [5000,128] × [128,128] product -/

theorem lhs128_0 (i : S5000x128.Idx) (c : dot_S5000x128_S128x128_S5000x128_1_0_0_1_n_n.contr.Idx) :
    (dot_S5000x128_S128x128_S5000x128_1_0_0_1_n_n.lhsIdx i c 0).val = (i 0).val := by
  unfold DotDims.lhsIdx
  rw [dif_neg (show ¬(0 : Fin S5000x128.rank) ∈ dot_S5000x128_S128x128_S5000x128_1_0_0_1_n_n.lhsBatch from List.not_mem_nil), dif_pos (show (0 : Fin S5000x128.rank) ∈ dot_S5000x128_S128x128_S5000x128_1_0_0_1_n_n.lhsNonContracting from List.mem_singleton.mpr rfl)]
  rfl
theorem lhs128_1 (i : S5000x128.Idx) (c : dot_S5000x128_S128x128_S5000x128_1_0_0_1_n_n.contr.Idx) :
    (dot_S5000x128_S128x128_S5000x128_1_0_0_1_n_n.lhsIdx i c 1).val = (c ⟨0, Nat.one_pos⟩).val :=
  dot_S5000x128_S128x128_S5000x128_1_0_0_1_n_n.lhsIdx_val_of_single rfl i c
theorem rhs128_0 (i : S5000x128.Idx) (c : dot_S5000x128_S128x128_S5000x128_1_0_0_1_n_n.contr.Idx) :
    (dot_S5000x128_S128x128_S5000x128_1_0_0_1_n_n.rhsIdx i c 0).val = (c ⟨0, Nat.one_pos⟩).val :=
  dot_S5000x128_S128x128_S5000x128_1_0_0_1_n_n.rhsIdx_val_of_single rfl i c
theorem rhs128_1 (i : S5000x128.Idx) (c : dot_S5000x128_S128x128_S5000x128_1_0_0_1_n_n.contr.Idx) :
    (dot_S5000x128_S128x128_S5000x128_1_0_0_1_n_n.rhsIdx i c 1).val = (i 1).val := by
  unfold DotDims.rhsIdx
  rw [dif_neg (show ¬(1 : Fin S128x128.rank) ∈ dot_S5000x128_S128x128_S5000x128_1_0_0_1_n_n.rhsBatch from List.not_mem_nil), dif_pos (show (1 : Fin S128x128.rank) ∈ dot_S5000x128_S128x128_S5000x128_1_0_0_1_n_n.rhsNonContracting from List.mem_singleton.mpr rfl)]
  rfl

/-- Entry (p, q) of the [5000,128] × [128,128] product into a zero accumulator is Σ_k l (p, k) · r (k, q). -/
theorem mm128_apply {φ₁ φ₂ : FTy} (l : FVec Ideal S5000x128 φ₁) (r : FVec Ideal S128x128 φ₂) (p : Fin 5000) (q : Fin 128) :
    matmul dot_S5000x128_S128x128_S5000x128_1_0_0_1_n_n none l r (constant S5000x128 .f32 0x00000000#32) (ix2 p q)
      = ∑ k : Fin 128, l (ix2 p k) * r (ix2 k q) := by
  show FloatOps.matmul dot_S5000x128_S128x128_S5000x128_1_0_0_1_n_n none l r (constant S5000x128 .f32 0x00000000#32) (ix2 p q) = _
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact lhs128_0 _ _
    | ⟨1, _⟩ => exact (lhs128_1 _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (rhs128_0 _ _).trans hk
    | ⟨1, _⟩ => exact rhs128_1 _ _)
  rw [el, er]

/-! ## The [5000,128] × [128,64] product -/

theorem lhs64_0 (i : S5000x64.Idx) (c : dot_S5000x128_S128x64_S5000x64_1_0_0_1_n_n.contr.Idx) :
    (dot_S5000x128_S128x64_S5000x64_1_0_0_1_n_n.lhsIdx i c 0).val = (i 0).val := by
  unfold DotDims.lhsIdx
  rw [dif_neg (show ¬(0 : Fin S5000x128.rank) ∈ dot_S5000x128_S128x64_S5000x64_1_0_0_1_n_n.lhsBatch from List.not_mem_nil), dif_pos (show (0 : Fin S5000x128.rank) ∈ dot_S5000x128_S128x64_S5000x64_1_0_0_1_n_n.lhsNonContracting from List.mem_singleton.mpr rfl)]
  rfl
theorem lhs64_1 (i : S5000x64.Idx) (c : dot_S5000x128_S128x64_S5000x64_1_0_0_1_n_n.contr.Idx) :
    (dot_S5000x128_S128x64_S5000x64_1_0_0_1_n_n.lhsIdx i c 1).val = (c ⟨0, Nat.one_pos⟩).val :=
  dot_S5000x128_S128x64_S5000x64_1_0_0_1_n_n.lhsIdx_val_of_single rfl i c
theorem rhs64_0 (i : S5000x64.Idx) (c : dot_S5000x128_S128x64_S5000x64_1_0_0_1_n_n.contr.Idx) :
    (dot_S5000x128_S128x64_S5000x64_1_0_0_1_n_n.rhsIdx i c 0).val = (c ⟨0, Nat.one_pos⟩).val :=
  dot_S5000x128_S128x64_S5000x64_1_0_0_1_n_n.rhsIdx_val_of_single rfl i c
theorem rhs64_1 (i : S5000x64.Idx) (c : dot_S5000x128_S128x64_S5000x64_1_0_0_1_n_n.contr.Idx) :
    (dot_S5000x128_S128x64_S5000x64_1_0_0_1_n_n.rhsIdx i c 1).val = (i 1).val := by
  unfold DotDims.rhsIdx
  rw [dif_neg (show ¬(1 : Fin S128x64.rank) ∈ dot_S5000x128_S128x64_S5000x64_1_0_0_1_n_n.rhsBatch from List.not_mem_nil), dif_pos (show (1 : Fin S128x64.rank) ∈ dot_S5000x128_S128x64_S5000x64_1_0_0_1_n_n.rhsNonContracting from List.mem_singleton.mpr rfl)]
  rfl

/-- Entry (p, q) of the [5000,128] × [128,64] product into a zero accumulator is Σ_k l (p, k) · r (k, q). -/
theorem mm64_apply {φ₁ φ₂ : FTy} (l : FVec Ideal S5000x128 φ₁) (r : FVec Ideal S128x64 φ₂) (p : Fin 5000) (q : Fin 64) :
    matmul dot_S5000x128_S128x64_S5000x64_1_0_0_1_n_n none l r (constant S5000x64 .f32 0x00000000#32) (ix2 p q)
      = ∑ k : Fin 128, l (ix2 p k) * r (ix2 k q) := by
  show FloatOps.matmul dot_S5000x128_S128x64_S5000x64_1_0_0_1_n_n none l r (constant S5000x64 .f32 0x00000000#32) (ix2 p q) = _
  rw [Ideal.matmul_constant_zero_apply, ← Equiv.sum_comp (ValueIdx.contrEquiv1 dot_S5000x128_S128x64_S5000x64_1_0_0_1_n_n 128 rfl rfl).symm]
  refine Finset.sum_congr rfl fun k _ => ?_
  have hk := ValueIdx.contrEquiv1_symm_val dot_S5000x128_S128x64_S5000x64_1_0_0_1_n_n 128 rfl rfl k
  have el : dot_S5000x128_S128x64_S5000x64_1_0_0_1_n_n.lhsIdx (ix2 p q) ((ValueIdx.contrEquiv1 dot_S5000x128_S128x64_S5000x64_1_0_0_1_n_n 128 rfl rfl).symm k) = ix2 p k := funext fun a => Fin.ext (by
    match a with
    | ⟨0, _⟩ => exact lhs64_0 _ _
    | ⟨1, _⟩ => exact (lhs64_1 _ _).trans hk)
  have er : dot_S5000x128_S128x64_S5000x64_1_0_0_1_n_n.rhsIdx (ix2 p q) ((ValueIdx.contrEquiv1 dot_S5000x128_S128x64_S5000x64_1_0_0_1_n_n 128 rfl rfl).symm k) = ix2 k q := funext fun a => Fin.ext (by
    match a with
    | ⟨0, _⟩ => exact (rhs64_0 _ _).trans hk
    | ⟨1, _⟩ => exact rhs64_1 _ _)
  rw [el, er]

end Cert.KV

end
-- ==== Proof.Body3.lean ====
/-
  The last region's body at a coordinate pair: the aggregated row scaled by the in-degree norm plus the bias row.
  Also the column broadcast [a,1] → [a,b] read at a coordinate pair, used by every region's body.
-/
import proofs.«413461_j28398323761562_2_alg».proof.Proof.Gen.KernelIdeal.Frame
import proofs.«413461_j28398323761562_2_alg».proof.Proof.Spec
import Idealize.ShloMosaic.Lib.Pipeline.Value
import Idealize.ShloMosaic.Lib.ValueLayout
import Idealize.ShloMosaic.Lib.ValueIdx

noncomputable section

namespace Cert.KV

open Idealize.ShloMosaic Idealize.ShloMosaic.TcCoe Idealize.ShloMosaic.ValueIdx
open Cert.KernelIdeal

/-- An `[a, 1]` column broadcast to `[a, b]` reads, at `(p, c)`, the operand's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The offset of every block of these regions is the origin. -/
theorem origin2 : (![0, 0] : Fin 2 → Nat) = fun _ => 0 := by
  funext a; match a with | ⟨0, _⟩ => rfl | ⟨1, _⟩ => rfl

/-- The last region's payload at `(p, q)`: `x0 (p,q) · x1 (p,0) + x2 (0,q)`. -/
theorem k3_pay1_apply (x0 : Vec Ideal S5000x64 .f32) (x1 : Vec Ideal S5000x1 .f32) (x2 : Vec Ideal S1x64 .f32)
    (p : Fin 5000) (q : Fin 64) :
    Cert.KernelIdeal.Gen.k3_pay1 (F := Ideal) x0 x1 x2 (ix2 p q)
      = x0 (ix2 p q) * x1 (ix2 p (0 : Fin 1)) + x2 (ix2 (0 : Fin 1) q) := by
  unfold Cert.KernelIdeal.Gen.k3_pay1
  simp only [shapeCast_self]
  rw [addf_apply, mulf_apply, broadcastTo_a1_ab_apply, broadcastTo_1b_ab_apply]

theorem out3_3_apply (x0 : Vec Ideal S5000x64 .f32) (x1 : Vec Ideal S5000x1 .f32) (x2 : Vec Ideal S1x64 .f32)
    (p : Fin 5000) (q : Fin 64) :
    Cert.KernelIdeal.Gen.out3_3 (F := Ideal) x0 x1 x2 (ix2 p q)
      = Cert.Spec.post (fun k => x0 (ix2 p k)) (x1 (ix2 p (0 : Fin 1))) (fun k => x2 (ix2 (0 : Fin 1) k)) q := by
  unfold Cert.KernelIdeal.Gen.out3_3
  rw [View.canon_unit_zero origin2]
  simp only [View.ld_unit_zero (S := S5000x64) origin2, View.ld_unit_zero (S := S5000x1) origin2,
    View.ld_unit_zero (S := S1x64) origin2]
  rw [k3_pay1_apply]
  rfl

end Cert.KV

end
-- ==== Proof.Body02.lean ====
/-
  The first and third regions' bodies at a coordinate pair: a row scaled by the out-degree norm and projected through
  the weight matrix; and, for the third, the row first scaled by the in-degree norm, shifted by the bias and rectified.
-/
import proofs.«413461_j28398323761562_2_alg».proof.Proof.Gen.KernelIdeal.Frame
import proofs.«413461_j28398323761562_2_alg».proof.Proof.Spec
import Idealize.ShloMosaic.Lib.Pipeline.Value
import Idealize.ShloMosaic.Lib.ValueLayout
import Idealize.ShloMosaic.Lib.ValueIdx
import proofs.«413461_j28398323761562_2_alg».proof.Proof.KMatmul
import proofs.«413461_j28398323761562_2_alg».proof.Proof.Body3

noncomputable section

namespace Cert.KV

open Idealize.ShloMosaic Idealize.ShloMosaic.TcCoe Idealize.ShloMosaic.ValueIdx
open Cert.KernelIdeal

/-- The first region's payload at `(p, q)`: `Σ_k (x0 (p,k) · x1 (p,0)) · x2 (k,q)`. -/
theorem k0_pay1_apply (x0 : Vec Ideal S5000x128 .f32) (x1 : Vec Ideal S5000x1 .f32) (x2 : Vec Ideal S128x128 .f32)
    (p : Fin 5000) (q : Fin 128) :
    Cert.KernelIdeal.Gen.k0_pay1 (F := Ideal) x0 x1 x2 (ix2 p q)
      = ∑ k : Fin 128, (x0 (ix2 p k) * x1 (ix2 p (0 : Fin 1))) * x2 (ix2 k q) := by
  unfold Cert.KernelIdeal.Gen.k0_pay1
  simp only [shapeCast_self]
  rw [mm128_apply]
  refine Finset.sum_congr rfl fun k _ => ?_
  rw [truncf_apply, truncf_apply, mulf_apply, broadcastTo_a1_ab_apply]

theorem out0_3_apply (x0 : Vec Ideal S5000x128 .f32) (x1 : Vec Ideal S5000x1 .f32) (x2 : Vec Ideal S128x128 .f32)
    (p : Fin 5000) (q : Fin 128) :
    Cert.KernelIdeal.Gen.out0_3 (F := Ideal) x0 x1 x2 (ix2 p q)
      = Cert.Spec.proj (fun k => x0 (ix2 p k)) (x1 (ix2 p (0 : Fin 1))) (fun k q' => x2 (ix2 k q')) q := by
  unfold Cert.KernelIdeal.Gen.out0_3
  rw [View.canon_unit_zero origin2]
  simp only [View.ld_unit_zero (S := S5000x128) origin2, View.ld_unit_zero (S := S5000x1) origin2,
    View.ld_unit_zero (S := S128x128) origin2]
  rw [k0_pay1_apply]
  rfl

/-- The rectified, rescaled row the third region multiplies by its weights, at `(p, k)`:
    `max (x0 (p,k) · x1 (p,0) + x2 (0,k)) 0 · x3 (p,0)`. -/
theorem k2_pay1_apply (x0 : Vec Ideal S5000x128 .f32) (x1 : Vec Ideal S5000x1 .f32) (x2 : Vec Ideal S1x128 .f32)
    (x3 : Vec Ideal S5000x1 .f32) (x4 : Vec Ideal S128x64 .f32) (p : Fin 5000) (q : Fin 64) :
    Cert.KernelIdeal.Gen.k2_pay1 (F := Ideal) x0 x1 x2 x3 x4 (ix2 p q)
      = ∑ k : Fin 128, (max (x0 (ix2 p k) * x1 (ix2 p (0 : Fin 1)) + x2 (ix2 (0 : Fin 1) k)) Cert.Spec.z32
          * x3 (ix2 p (0 : Fin 1))) * x4 (ix2 k q) := by
  unfold Cert.KernelIdeal.Gen.k2_pay1
  simp only [shapeCast_self]
  rw [mm64_apply]
  refine Finset.sum_congr rfl fun k _ => ?_
  rw [truncf_apply, truncf_apply, mulf_apply, maximumf_apply, addf_apply, mulf_apply, broadcast_apply,
    broadcastTo_a1_ab_apply, broadcastTo_a1_ab_apply, broadcastTo_1b_ab_apply]
  rfl

theorem out2_5_apply (x0 : Vec Ideal S5000x128 .f32) (x1 : Vec Ideal S5000x1 .f32) (x2 : Vec Ideal S1x128 .f32)
    (x3 : Vec Ideal S5000x1 .f32) (x4 : Vec Ideal S128x64 .f32) (p : Fin 5000) (q : Fin 64) :
    Cert.KernelIdeal.Gen.out2_5 (F := Ideal) x0 x1 x2 x3 x4 (ix2 p q)
      = Cert.Spec.layer2 (fun k => x0 (ix2 p k)) (x1 (ix2 p (0 : Fin 1))) (fun k => x2 (ix2 (0 : Fin 1) k))
          (x3 (ix2 p (0 : Fin 1))) (fun k q' => x4 (ix2 k q')) q := by
  unfold Cert.KernelIdeal.Gen.out2_5
  rw [View.canon_unit_zero origin2]
  simp only [View.ld_unit_zero (S := S5000x128) origin2, View.ld_unit_zero (S := S5000x1) origin2,
    View.ld_unit_zero (S := S1x128) origin2, View.ld_unit_zero (S := S128x64) origin2,
    View.ld_unit_zero (S := S5000x64) origin2]
  rw [k2_pay1_apply]
  rfl

end Cert.KV

end
-- ==== Proof.Region0.lean ====
/-
  The first region's output array as one function of the arrays it reads: row r of the result is feature row r
  scaled by node r's out-degree norm and projected through the weight matrix.  Grid point t holds rows
  5000·t … 5000·t + 4999; the weight matrix is read whole at every point.
-/
import proofs.«413461_j28398323761562_2_alg».proof.Proof.Gen.KernelIdeal.Frame
import proofs.«413461_j28398323761562_2_alg».proof.Proof.Body02
import proofs.«413461_j28398323761562_2_alg».proof.Proof.Spec
import Idealize.ShloMosaic.Lib.Pipeline.Value
import Idealize.ShloMosaic.Lib.ValueIdx

set_option maxRecDepth 16384

noncomputable section

namespace Cert.KV

open Cert.KernelIdeal Cert.KernelIdeal.Gen Idealize.ShloMosaic Idealize.ShloMosaic.TcCoe Idealize.ShloMosaic.ValueIdx

variable (V : (c : Dev nD) → (b : Ref sig .tc) → Buf (Elt Ideal) ((c : Thread nD τ).loc b))

/-- The result array of the first region: every row the projection row function of the same row of the inputs. -/
def G0 (a0 : Vec Ideal S50000x128 .f32) (a1 : Vec Ideal S50000x1 .f32) (a2 : Vec Ideal S128x128 .f32) : Vec Ideal S50000x128 .f32 :=
  fun i => Cert.Spec.proj (fun k => a0 (ix2 (⟨(i 0).val, (i 0).isLt⟩ : Fin 50000) k)) (a1 (ix2 (⟨(i 0).val, (i 0).isLt⟩ : Fin 50000) (0 : Fin 1))) (fun k q' => a2 (ix2 k q')) (⟨(i 1).val, (i 1).isLt⟩ : Fin 128)

theorem G0_apply (a0 : Vec Ideal S50000x128 .f32) (a1 : Vec Ideal S50000x1 .f32) (a2 : Vec Ideal S128x128 .f32) (r : Fin 50000) (q : Fin 128) :
    G0 a0 a1 a2 (ix2 r q) = Cert.Spec.proj (fun k => a0 (ix2 r k)) (a1 (ix2 r (0 : Fin 1))) (fun k q' => a2 (ix2 k q')) q := rfl

/-- The grid has ten points. -/
theorem pt0_lt (t : Fin cfg0.N) : t.val < 10 := by
  have h := t.isLt
  have hN : cfg0.N = 10 := N_0
  omega

/-- Row p of point t's block is row 5000·t + p of the array. -/
theorem row0_lt (t : Fin cfg0.N) (p : Fin 5000) : 5000 * t.val + p.val < 50000 := by
  have := pt0_lt t; have := p.isLt; omega

/-- The windows' block indices at every grid point: the row-blocked windows sit at block (t, 0), the weight matrix at block (0, 0). -/
theorem idx0 : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = 0 ∧ win0_2.index t (1 : Fin 2) = 0)
    ∧ (win0_3.index t (0 : Fin 2) = t.val ∧ win0_3.index t (1 : Fin 2) = 0) :=
  (by decide +kernel : ∀ t : Fin grid0.N, _)

/-- The three input blocks at point t, at their literal types. -/
abbrev feat0 (c : Dev nD) (t : Fin cfg0.N) : Vec Ideal S5000x128 .f32 := Gen.iblk0 V c 0 t
abbrev norm0 (c : Dev nD) (t : Fin cfg0.N) : Vec Ideal S5000x1 .f32 := Gen.iblk0 V c 1 t
abbrev wt0 (c : Dev nD) (t : Fin cfg0.N) : Vec Ideal S128x128 .f32 := Gen.iblk0 V c 2 t

/-- The feature block at (p, k) is the array at (5000·t + p, k). -/
theorem feat0_apply (c : Dev nD) (t : Fin cfg0.N) (p : Fin 5000) (k : Fin 128) :
    feat0 V c t (ix2 p k) = (V c main_arg0 : Vec Ideal S50000x128 .f32) (ix2 ⟨5000 * t.val + p.val, row0_lt t p⟩ k) := by
  obtain ⟨⟨e0, e1⟩, -⟩ := idx0 t
  unfold feat0 Gen.iblk0
  rw [View.read_apply]
  show (V c main_arg0 : Vec Ideal S50000x128 .f32) _ = (V c main_arg0 : Vec Ideal S50000x128 .f32) _
  congr 1
  funext a
  apply Fin.ext
  match a with
  | ⟨0, _⟩ => show win0_0.index t (0 : Fin 2) * 5000 + 1 * p.val = 5000 * t.val + p.val; rw [e0]; omega
  | ⟨1, _⟩ => show win0_0.index t (1 : Fin 2) * 128 + 1 * k.val = k.val; rw [e1]; omega

/-- The out-degree norm block at (p, 0) is the array at (5000·t + p, 0). -/
theorem norm0_apply (c : Dev nD) (t : Fin cfg0.N) (p : Fin 5000) :
    norm0 V c t (ix2 p (0 : Fin 1)) = (V c main_v11 : Vec Ideal S50000x1 .f32) (ix2 ⟨5000 * t.val + p.val, row0_lt t p⟩ (0 : Fin 1)) := by
  obtain ⟨-, ⟨e0, e1⟩, -⟩ := idx0 t
  unfold norm0 Gen.iblk0
  rw [View.read_apply]
  show (V c main_v11 : Vec Ideal S50000x1 .f32) _ = (V c main_v11 : Vec Ideal S50000x1 .f32) _
  congr 1
  funext a
  apply Fin.ext
  match a with
  | ⟨0, _⟩ => show win0_1.index t (0 : Fin 2) * 5000 + 1 * p.val = 5000 * t.val + p.val; rw [e0]; omega
  | ⟨1, _⟩ => show win0_1.index t (1 : Fin 2) * 1 + 1 * (0 : Fin 1).val = (0 : Fin 1).val; rw [e1]; rfl

/-- The weight block is the whole weight matrix. -/
theorem wt0_apply (c : Dev nD) (t : Fin cfg0.N) (k : Fin 128) (q : Fin 128) :
    wt0 V c t (ix2 k q) = (V c main_arg3 : Vec Ideal S128x128 .f32) (ix2 k q) := by
  obtain ⟨-, -, ⟨e0, e1⟩, -⟩ := idx0 t
  unfold wt0 Gen.iblk0
  rw [View.read_apply]
  show (V c main_arg3 : Vec Ideal S128x128 .f32) _ = (V c main_arg3 : Vec Ideal S128x128 .f32) _
  congr 1
  funext a
  apply Fin.ext
  match a with
  | ⟨0, _⟩ => show win0_2.index t (0 : Fin 2) * 128 + 1 * k.val = k.val; rw [e0]; omega
  | ⟨1, _⟩ => show win0_2.index t (1 : Fin 2) * 128 + 1 * q.val = q.val; rw [e1]; omega

/-- Point t's block of the result array sits at rows 5000·t … of it. -/
theorem out0_emb (t : Fin cfg0.N) (p : Fin 5000) (q : Fin 128) :
    (((cfg0.win 3).blk t).view.emb (ix2 p q) : S50000x128.Idx) = ix2 ⟨5000 * t.val + p.val, row0_lt t p⟩ q := by
  obtain ⟨-, -, -, ⟨e0, e1⟩⟩ := idx0 t
  funext a
  apply Fin.ext
  match a with
  | ⟨0, _⟩ => show win0_3.index t (0 : Fin 2) * 5000 + 1 * p.val = 5000 * t.val + p.val; rw [e0]; omega
  | ⟨1, _⟩ => show win0_3.index t (1 : Fin 2) * 128 + 1 * q.val = q.val; rw [e1]; omega

/-- What point t writes back is block t of the result function of the arrays as the region finds them. -/
theorem flushed0_eq (c : Dev nD) (t : Fin cfg0.N) :
    (Gen.dat0 (F := Ideal) V c).flushed 3 t
      = ((cfg0.win 3).blk t).view.read (Elt Ideal) (G0 (V c main_arg0) (V c main_v11) (V c main_arg3)) := by
  show (cfg0.win 3).cut (grid0.coords t) ((Gen.dat0 (F := Ideal) V c).after 3 t) = _
  rw [Gen.after0_3]
  funext y
  obtain ⟨p, q, rfl⟩ : ∃ (p : Fin 5000) (q : Fin 128), y = ix2 p q := ⟨y 0, y 1, eq_ix2 y⟩
  rw [View.read_apply]
  show Gen.out0_3 (F := Ideal) (feat0 V c t) (norm0 V c t) (wt0 V c t) (ix2 p q)
      = G0 (V c main_arg0) (V c main_v11) (V c main_arg3) (((cfg0.win 3).blk t).view.emb (ix2 p q))
  rw [out0_emb t p q, G0_apply]
  refine (out0_3_apply (feat0 V c t) (norm0 V c t) (wt0 V c t) p q).trans ?_
  have h0 : (fun k : Fin 128 => feat0 V c t (ix2 p k))
      = fun k : Fin 128 => (V c main_arg0 : Vec Ideal S50000x128 .f32) (ix2 ⟨5000 * t.val + p.val, row0_lt t p⟩ k) :=
    funext fun k => feat0_apply V c t p k
  have h2 : (fun (k : Fin 128) (q' : Fin 128) => wt0 V c t (ix2 k q'))
      = fun (k : Fin 128) (q' : Fin 128) => (V c main_arg3 : Vec Ideal S128x128 .f32) (ix2 k q') :=
    funext fun k => funext fun q' => wt0_apply V c t k q'
  rw [h0, norm0_apply V c t p, h2]

/-- An index of the result array is in point t's block iff each coordinate is in the block's range on its axis. -/
theorem mem_blk0 (t : Fin cfg0.N) (i : S50000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v18).slice (win0_3.rect t)).set ↔ _
  rw [View.set_slice_whole, Rect.mem_set_unit]
  exact Iff.rfl

/-- Every row r of the result array is in the block of point r / 5000. -/
theorem cover0 (i : S50000x128.Idx) :
    ∃ t : Fin cfg0.N, (cfg0.win 3).flush t = true ∧ i ∈ ((cfg0.win 3).blk t).view.set := by
  have hi0 : (i 0).val < 50000 := (i 0).isLt
  have hi1 : (i 1).val < 128 := (i 1).isLt
  have hN : cfg0.N = 10 := N_0
  have ht : (i 0).val / 5000 < cfg0.N := by omega
  obtain ⟨-, -, -, ⟨e0, e1⟩⟩ := idx0 ⟨(i 0).val / 5000, ht⟩
  refine ⟨⟨(i 0).val / 5000, ht⟩, flush0_3 _, ?_⟩
  rw [mem_blk0]
  intro a
  match a with
  | ⟨0, _⟩ =>
    show win0_3.index ⟨(i 0).val / 5000, ht⟩ (0 : Fin 2) * 5000 ≤ (i 0).val ∧ (i 0).val < win0_3.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win0_3.index ⟨(i 0).val / 5000, ht⟩ (1 : Fin 2) * 128 ≤ (i 1).val ∧ (i 1).val < win0_3.index ⟨(i 0).val / 5000, ht⟩ (1 : Fin 2) * 128 + 128
    rw [e1]; omega

/-- The result array after the region's run: the result function of the arrays the region finds. -/
theorem final0 (c : Dev nD) :
    (Gen.dat0 (F := Ideal) V c).arrAt 3 cfg0.N = G0 (V c main_arg0) (V c main_v11) (V c main_arg3) :=
  (Gen.dat0 (F := Ideal) V c).arrAt_eq_of_cover 3 (G0 (V c main_arg0) (V c main_v11) (V c main_arg3))
    (fun t _ => flushed0_eq V c t) (fun i => cover0 i)

end Cert.KV

end
-- ==== Proof.Body1.lean ====
/-
  What region 1's body leaves in its output block, read at a coordinate pair (p, q): three dense products, three rectifiers
  and two scalings of row p of the block, which is the row function layer1 of the rows and scalars the body reads.
-/
import proofs.«413461_j28398323761562_2_alg».proof.Proof.KMatmul
import proofs.«413461_j28398323761562_2_alg».proof.Proof.Body3
import proofs.«413461_j28398323761562_2_alg».proof.Proof.Gen.KernelIdeal.Frame
import proofs.«413461_j28398323761562_2_alg».proof.Proof.Spec
import Idealize.ShloMosaic.Lib.Pipeline.Value
import Idealize.ShloMosaic.Lib.ValueLayout

noncomputable section

namespace Cert.KV

open Cert.KernelIdeal Idealize.ShloMosaic Idealize.ShloMosaic.TcCoe Idealize.ShloMosaic.ValueIdx

theorem out1_9_apply (x0 : Vec Ideal S5000x128 .f32) (x1 : Vec Ideal S5000x1 .f32) (x2 : Vec Ideal S1x128 .f32) (x3 : Vec Ideal S128x128 .f32) (x4 : Vec Ideal S1x128 .f32) (x5 : Vec Ideal S128x128 .f32) (x6 : Vec Ideal S1x128 .f32) (x7 : Vec Ideal S5000x1 .f32) (x8 : Vec Ideal S128x128 .f32) (p : Fin 5000) (q : Fin 128) :
    Cert.KernelIdeal.Gen.out1_9 (F := Ideal) x0 x1 x2 x3 x4 x5 x6 x7 x8 (ix2 p q)
      = Cert.Spec.layer1 (fun k => x0 (ix2 p k)) (x1 (ix2 p (0 : Fin 1))) (fun k => x2 (ix2 (0 : Fin 1) k)) (fun k q' => x3 (ix2 k q')) (fun k => x4 (ix2 (0 : Fin 1) k)) (fun k q' => x5 (ix2 k q')) (fun k => x6 (ix2 (0 : Fin 1) k)) (x7 (ix2 p (0 : Fin 1))) (fun k q' => x8 (ix2 k q')) q := by
  have hz : (![0, 0] : Fin 2 → Nat) = fun _ => 0 := by funext a; match a with | ⟨0, _⟩ => rfl | ⟨1, _⟩ => rfl
  unfold Gen.out1_9
  rw [View.canon_unit_zero hz]
  simp only [View.ld_unit_zero (S := S5000x128) hz, View.ld_unit_zero (S := S5000x1) hz, View.ld_unit_zero (S := S1x128) hz, View.ld_unit_zero (S := S128x128) hz]
  unfold Gen.k1_pay1 Gen.k1_pay2
  rw [mm128_apply]
  unfold Spec.layer1 Spec.proj Spec.relu Spec.dense Spec.post
  refine Finset.sum_congr rfl fun k _ => ?_
  simp only [truncf_apply, mulf_apply, maximumf_apply, addf_apply, broadcast_apply, shapeCast_self, broadcastTo_a1_ab_apply, broadcastTo_1b_ab_apply, mm128_apply, Ideal.ofBits_def]

end Cert.KV

end
-- ==== Proof.Region1.lean ====
/-
  The second region's output array as one function of the arrays it reads: row r of the result is aggregated row r
  scaled by node r's in-degree norm plus a bias and rectified, taken through two dense layers each followed by the
  rectifier, then scaled by node r's out-degree norm and projected through the next layer's weight matrix.
  Grid point t holds rows 5000·t … 5000·t + 4999; weight matrices and bias rows are read whole at every point.
-/
import proofs.«413461_j28398323761562_2_alg».proof.Proof.Gen.KernelIdeal.Frame
import proofs.«413461_j28398323761562_2_alg».proof.Proof.Body1
import proofs.«413461_j28398323761562_2_alg».proof.Proof.Spec
import Idealize.ShloMosaic.Lib.Pipeline.Value
import Idealize.ShloMosaic.Lib.ValueIdx

set_option maxRecDepth 16384

noncomputable section

namespace Cert.KV

open Cert.KernelIdeal Cert.KernelIdeal.Gen Idealize.ShloMosaic Idealize.ShloMosaic.TcCoe Idealize.ShloMosaic.ValueIdx

variable (V : (c : Dev nD) → (b : Ref sig .tc) → Buf (Elt Ideal) ((c : Thread nD τ).loc b))

/-- The result array of the second region: every row the layer row function of the same row of the inputs. -/
def G1 (a0 : Vec Ideal S50000x128 .f32) (a1 : Vec Ideal S50000x1 .f32) (a2 : Vec Ideal S1x128 .f32) (a3 : Vec Ideal S128x128 .f32)
    (a4 : Vec Ideal S1x128 .f32) (a5 : Vec Ideal S128x128 .f32) (a6 : Vec Ideal S1x128 .f32) (a7 : Vec Ideal S50000x1 .f32)
    (a8 : Vec Ideal S128x128 .f32) : Vec Ideal S50000x128 .f32 :=
  fun i => Cert.Spec.layer1 (fun k => a0 (ix2 (⟨(i 0).val, (i 0).isLt⟩ : Fin 50000) k)) (a1 (ix2 (⟨(i 0).val, (i 0).isLt⟩ : Fin 50000) (0 : Fin 1))) (fun k => a2 (ix2 (0 : Fin 1) k)) (fun k q' => a3 (ix2 k q')) (fun k => a4 (ix2 (0 : Fin 1) k)) (fun k q' => a5 (ix2 k q')) (fun k => a6 (ix2 (0 : Fin 1) k)) (a7 (ix2 (⟨(i 0).val, (i 0).isLt⟩ : Fin 50000) (0 : Fin 1))) (fun k q' => a8 (ix2 k q')) (⟨(i 1).val, (i 1).isLt⟩ : Fin 128)

theorem G1_apply (a0 : Vec Ideal S50000x128 .f32) (a1 : Vec Ideal S50000x1 .f32) (a2 : Vec Ideal S1x128 .f32) (a3 : Vec Ideal S128x128 .f32)
    (a4 : Vec Ideal S1x128 .f32) (a5 : Vec Ideal S128x128 .f32) (a6 : Vec Ideal S1x128 .f32) (a7 : Vec Ideal S50000x1 .f32)
    (a8 : Vec Ideal S128x128 .f32) (r : Fin 50000) (q : Fin 128) :
    G1 a0 a1 a2 a3 a4 a5 a6 a7 a8 (ix2 r q) = Cert.Spec.layer1 (fun k => a0 (ix2 r k)) (a1 (ix2 r (0 : Fin 1))) (fun k => a2 (ix2 (0 : Fin 1) k)) (fun k q' => a3 (ix2 k q')) (fun k => a4 (ix2 (0 : Fin 1) k)) (fun k q' => a5 (ix2 k q')) (fun k => a6 (ix2 (0 : Fin 1) k)) (a7 (ix2 r (0 : Fin 1))) (fun k q' => a8 (ix2 k q')) q := rfl

/-- The grid has ten points. -/
theorem pt1_lt (t : Fin cfg1.N) : t.val < 10 := by
  have h := t.isLt
  have hN : cfg1.N = 10 := N_1
  omega

/-- Row p of point t's block is row 5000·t + p of the array. -/
theorem row1_lt (t : Fin cfg1.N) (p : Fin 5000) : 5000 * t.val + p.val < 50000 := by
  have := pt1_lt t; have := p.isLt; omega

/-- The windows' block indices at every grid point: the row-blocked windows sit at block (t, 0), the weight
    matrices and bias rows at block (0, 0). -/
theorem idx1 : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = 0 ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = 0 ∧ win1_6.index t (1 : Fin 2) = 0)
    ∧ (win1_7.index t (0 : Fin 2) = t.val ∧ win1_7.index t (1 : Fin 2) = 0)
    ∧ (win1_8.index t (0 : Fin 2) = 0 ∧ win1_8.index t (1 : Fin 2) = 0)
    ∧ (win1_9.index t (0 : Fin 2) = t.val ∧ win1_9.index t (1 : Fin 2) = 0) :=
  (by decide +kernel : ∀ t : Fin grid1.N, _)

/-- The nine input blocks at point t, at their literal types. -/
abbrev agg1 (c : Dev nD) (t : Fin cfg1.N) : Vec Ideal S5000x128 .f32 := Gen.iblk1 V c 0 t
abbrev deg1 (c : Dev nD) (t : Fin cfg1.N) : Vec Ideal S5000x1 .f32 := Gen.iblk1 V c 1 t
abbrev bias1 (c : Dev nD) (t : Fin cfg1.N) : Vec Ideal S1x128 .f32 := Gen.iblk1 V c 2 t
abbrev fcW1 (c : Dev nD) (t : Fin cfg1.N) : Vec Ideal S128x128 .f32 := Gen.iblk1 V c 3 t
abbrev fcb1 (c : Dev nD) (t : Fin cfg1.N) : Vec Ideal S1x128 .f32 := Gen.iblk1 V c 4 t
abbrev fc2W1 (c : Dev nD) (t : Fin cfg1.N) : Vec Ideal S128x128 .f32 := Gen.iblk1 V c 5 t
abbrev fc2b1 (c : Dev nD) (t : Fin cfg1.N) : Vec Ideal S1x128 .f32 := Gen.iblk1 V c 6 t
abbrev norm1 (c : Dev nD) (t : Fin cfg1.N) : Vec Ideal S5000x1 .f32 := Gen.iblk1 V c 7 t
abbrev wt1 (c : Dev nD) (t : Fin cfg1.N) : Vec Ideal S128x128 .f32 := Gen.iblk1 V c 8 t

/-- The aggregated block at (p, k) is the array at (5000·t + p, k). -/
theorem agg1_apply (c : Dev nD) (t : Fin cfg1.N) (p : Fin 5000) (k : Fin 128) :
    agg1 V c t (ix2 p k) = (V c main_v22 : Vec Ideal S50000x128 .f32) (ix2 ⟨5000 * t.val + p.val, row1_lt t p⟩ k) := by
  obtain ⟨⟨e0, e1⟩, -⟩ := idx1 t
  unfold agg1 Gen.iblk1
  rw [View.read_apply]
  show (V c main_v22 : Vec Ideal S50000x128 .f32) _ = (V c main_v22 : Vec Ideal S50000x128 .f32) _
  congr 1
  funext a
  apply Fin.ext
  match a with
  | ⟨0, _⟩ => show win1_0.index t (0 : Fin 2) * 5000 + 1 * p.val = 5000 * t.val + p.val; rw [e0]; omega
  | ⟨1, _⟩ => show win1_0.index t (1 : Fin 2) * 128 + 1 * k.val = k.val; rw [e1]; omega

/-- The in-degree norm block at (p, 0) is the array at (5000·t + p, 0). -/
theorem deg1_apply (c : Dev nD) (t : Fin cfg1.N) (p : Fin 5000) :
    deg1 V c t (ix2 p (0 : Fin 1)) = (V c main_v12 : Vec Ideal S50000x1 .f32) (ix2 ⟨5000 * t.val + p.val, row1_lt t p⟩ (0 : Fin 1)) := by
  obtain ⟨-, ⟨e0, e1⟩, -⟩ := idx1 t
  unfold deg1 Gen.iblk1
  rw [View.read_apply]
  show (V c main_v12 : Vec Ideal S50000x1 .f32) _ = (V c main_v12 : Vec Ideal S50000x1 .f32) _
  congr 1
  funext a
  apply Fin.ext
  match a with
  | ⟨0, _⟩ => show win1_1.index t (0 : Fin 2) * 5000 + 1 * p.val = 5000 * t.val + p.val; rw [e0]; omega
  | ⟨1, _⟩ => show win1_1.index t (1 : Fin 2) * 1 + 1 * (0 : Fin 1).val = (0 : Fin 1).val; rw [e1]; rfl

/-- The bias block of the aggregation step is the whole bias row. -/
theorem bias1_apply (c : Dev nD) (t : Fin cfg1.N) (k : Fin 128) :
    bias1 V c t (ix2 (0 : Fin 1) k) = (V c main_v13 : Vec Ideal S1x128 .f32) (ix2 (0 : Fin 1) k) := by
  obtain ⟨-, -, ⟨e0, e1⟩, -⟩ := idx1 t
  unfold bias1 Gen.iblk1
  rw [View.read_apply]
  show (V c main_v13 : Vec Ideal S1x128 .f32) _ = (V c main_v13 : Vec Ideal S1x128 .f32) _
  congr 1
  funext a
  apply Fin.ext
  match a with
  | ⟨0, _⟩ => show win1_2.index t (0 : Fin 2) * 1 + 1 * (0 : Fin 1).val = (0 : Fin 1).val; rw [e0]; rfl
  | ⟨1, _⟩ => show win1_2.index t (1 : Fin 2) * 128 + 1 * k.val = k.val; rw [e1]; omega

/-- The first dense layer's weight block is the whole matrix. -/
theorem fcW1_apply (c : Dev nD) (t : Fin cfg1.N) (k : Fin 128) (q : Fin 128) :
    fcW1 V c t (ix2 k q) = (V c main_arg5 : Vec Ideal S128x128 .f32) (ix2 k q) := by
  obtain ⟨-, -, -, ⟨e0, e1⟩, -⟩ := idx1 t
  unfold fcW1 Gen.iblk1
  rw [View.read_apply]
  show (V c main_arg5 : Vec Ideal S128x128 .f32) _ = (V c main_arg5 : Vec Ideal S128x128 .f32) _
  congr 1
  funext a
  apply Fin.ext
  match a with
  | ⟨0, _⟩ => show win1_3.index t (0 : Fin 2) * 128 + 1 * k.val = k.val; rw [e0]; omega
  | ⟨1, _⟩ => show win1_3.index t (1 : Fin 2) * 128 + 1 * q.val = q.val; rw [e1]; omega

/-- The first dense layer's bias block is the whole bias row. -/
theorem fcb1_apply (c : Dev nD) (t : Fin cfg1.N) (k : Fin 128) :
    fcb1 V c t (ix2 (0 : Fin 1) k) = (V c main_v14 : Vec Ideal S1x128 .f32) (ix2 (0 : Fin 1) k) := by
  obtain ⟨-, -, -, -, ⟨e0, e1⟩, -⟩ := idx1 t
  unfold fcb1 Gen.iblk1
  rw [View.read_apply]
  show (V c main_v14 : Vec Ideal S1x128 .f32) _ = (V c main_v14 : Vec Ideal S1x128 .f32) _
  congr 1
  funext a
  apply Fin.ext
  match a with
  | ⟨0, _⟩ => show win1_4.index t (0 : Fin 2) * 1 + 1 * (0 : Fin 1).val = (0 : Fin 1).val; rw [e0]; rfl
  | ⟨1, _⟩ => show win1_4.index t (1 : Fin 2) * 128 + 1 * k.val = k.val; rw [e1]; omega

/-- The second dense layer's weight block is the whole matrix. -/
theorem fc2W1_apply (c : Dev nD) (t : Fin cfg1.N) (k : Fin 128) (q : Fin 128) :
    fc2W1 V c t (ix2 k q) = (V c main_arg7 : Vec Ideal S128x128 .f32) (ix2 k q) := by
  obtain ⟨-, -, -, -, -, ⟨e0, e1⟩, -⟩ := idx1 t
  unfold fc2W1 Gen.iblk1
  rw [View.read_apply]
  show (V c main_arg7 : Vec Ideal S128x128 .f32) _ = (V c main_arg7 : Vec Ideal S128x128 .f32) _
  congr 1
  funext a
  apply Fin.ext
  match a with
  | ⟨0, _⟩ => show win1_5.index t (0 : Fin 2) * 128 + 1 * k.val = k.val; rw [e0]; omega
  | ⟨1, _⟩ => show win1_5.index t (1 : Fin 2) * 128 + 1 * q.val = q.val; rw [e1]; omega

/-- The second dense layer's bias block is the whole bias row. -/
theorem fc2b1_apply (c : Dev nD) (t : Fin cfg1.N) (k : Fin 128) :
    fc2b1 V c t (ix2 (0 : Fin 1) k) = (V c main_v15 : Vec Ideal S1x128 .f32) (ix2 (0 : Fin 1) k) := by
  obtain ⟨-, -, -, -, -, -, ⟨e0, e1⟩, -⟩ := idx1 t
  unfold fc2b1 Gen.iblk1
  rw [View.read_apply]
  show (V c main_v15 : Vec Ideal S1x128 .f32) _ = (V c main_v15 : Vec Ideal S1x128 .f32) _
  congr 1
  funext a
  apply Fin.ext
  match a with
  | ⟨0, _⟩ => show win1_6.index t (0 : Fin 2) * 1 + 1 * (0 : Fin 1).val = (0 : Fin 1).val; rw [e0]; rfl
  | ⟨1, _⟩ => show win1_6.index t (1 : Fin 2) * 128 + 1 * k.val = k.val; rw [e1]; omega

/-- The out-degree norm block at (p, 0) is the array at (5000·t + p, 0). -/
theorem norm1_apply (c : Dev nD) (t : Fin cfg1.N) (p : Fin 5000) :
    norm1 V c t (ix2 p (0 : Fin 1)) = (V c main_v11 : Vec Ideal S50000x1 .f32) (ix2 ⟨5000 * t.val + p.val, row1_lt t p⟩ (0 : Fin 1)) := by
  obtain ⟨-, -, -, -, -, -, -, ⟨e0, e1⟩, -⟩ := idx1 t
  unfold norm1 Gen.iblk1
  rw [View.read_apply]
  show (V c main_v11 : Vec Ideal S50000x1 .f32) _ = (V c main_v11 : Vec Ideal S50000x1 .f32) _
  congr 1
  funext a
  apply Fin.ext
  match a with
  | ⟨0, _⟩ => show win1_7.index t (0 : Fin 2) * 5000 + 1 * p.val = 5000 * t.val + p.val; rw [e0]; omega
  | ⟨1, _⟩ => show win1_7.index t (1 : Fin 2) * 1 + 1 * (0 : Fin 1).val = (0 : Fin 1).val; rw [e1]; rfl

/-- The projection's weight block is the whole matrix. -/
theorem wt1_apply (c : Dev nD) (t : Fin cfg1.N) (k : Fin 128) (q : Fin 128) :
    wt1 V c t (ix2 k q) = (V c main_arg9 : Vec Ideal S128x128 .f32) (ix2 k q) := by
  obtain ⟨-, -, -, -, -, -, -, -, ⟨e0, e1⟩, -⟩ := idx1 t
  unfold wt1 Gen.iblk1
  rw [View.read_apply]
  show (V c main_arg9 : Vec Ideal S128x128 .f32) _ = (V c main_arg9 : Vec Ideal S128x128 .f32) _
  congr 1
  funext a
  apply Fin.ext
  match a with
  | ⟨0, _⟩ => show win1_8.index t (0 : Fin 2) * 128 + 1 * k.val = k.val; rw [e0]; omega
  | ⟨1, _⟩ => show win1_8.index t (1 : Fin 2) * 128 + 1 * q.val = q.val; rw [e1]; omega

/-- Point t's block of the result array sits at rows 5000·t … of it. -/
theorem out1_emb (t : Fin cfg1.N) (p : Fin 5000) (q : Fin 128) :
    (((cfg1.win 9).blk t).view.emb (ix2 p q) : S50000x128.Idx) = ix2 ⟨5000 * t.val + p.val, row1_lt t p⟩ q := by
  obtain ⟨-, -, -, -, -, -, -, -, -, ⟨e0, e1⟩⟩ := idx1 t
  funext a
  apply Fin.ext
  match a with
  | ⟨0, _⟩ => show win1_9.index t (0 : Fin 2) * 5000 + 1 * p.val = 5000 * t.val + p.val; rw [e0]; omega
  | ⟨1, _⟩ => show win1_9.index t (1 : Fin 2) * 128 + 1 * q.val = q.val; rw [e1]; omega

/-- What point t writes back is block t of the result function of the arrays as the region finds them. -/
theorem flushed1_eq (c : Dev nD) (t : Fin cfg1.N) :
    (Gen.dat1 (F := Ideal) V c).flushed 9 t
      = ((cfg1.win 9).blk t).view.read (Elt Ideal) (G1 (V c main_v22) (V c main_v12) (V c main_v13) (V c main_arg5) (V c main_v14) (V c main_arg7) (V c main_v15) (V c main_v11) (V c main_arg9)) := by
  show (cfg1.win 9).cut (grid1.coords t) ((Gen.dat1 (F := Ideal) V c).after 9 t) = _
  rw [Gen.after1_9]
  funext y
  obtain ⟨p, q, rfl⟩ : ∃ (p : Fin 5000) (q : Fin 128), y = ix2 p q := ⟨y 0, y 1, eq_ix2 y⟩
  rw [View.read_apply]
  show Gen.out1_9 (F := Ideal) (agg1 V c t) (deg1 V c t) (bias1 V c t) (fcW1 V c t) (fcb1 V c t) (fc2W1 V c t) (fc2b1 V c t) (norm1 V c t) (wt1 V c t) (ix2 p q)
      = G1 (V c main_v22) (V c main_v12) (V c main_v13) (V c main_arg5) (V c main_v14) (V c main_arg7) (V c main_v15) (V c main_v11) (V c main_arg9) (((cfg1.win 9).blk t).view.emb (ix2 p q))
  rw [out1_emb t p q, G1_apply]
  refine (out1_9_apply (agg1 V c t) (deg1 V c t) (bias1 V c t) (fcW1 V c t) (fcb1 V c t) (fc2W1 V c t) (fc2b1 V c t) (norm1 V c t) (wt1 V c t) p q).trans ?_
  have h0 : (fun k : Fin 128 => agg1 V c t (ix2 p k))
      = fun k : Fin 128 => (V c main_v22 : Vec Ideal S50000x128 .f32) (ix2 ⟨5000 * t.val + p.val, row1_lt t p⟩ k) :=
    funext fun k => agg1_apply V c t p k
  have h2 : (fun k : Fin 128 => bias1 V c t (ix2 (0 : Fin 1) k))
      = fun k : Fin 128 => (V c main_v13 : Vec Ideal S1x128 .f32) (ix2 (0 : Fin 1) k) :=
    funext fun k => bias1_apply V c t k
  have h3 : (fun (k : Fin 128) (q' : Fin 128) => fcW1 V c t (ix2 k q'))
      = fun (k : Fin 128) (q' : Fin 128) => (V c main_arg5 : Vec Ideal S128x128 .f32) (ix2 k q') :=
    funext fun k => funext fun q' => fcW1_apply V c t k q'
  have h4 : (fun k : Fin 128 => fcb1 V c t (ix2 (0 : Fin 1) k))
      = fun k : Fin 128 => (V c main_v14 : Vec Ideal S1x128 .f32) (ix2 (0 : Fin 1) k) :=
    funext fun k => fcb1_apply V c t k
  have h5 : (fun (k : Fin 128) (q' : Fin 128) => fc2W1 V c t (ix2 k q'))
      = fun (k : Fin 128) (q' : Fin 128) => (V c main_arg7 : Vec Ideal S128x128 .f32) (ix2 k q') :=
    funext fun k => funext fun q' => fc2W1_apply V c t k q'
  have h6 : (fun k : Fin 128 => fc2b1 V c t (ix2 (0 : Fin 1) k))
      = fun k : Fin 128 => (V c main_v15 : Vec Ideal S1x128 .f32) (ix2 (0 : Fin 1) k) :=
    funext fun k => fc2b1_apply V c t k
  have h8 : (fun (k : Fin 128) (q' : Fin 128) => wt1 V c t (ix2 k q'))
      = fun (k : Fin 128) (q' : Fin 128) => (V c main_arg9 : Vec Ideal S128x128 .f32) (ix2 k q') :=
    funext fun k => funext fun q' => wt1_apply V c t k q'
  rw [h0, deg1_apply V c t p, h2, h3, h4, h5, h6, norm1_apply V c t p, h8]

/-- An index of the result array is in point t's block iff each coordinate is in the block's range on its axis. -/
theorem mem_blk1 (t : Fin cfg1.N) (i : S50000x128.Idx) :
    i ∈ ((cfg1.win 9).blk t).view.set ↔ ∀ a : Fin 2, win1_9.index t a * S5000x128.size a ≤ (i a).val ∧ (i a).val < win1_9.index t a * S5000x128.size a + S5000x128.size a := by
  show i ∈ ((View.whole main_v23).slice (win1_9.rect t)).set ↔ _
  rw [View.set_slice_whole, Rect.mem_set_unit]
  exact Iff.rfl

/-- Every row r of the result array is in the block of point r / 5000. -/
theorem cover1 (i : S50000x128.Idx) :
    ∃ t : Fin cfg1.N, (cfg1.win 9).flush t = true ∧ i ∈ ((cfg1.win 9).blk t).view.set := by
  have hi0 : (i 0).val < 50000 := (i 0).isLt
  have hi1 : (i 1).val < 128 := (i 1).isLt
  have hN : cfg1.N = 10 := N_1
  have ht : (i 0).val / 5000 < cfg1.N := by omega
  obtain ⟨-, -, -, -, -, -, -, -, -, ⟨e0, e1⟩⟩ := idx1 ⟨(i 0).val / 5000, ht⟩
  refine ⟨⟨(i 0).val / 5000, ht⟩, flush1_9 _, ?_⟩
  rw [mem_blk1]
  intro a
  match a with
  | ⟨0, _⟩ =>
    show win1_9.index ⟨(i 0).val / 5000, ht⟩ (0 : Fin 2) * 5000 ≤ (i 0).val ∧ (i 0).val < win1_9.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win1_9.index ⟨(i 0).val / 5000, ht⟩ (1 : Fin 2) * 128 ≤ (i 1).val ∧ (i 1).val < win1_9.index ⟨(i 0).val / 5000, ht⟩ (1 : Fin 2) * 128 + 128
    rw [e1]; omega

/-- The result array after the region's run: the result function of the arrays the region finds. -/
theorem final1 (c : Dev nD) :
    (Gen.dat1 (F := Ideal) V c).arrAt 9 cfg1.N = G1 (V c main_v22) (V c main_v12) (V c main_v13) (V c main_arg5) (V c main_v14) (V c main_arg7) (V c main_v15) (V c main_v11) (V c main_arg9) :=
  (Gen.dat1 (F := Ideal) V c).arrAt_eq_of_cover 9 (G1 (V c main_v22) (V c main_v12) (V c main_v13) (V c main_arg5) (V c main_v14) (V c main_arg7) (V c main_v15) (V c main_v11) (V c main_arg9))
    (fun t _ => flushed1_eq V c t) (fun i => cover1 i)

end Cert.KV

end
-- ==== Proof.Region2.lean ====
/-
  The third region's output array in closed form.  The region walks ten grid points; point t reads rows
  5000·t … 5000·t + 4999 of the aggregated features and of the two degree-norm columns, the whole bias row and the
  whole weight matrix, and writes rows 5000·t … 5000·t + 4999 of the output.  Every output row is therefore the
  row function `layer2` of the same row of the inputs, and the ten row blocks tile the 50000 rows.
-/
import proofs.«413461_j28398323761562_2_alg».proof.Proof.Gen.KernelIdeal.Frame
import proofs.«413461_j28398323761562_2_alg».proof.Proof.Body02
import proofs.«413461_j28398323761562_2_alg».proof.Proof.Spec
import Idealize.ShloMosaic.Lib.Pipeline.Value
import Idealize.ShloMosaic.Lib.ValueIdx

set_option maxRecDepth 16384

noncomputable section

namespace Cert.KV

open Cert.KernelIdeal Cert.KernelIdeal.Gen Idealize.ShloMosaic Idealize.ShloMosaic.TcCoe Idealize.ShloMosaic.ValueIdx

variable (V : (c : Dev nD) → (b : Ref sig .tc) → Buf (Elt Ideal) ((c : Thread nD τ).loc b))

/-- The whole output array as a function of the whole input arrays: row r is `layer2` of row r. -/
def G2 (a0 : Vec Ideal S50000x128 .f32) (a1 : Vec Ideal S50000x1 .f32) (a2 : Vec Ideal S1x128 .f32)
    (a3 : Vec Ideal S50000x1 .f32) (a4 : Vec Ideal S128x64 .f32) : Vec Ideal S50000x64 .f32 :=
  fun i => Cert.Spec.layer2 (fun k => a0 (ix2 (⟨(i 0).val, (i 0).isLt⟩ : Fin 50000) k))
    (a1 (ix2 (⟨(i 0).val, (i 0).isLt⟩ : Fin 50000) (0 : Fin 1))) (fun k => a2 (ix2 (0 : Fin 1) k))
    (a3 (ix2 (⟨(i 0).val, (i 0).isLt⟩ : Fin 50000) (0 : Fin 1))) (fun k q' => a4 (ix2 k q'))
    (⟨(i 1).val, (i 1).isLt⟩ : Fin 64)

theorem G2_apply (a0 : Vec Ideal S50000x128 .f32) (a1 : Vec Ideal S50000x1 .f32) (a2 : Vec Ideal S1x128 .f32)
    (a3 : Vec Ideal S50000x1 .f32) (a4 : Vec Ideal S128x64 .f32) (r : Fin 50000) (q : Fin 64) :
    G2 a0 a1 a2 a3 a4 (ix2 r q)
      = Cert.Spec.layer2 (fun k => a0 (ix2 r k)) (a1 (ix2 r (0 : Fin 1))) (fun k => a2 (ix2 (0 : Fin 1) k))
          (a3 (ix2 r (0 : Fin 1))) (fun k q' => a4 (ix2 k q')) q := rfl

/-- The grid has ten points. -/
theorem pt2_lt (t : Fin cfg2.N) : t.val < 10 := lt_of_lt_of_eq t.isLt N_2

/-- Row 5000·t + p of a 50000-row array, for a grid point t and a row p of its block. -/
abbrev row2 (t : Fin cfg2.N) (p : Fin 5000) : Fin 50000 :=
  ⟨5000 * t.val + p.val, by have := pt2_lt t; have := p.isLt; omega⟩

/-- The index maps over the grid: a row-blocked window's block index at point t is (t, 0), a whole-array window's is (0, 0). -/
theorem idx2 : ∀ t : Fin cfg2.N,
    (win2_0.index t (0 : Fin 2) = t.val ∧ win2_0.index t (1 : Fin 2) = 0)
    ∧ (win2_1.index t (0 : Fin 2) = t.val ∧ win2_1.index t (1 : Fin 2) = 0)
    ∧ (win2_2.index t (0 : Fin 2) = 0 ∧ win2_2.index t (1 : Fin 2) = 0)
    ∧ (win2_3.index t (0 : Fin 2) = t.val ∧ win2_3.index t (1 : Fin 2) = 0)
    ∧ (win2_4.index t (0 : Fin 2) = 0 ∧ win2_4.index t (1 : Fin 2) = 0)
    ∧ (win2_5.index t (0 : Fin 2) = t.val ∧ win2_5.index t (1 : Fin 2) = 0) :=
  (by decide +kernel : ∀ t : Fin grid2.N, _)

/-- The five input blocks at point t, each at its literal type. -/
abbrev blk2_0 (c : Dev nD) (t : Fin cfg2.N) : Vec Ideal S5000x128 .f32 := Gen.iblk2 (F := Ideal) V c 0 t
abbrev blk2_1 (c : Dev nD) (t : Fin cfg2.N) : Vec Ideal S5000x1 .f32 := Gen.iblk2 (F := Ideal) V c 1 t
abbrev blk2_2 (c : Dev nD) (t : Fin cfg2.N) : Vec Ideal S1x128 .f32 := Gen.iblk2 (F := Ideal) V c 2 t
abbrev blk2_3 (c : Dev nD) (t : Fin cfg2.N) : Vec Ideal S5000x1 .f32 := Gen.iblk2 (F := Ideal) V c 3 t
abbrev blk2_4 (c : Dev nD) (t : Fin cfg2.N) : Vec Ideal S128x64 .f32 := Gen.iblk2 (F := Ideal) V c 4 t

/-- Block t of the aggregated features is rows 5000·t … of the array. -/
theorem blk2_0_apply (c : Dev nD) (t : Fin cfg2.N) (p : Fin 5000) (k : Fin 128) :
    blk2_0 V c t (ix2 p k) = (V c main_v27 : Vec Ideal S50000x128 .f32) (ix2 (row2 t p) k) := by
  obtain ⟨⟨h0, h1⟩, -⟩ := idx2 t
  unfold blk2_0 Gen.iblk2
  rw [View.read_apply]
  show V c main_v27 _ = V c main_v27 _
  congr 1
  funext a
  apply Fin.ext
  match a with
  | ⟨0, _⟩ => show win2_0.index t (0 : Fin 2) * 5000 + 1 * p.val = 5000 * t.val + p.val; rw [h0]; omega
  | ⟨1, _⟩ => show win2_0.index t (1 : Fin 2) * 128 + 1 * k.val = k.val; rw [h1]; omega

/-- Block t of the in-degree norm column is rows 5000·t … of the column. -/
theorem blk2_1_apply (c : Dev nD) (t : Fin cfg2.N) (p : Fin 5000) (k : Fin 1) :
    blk2_1 V c t (ix2 p k) = (V c main_v12 : Vec Ideal S50000x1 .f32) (ix2 (row2 t p) k) := by
  obtain ⟨-, ⟨h0, h1⟩, -⟩ := idx2 t
  unfold blk2_1 Gen.iblk2
  rw [View.read_apply]
  show V c main_v12 _ = V c main_v12 _
  congr 1
  funext a
  apply Fin.ext
  match a with
  | ⟨0, _⟩ => show win2_1.index t (0 : Fin 2) * 5000 + 1 * p.val = 5000 * t.val + p.val; rw [h0]; omega
  | ⟨1, _⟩ => show win2_1.index t (1 : Fin 2) * 1 + 1 * k.val = k.val; rw [h1]; omega

/-- Every point reads the whole bias row. -/
theorem blk2_2_apply (c : Dev nD) (t : Fin cfg2.N) (p : Fin 1) (k : Fin 128) :
    blk2_2 V c t (ix2 p k) = (V c main_v16 : Vec Ideal S1x128 .f32) (ix2 p k) := by
  obtain ⟨-, -, ⟨h0, h1⟩, -⟩ := idx2 t
  unfold blk2_2 Gen.iblk2
  rw [View.read_apply]
  show V c main_v16 _ = V c main_v16 _
  congr 1
  funext a
  apply Fin.ext
  match a with
  | ⟨0, _⟩ => show win2_2.index t (0 : Fin 2) * 1 + 1 * p.val = p.val; rw [h0]; omega
  | ⟨1, _⟩ => show win2_2.index t (1 : Fin 2) * 128 + 1 * k.val = k.val; rw [h1]; omega

/-- Block t of the out-degree norm column is rows 5000·t … of the column. -/
theorem blk2_3_apply (c : Dev nD) (t : Fin cfg2.N) (p : Fin 5000) (k : Fin 1) :
    blk2_3 V c t (ix2 p k) = (V c main_v11 : Vec Ideal S50000x1 .f32) (ix2 (row2 t p) k) := by
  obtain ⟨-, -, -, ⟨h0, h1⟩, -⟩ := idx2 t
  unfold blk2_3 Gen.iblk2
  rw [View.read_apply]
  show V c main_v11 _ = V c main_v11 _
  congr 1
  funext a
  apply Fin.ext
  match a with
  | ⟨0, _⟩ => show win2_3.index t (0 : Fin 2) * 5000 + 1 * p.val = 5000 * t.val + p.val; rw [h0]; omega
  | ⟨1, _⟩ => show win2_3.index t (1 : Fin 2) * 1 + 1 * k.val = k.val; rw [h1]; omega

/-- Every point reads the whole weight matrix. -/
theorem blk2_4_apply (c : Dev nD) (t : Fin cfg2.N) (p : Fin 128) (k : Fin 64) :
    blk2_4 V c t (ix2 p k) = (V c main_arg11 : Vec Ideal S128x64 .f32) (ix2 p k) := by
  obtain ⟨-, -, -, -, ⟨h0, h1⟩, -⟩ := idx2 t
  unfold blk2_4 Gen.iblk2
  rw [View.read_apply]
  show V c main_arg11 _ = V c main_arg11 _
  congr 1
  funext a
  apply Fin.ext
  match a with
  | ⟨0, _⟩ => show win2_4.index t (0 : Fin 2) * 128 + 1 * p.val = p.val; rw [h0]; omega
  | ⟨1, _⟩ => show win2_4.index t (1 : Fin 2) * 64 + 1 * k.val = k.val; rw [h1]; omega

/-- Where the output's block t puts its entry (p, q): row 5000·t + p, column q. -/
theorem emb2_5 (t : Fin cfg2.N) (p : Fin 5000) (q : Fin 64) :
    (((cfg2.win 5).blk t).view.emb (ix2 p q) : S50000x64.Idx) = ix2 (row2 t p) q := by
  obtain ⟨-, -, -, -, -, h0, h1⟩ := idx2 t
  funext a
  apply Fin.ext
  match a with
  | ⟨0, _⟩ => show win2_5.index t (0 : Fin 2) * 5000 + 1 * p.val = 5000 * t.val + p.val; rw [h0]; omega
  | ⟨1, _⟩ => show win2_5.index t (1 : Fin 2) * 64 + 1 * q.val = q.val; rw [h1]; omega

/-- What point t writes back is block t of `G2` of the arrays the region finds. -/
theorem flushed2_eq (c : Dev nD) (t : Fin cfg2.N) :
    (Gen.dat2 (F := Ideal) V c).flushed 5 t
      = ((cfg2.win 5).blk t).view.read (Elt Ideal)
          (G2 (V c main_v27) (V c main_v12) (V c main_v16) (V c main_v11) (V c main_arg11)) := by
  show (cfg2.win 5).cut (grid2.coords t) ((Gen.dat2 (F := Ideal) V c).after 5 t) = _
  rw [Gen.after2_5]
  funext y
  obtain ⟨p, q, rfl⟩ : ∃ (p : Fin 5000) (q : Fin 64), y = ix2 p q := ⟨y 0, y 1, eq_ix2 y⟩
  rw [View.read_apply, emb2_5, G2_apply]
  refine (out2_5_apply (blk2_0 V c t) (blk2_1 V c t) (blk2_2 V c t) (blk2_3 V c t) (blk2_4 V c t) p q).trans ?_
  have e0 : (fun k : Fin 128 => blk2_0 V c t (ix2 p k))
      = fun k => (V c main_v27 : Vec Ideal S50000x128 .f32) (ix2 (row2 t p) k) := funext fun k => blk2_0_apply V c t p k
  have e2 : (fun k : Fin 128 => blk2_2 V c t (ix2 (0 : Fin 1) k))
      = fun k => (V c main_v16 : Vec Ideal S1x128 .f32) (ix2 (0 : Fin 1) k) := funext fun k => blk2_2_apply V c t 0 k
  have e4 : (fun (k : Fin 128) (q' : Fin 64) => blk2_4 V c t (ix2 k q'))
      = fun k q' => (V c main_arg11 : Vec Ideal S128x64 .f32) (ix2 k q') := funext fun k => funext fun q' => blk2_4_apply V c t k q'
  rw [e0, e2, e4, blk2_1_apply V c t p 0, blk2_3_apply V c t p 0]
  exact (cast_eq _ _).symm

/-- An index of the output array is in point t's block iff each coordinate is in the block's range on its axis. -/
theorem mem_blk2 (t : Fin cfg2.N) (i : S50000x64.Idx) :
    i ∈ ((cfg2.win 5).blk t).view.set ↔ ∀ a : Fin 2, win2_5.index t a * S5000x64.size a ≤ (i a).val ∧ (i a).val < win2_5.index t a * S5000x64.size a + S5000x64.size a := by
  show i ∈ ((View.whole main_v28).slice (win2_5.rect t)).set ↔ _
  rw [View.set_slice_whole, Rect.mem_set_unit]
  exact Iff.rfl

/-- The ten row blocks tile the array: row r lies in the block of point r / 5000. -/
theorem cover2 (i : S50000x64.Idx) :
    ∃ t : Fin cfg2.N, (cfg2.win 5).flush t = true ∧ i ∈ ((cfg2.win 5).blk t).view.set := by
  have hi0 : (i 0).val < 50000 := (i 0).isLt
  have hi1 : (i 1).val < 64 := (i 1).isLt
  have hN : cfg2.N = 10 := N_2
  obtain ⟨t, ht⟩ : ∃ t : Fin cfg2.N, t.val = (i 0).val / 5000 := ⟨⟨(i 0).val / 5000, by rw [hN]; omega⟩, rfl⟩
  obtain ⟨-, -, -, -, -, h0, h1⟩ := idx2 t
  refine ⟨t, flush2_5 t, ?_⟩
  rw [mem_blk2]
  intro a
  match a with
  | ⟨0, _⟩ => show win2_5.index t (0 : Fin 2) * 5000 ≤ (i 0).val ∧ (i 0).val < win2_5.index t (0 : Fin 2) * 5000 + 5000; rw [h0]; omega
  | ⟨1, _⟩ => show win2_5.index t (1 : Fin 2) * 64 ≤ (i 1).val ∧ (i 1).val < win2_5.index t (1 : Fin 2) * 64 + 64; rw [h1]; omega

/-- The output array after the region's run is `G2` of the arrays the region finds. -/
theorem final2 (c : Dev nD) :
    (Gen.dat2 (F := Ideal) V c).arrAt 5 cfg2.N
      = G2 (V c main_v27) (V c main_v12) (V c main_v16) (V c main_v11) (V c main_arg11) :=
  (Gen.dat2 (F := Ideal) V c).arrAt_eq_of_cover 5
    (G2 (V c main_v27) (V c main_v12) (V c main_v16) (V c main_v11) (V c main_arg11))
    (fun t _ => flushed2_eq V c t) cover2

end Cert.KV

end
-- ==== Proof.Region3.lean ====
/-
  The last region's output array as one function of the arrays it reads: row r of the result is the aggregated
  row r scaled by node r's in-degree norm plus the bias row.  Grid point t holds rows 5000·t … 5000·t + 4999.
-/
import proofs.«413461_j28398323761562_2_alg».proof.Proof.Gen.KernelIdeal.Frame
import proofs.«413461_j28398323761562_2_alg».proof.Proof.Body3
import proofs.«413461_j28398323761562_2_alg».proof.Proof.Spec
import Idealize.ShloMosaic.Lib.Pipeline.Value
import Idealize.ShloMosaic.Lib.ValueIdx

set_option maxRecDepth 16384

noncomputable section

namespace Cert.KV

open Cert.KernelIdeal Cert.KernelIdeal.Gen Idealize.ShloMosaic Idealize.ShloMosaic.TcCoe Idealize.ShloMosaic.ValueIdx

variable (V : (c : Dev nD) → (b : Ref sig .tc) → Buf (Elt Ideal) ((c : Thread nD τ).loc b))

/-- The result array of the last region: every row the post-aggregation row function of the same row of the inputs. -/
def G3 (a0 : Vec Ideal S50000x64 .f32) (a1 : Vec Ideal S50000x1 .f32) (a2 : Vec Ideal S1x64 .f32) : Vec Ideal S50000x64 .f32 :=
  fun i => Cert.Spec.post (fun k => a0 (ix2 (⟨(i 0).val, (i 0).isLt⟩ : Fin 50000) k)) (a1 (ix2 (⟨(i 0).val, (i 0).isLt⟩ : Fin 50000) (0 : Fin 1))) (fun k => a2 (ix2 (0 : Fin 1) k)) (⟨(i 1).val, (i 1).isLt⟩ : Fin 64)

theorem G3_apply (a0 : Vec Ideal S50000x64 .f32) (a1 : Vec Ideal S50000x1 .f32) (a2 : Vec Ideal S1x64 .f32) (r : Fin 50000) (q : Fin 64) :
    G3 a0 a1 a2 (ix2 r q) = Cert.Spec.post (fun k => a0 (ix2 r k)) (a1 (ix2 r (0 : Fin 1))) (fun k => a2 (ix2 (0 : Fin 1) k)) q := rfl

/-- The grid has ten points. -/
theorem pt3_lt (t : Fin cfg3.N) : t.val < 10 := by
  have h := t.isLt
  have hN : cfg3.N = 10 := N_3
  omega

/-- Row p of point t's block is row 5000·t + p of the array. -/
theorem row3_lt (t : Fin cfg3.N) (p : Fin 5000) : 5000 * t.val + p.val < 50000 := by
  have := pt3_lt t; have := p.isLt; omega

/-- The windows' block indices at every grid point: the row-blocked windows sit at block (t, 0), the bias row at block (0, 0). -/
theorem idx3 : ∀ t : Fin cfg3.N,
    (win3_0.index t (0 : Fin 2) = t.val ∧ win3_0.index t (1 : Fin 2) = 0)
    ∧ (win3_1.index t (0 : Fin 2) = t.val ∧ win3_1.index t (1 : Fin 2) = 0)
    ∧ (win3_2.index t (0 : Fin 2) = 0 ∧ win3_2.index t (1 : Fin 2) = 0)
    ∧ (win3_3.index t (0 : Fin 2) = t.val ∧ win3_3.index t (1 : Fin 2) = 0) :=
  (by decide +kernel : ∀ t : Fin grid3.N, _)

/-- The three input blocks at point t, at their literal types. -/
abbrev agg3 (c : Dev nD) (t : Fin cfg3.N) : Vec Ideal S5000x64 .f32 := Gen.iblk3 V c 0 t
abbrev deg3 (c : Dev nD) (t : Fin cfg3.N) : Vec Ideal S5000x1 .f32 := Gen.iblk3 V c 1 t
abbrev bias3 (c : Dev nD) (t : Fin cfg3.N) : Vec Ideal S1x64 .f32 := Gen.iblk3 V c 2 t

/-- The aggregated block at (p, k) is the array at (5000·t + p, k). -/
theorem agg3_apply (c : Dev nD) (t : Fin cfg3.N) (p : Fin 5000) (k : Fin 64) :
    agg3 V c t (ix2 p k) = (V c main_v32 : Vec Ideal S50000x64 .f32) (ix2 ⟨5000 * t.val + p.val, row3_lt t p⟩ k) := by
  obtain ⟨⟨e0, e1⟩, -⟩ := idx3 t
  unfold agg3 Gen.iblk3
  rw [View.read_apply]
  show (V c main_v32 : Vec Ideal S50000x64 .f32) _ = (V c main_v32 : Vec Ideal S50000x64 .f32) _
  congr 1
  funext a
  apply Fin.ext
  match a with
  | ⟨0, _⟩ => show win3_0.index t (0 : Fin 2) * 5000 + 1 * p.val = 5000 * t.val + p.val; rw [e0]; omega
  | ⟨1, _⟩ => show win3_0.index t (1 : Fin 2) * 64 + 1 * k.val = k.val; rw [e1]; omega

/-- The in-degree norm block at (p, 0) is the array at (5000·t + p, 0). -/
theorem deg3_apply (c : Dev nD) (t : Fin cfg3.N) (p : Fin 5000) :
    deg3 V c t (ix2 p (0 : Fin 1)) = (V c main_v12 : Vec Ideal S50000x1 .f32) (ix2 ⟨5000 * t.val + p.val, row3_lt t p⟩ (0 : Fin 1)) := by
  obtain ⟨-, ⟨e0, e1⟩, -⟩ := idx3 t
  unfold deg3 Gen.iblk3
  rw [View.read_apply]
  show (V c main_v12 : Vec Ideal S50000x1 .f32) _ = (V c main_v12 : Vec Ideal S50000x1 .f32) _
  congr 1
  funext a
  apply Fin.ext
  match a with
  | ⟨0, _⟩ => show win3_1.index t (0 : Fin 2) * 5000 + 1 * p.val = 5000 * t.val + p.val; rw [e0]; omega
  | ⟨1, _⟩ => show win3_1.index t (1 : Fin 2) * 1 + 1 * (0 : Fin 1).val = (0 : Fin 1).val; rw [e1]; rfl

/-- The bias block is the whole bias row. -/
theorem bias3_apply (c : Dev nD) (t : Fin cfg3.N) (k : Fin 64) :
    bias3 V c t (ix2 (0 : Fin 1) k) = (V c main_v17 : Vec Ideal S1x64 .f32) (ix2 (0 : Fin 1) k) := by
  obtain ⟨-, -, ⟨e0, e1⟩, -⟩ := idx3 t
  unfold bias3 Gen.iblk3
  rw [View.read_apply]
  show (V c main_v17 : Vec Ideal S1x64 .f32) _ = (V c main_v17 : Vec Ideal S1x64 .f32) _
  congr 1
  funext a
  apply Fin.ext
  match a with
  | ⟨0, _⟩ => show win3_2.index t (0 : Fin 2) * 1 + 1 * (0 : Fin 1).val = (0 : Fin 1).val; rw [e0]; rfl
  | ⟨1, _⟩ => show win3_2.index t (1 : Fin 2) * 64 + 1 * k.val = k.val; rw [e1]; omega

/-- Point t's block of the result array sits at rows 5000·t … of it. -/
theorem out3_emb (t : Fin cfg3.N) (p : Fin 5000) (q : Fin 64) :
    (((cfg3.win 3).blk t).view.emb (ix2 p q) : S50000x64.Idx) = ix2 ⟨5000 * t.val + p.val, row3_lt t p⟩ q := by
  obtain ⟨-, -, -, ⟨e0, e1⟩⟩ := idx3 t
  funext a
  apply Fin.ext
  match a with
  | ⟨0, _⟩ => show win3_3.index t (0 : Fin 2) * 5000 + 1 * p.val = 5000 * t.val + p.val; rw [e0]; omega
  | ⟨1, _⟩ => show win3_3.index t (1 : Fin 2) * 64 + 1 * q.val = q.val; rw [e1]; omega

/-- What point t writes back is block t of the result function of the arrays as the region finds them. -/
theorem flushed3_eq (c : Dev nD) (t : Fin cfg3.N) :
    (Gen.dat3 (F := Ideal) V c).flushed 3 t
      = ((cfg3.win 3).blk t).view.read (Elt Ideal) (G3 (V c main_v32) (V c main_v12) (V c main_v17)) := by
  show (cfg3.win 3).cut (grid3.coords t) ((Gen.dat3 (F := Ideal) V c).after 3 t) = _
  rw [Gen.after3_3]
  funext y
  obtain ⟨p, q, rfl⟩ : ∃ (p : Fin 5000) (q : Fin 64), y = ix2 p q := ⟨y 0, y 1, eq_ix2 y⟩
  rw [View.read_apply]
  show Gen.out3_3 (F := Ideal) (agg3 V c t) (deg3 V c t) (bias3 V c t) (ix2 p q)
      = G3 (V c main_v32) (V c main_v12) (V c main_v17) (((cfg3.win 3).blk t).view.emb (ix2 p q))
  rw [out3_emb t p q, G3_apply]
  refine (out3_3_apply (agg3 V c t) (deg3 V c t) (bias3 V c t) p q).trans ?_
  have h0 : (fun k : Fin 64 => agg3 V c t (ix2 p k))
      = fun k : Fin 64 => (V c main_v32 : Vec Ideal S50000x64 .f32) (ix2 ⟨5000 * t.val + p.val, row3_lt t p⟩ k) :=
    funext fun k => agg3_apply V c t p k
  have h2 : (fun k : Fin 64 => bias3 V c t (ix2 (0 : Fin 1) k))
      = fun k : Fin 64 => (V c main_v17 : Vec Ideal S1x64 .f32) (ix2 (0 : Fin 1) k) :=
    funext fun k => bias3_apply V c t k
  rw [h0, deg3_apply V c t p, h2]

/-- An index of the result array is in point t's block iff each coordinate is in the block's range on its axis. -/
theorem mem_blk3 (t : Fin cfg3.N) (i : S50000x64.Idx) :
    i ∈ ((cfg3.win 3).blk t).view.set ↔ ∀ a : Fin 2, win3_3.index t a * S5000x64.size a ≤ (i a).val ∧ (i a).val < win3_3.index t a * S5000x64.size a + S5000x64.size a := by
  show i ∈ ((View.whole main_v33).slice (win3_3.rect t)).set ↔ _
  rw [View.set_slice_whole, Rect.mem_set_unit]
  exact Iff.rfl

/-- Every row r of the result array is in the block of point r / 5000. -/
theorem cover3 (i : S50000x64.Idx) :
    ∃ t : Fin cfg3.N, (cfg3.win 3).flush t = true ∧ i ∈ ((cfg3.win 3).blk t).view.set := by
  have hi0 : (i 0).val < 50000 := (i 0).isLt
  have hi1 : (i 1).val < 64 := (i 1).isLt
  have hN : cfg3.N = 10 := N_3
  have ht : (i 0).val / 5000 < cfg3.N := by omega
  obtain ⟨-, -, -, ⟨e0, e1⟩⟩ := idx3 ⟨(i 0).val / 5000, ht⟩
  refine ⟨⟨(i 0).val / 5000, ht⟩, flush3_3 _, ?_⟩
  rw [mem_blk3]
  intro a
  match a with
  | ⟨0, _⟩ =>
    show win3_3.index ⟨(i 0).val / 5000, ht⟩ (0 : Fin 2) * 5000 ≤ (i 0).val ∧ (i 0).val < win3_3.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win3_3.index ⟨(i 0).val / 5000, ht⟩ (1 : Fin 2) * 64 ≤ (i 1).val ∧ (i 1).val < win3_3.index ⟨(i 0).val / 5000, ht⟩ (1 : Fin 2) * 64 + 64
    rw [e1]; omega

/-- The result array after the region's run: the result function of the arrays the region finds. -/
theorem final3 (c : Dev nD) :
    (Gen.dat3 (F := Ideal) V c).arrAt 3 cfg3.N = G3 (V c main_v32) (V c main_v12) (V c main_v17) :=
  (Gen.dat3 (F := Ideal) V c).arrAt_eq_of_cover 3 (G3 (V c main_v32) (V c main_v12) (V c main_v17))
    (fun t _ => flushed3_eq V c t) (fun i => cover3 i)

end Cert.KV

end
-- ==== Proof.RefRows.lean ====
/-
  The reference network's four dense stretches, read one row at a time.
  Between two aggregations every stage of the reference acts on a single row of node features:
  read at a coordinate pair (r, q), each stretch is one of the row functions of Spec.lean applied to row r
  of the preceding aggregated stage, with the node's degree norms as scalars. The aggregated stages and the
  degree norms stay closed terms throughout.
-/
import proofs.«413461_j28398323761562_2_alg».proof.Proof.Gen.ReferenceIdeal.Read
import proofs.«413461_j28398323761562_2_alg».proof.Proof.Spec
import Idealize.ShloMosaic.Lib.ValueIdx

noncomputable section

namespace Cert.RefRows

open Cert.ReferenceIdeal Cert.ReferenceIdeal.Read Idealize.ShloMosaic Idealize.ShloMosaic.ValueIdx

variable (x0 : (⟨S50000x128, .f32⟩ : BufTy).Contents (Elt Ideal)) (x1 x2 : (⟨S800000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) (x11 : (⟨S128x64, .f32⟩ : BufTy).Contents (Elt Ideal)) (x12 : (⟨S64, .f32⟩ : BufTy).Contents (Elt Ideal))

/-! ## Index equations: the index maps of the layout stages and of the products, at a coordinate pair -/

/- The k-th term of a row-by-matrix product at (r, q) reads the left operand at (r, k) and the right at (k, q). -/
theorem lidx_v14 (r : Fin 50000) (q : Fin 128) (k : Fin 128) : lidx_main_v14 (ix2 r q) k = ix2 r k :=
  funext fun a => Fin.ext (by match a with | ⟨0, _⟩ => rfl | ⟨1, _⟩ => rfl)
theorem ridx_v14 (r : Fin 50000) (q : Fin 128) (k : Fin 128) : ridx_main_v14 (ix2 r q) k = ix2 k q :=
  funext fun a => Fin.ext (by match a with | ⟨0, _⟩ => rfl | ⟨1, _⟩ => rfl)
theorem lidx_v32 (r : Fin 50000) (q : Fin 128) (k : Fin 128) : lidx_main_v32 (ix2 r q) k = ix2 r k :=
  funext fun a => Fin.ext (by match a with | ⟨0, _⟩ => rfl | ⟨1, _⟩ => rfl)
theorem ridx_v32 (r : Fin 50000) (q : Fin 128) (k : Fin 128) : ridx_main_v32 (ix2 r q) k = ix2 k q :=
  funext fun a => Fin.ext (by match a with | ⟨0, _⟩ => rfl | ⟨1, _⟩ => rfl)
theorem lidx_v37 (r : Fin 50000) (q : Fin 128) (k : Fin 128) : lidx_main_v37 (ix2 r q) k = ix2 r k :=
  funext fun a => Fin.ext (by match a with | ⟨0, _⟩ => rfl | ⟨1, _⟩ => rfl)
theorem ridx_v37 (r : Fin 50000) (q : Fin 128) (k : Fin 128) : ridx_main_v37 (ix2 r q) k = ix2 k q :=
  funext fun a => Fin.ext (by match a with | ⟨0, _⟩ => rfl | ⟨1, _⟩ => rfl)
theorem lidx_v45 (r : Fin 50000) (q : Fin 128) (k : Fin 128) : lidx_main_v45 (ix2 r q) k = ix2 r k :=
  funext fun a => Fin.ext (by match a with | ⟨0, _⟩ => rfl | ⟨1, _⟩ => rfl)
theorem ridx_v45 (r : Fin 50000) (q : Fin 128) (k : Fin 128) : ridx_main_v45 (ix2 r q) k = ix2 k q :=
  funext fun a => Fin.ext (by match a with | ⟨0, _⟩ => rfl | ⟨1, _⟩ => rfl)
theorem lidx_v66 (r : Fin 50000) (q : Fin 64) (k : Fin 128) : lidx_main_v66 (ix2 r q) k = ix2 r k :=
  funext fun a => Fin.ext (by match a with | ⟨0, _⟩ => rfl | ⟨1, _⟩ => rfl)
theorem ridx_v66 (r : Fin 50000) (q : Fin 64) (k : Fin 128) : ridx_main_v66 (ix2 r q) k = ix2 k q :=
  funext fun a => Fin.ext (by match a with | ⟨0, _⟩ => rfl | ⟨1, _⟩ => rfl)

/- A column spread along the feature axis reads the column at (r, 0). -/
theorem idx_v12 (r : Fin 50000) (k : Fin 128) : idx_main_v12 (ix2 r k) = ix2 r (0 : Fin 1) :=
  funext fun a => Fin.ext (by match a with | ⟨0, _⟩ => rfl | ⟨1, _⟩ => rfl)
theorem idx_v26 (r : Fin 50000) (k : Fin 128) : idx_main_v26 (ix2 r k) = ix2 r (0 : Fin 1) :=
  funext fun a => Fin.ext (by match a with | ⟨0, _⟩ => rfl | ⟨1, _⟩ => rfl)
theorem idx_v43 (r : Fin 50000) (k : Fin 128) : idx_main_v43 (ix2 r k) = ix2 r (0 : Fin 1) :=
  funext fun a => Fin.ext (by match a with | ⟨0, _⟩ => rfl | ⟨1, _⟩ => rfl)
theorem idx_v57 (r : Fin 50000) (k : Fin 128) : idx_main_v57 (ix2 r k) = ix2 r (0 : Fin 1) :=
  funext fun a => Fin.ext (by match a with | ⟨0, _⟩ => rfl | ⟨1, _⟩ => rfl)
theorem idx_v64 (r : Fin 50000) (k : Fin 128) : idx_main_v64 (ix2 r k) = ix2 r (0 : Fin 1) :=
  funext fun a => Fin.ext (by match a with | ⟨0, _⟩ => rfl | ⟨1, _⟩ => rfl)
theorem idx_v78 (r : Fin 50000) (k : Fin 64) : idx_main_v78 (ix2 r k) = ix2 r (0 : Fin 1) :=
  funext fun a => Fin.ext (by match a with | ⟨0, _⟩ => rfl | ⟨1, _⟩ => rfl)

/- A vector over the nodes turned into a column reads the vector at r. -/
theorem idx_v11 (r : Fin 50000) (z : Fin 1) : idx_main_v11 (ix2 r z) = ix1 r :=
  funext fun a => Fin.ext (by match a with | ⟨0, _⟩ => rfl)
theorem idx_v25 (r : Fin 50000) (z : Fin 1) : idx_main_v25 (ix2 r z) = ix1 r :=
  funext fun a => Fin.ext (by match a with | ⟨0, _⟩ => rfl)
theorem idx_v42 (r : Fin 50000) (z : Fin 1) : idx_main_v42 (ix2 r z) = ix1 r :=
  funext fun a => Fin.ext (by match a with | ⟨0, _⟩ => rfl)
theorem idx_v56 (r : Fin 50000) (z : Fin 1) : idx_main_v56 (ix2 r z) = ix1 r :=
  funext fun a => Fin.ext (by match a with | ⟨0, _⟩ => rfl)
theorem idx_v63 (r : Fin 50000) (z : Fin 1) : idx_main_v63 (ix2 r z) = ix1 r :=
  funext fun a => Fin.ext (by match a with | ⟨0, _⟩ => rfl)
theorem idx_v77 (r : Fin 50000) (z : Fin 1) : idx_main_v77 (ix2 r z) = ix1 r :=
  funext fun a => Fin.ext (by match a with | ⟨0, _⟩ => rfl)

/- A row spread along the node axis reads the row at (0, k). -/
theorem idx_v29 (r : Fin 50000) (k : Fin 128) : idx_main_v29 (ix2 r k) = ix2 (0 : Fin 1) k :=
  funext fun a => Fin.ext (by match a with | ⟨0, _⟩ => rfl | ⟨1, _⟩ => rfl)
theorem idx_v34 (r : Fin 50000) (k : Fin 128) : idx_main_v34 (ix2 r k) = ix2 (0 : Fin 1) k :=
  funext fun a => Fin.ext (by match a with | ⟨0, _⟩ => rfl | ⟨1, _⟩ => rfl)
theorem idx_v39 (r : Fin 50000) (k : Fin 128) : idx_main_v39 (ix2 r k) = ix2 (0 : Fin 1) k :=
  funext fun a => Fin.ext (by match a with | ⟨0, _⟩ => rfl | ⟨1, _⟩ => rfl)
theorem idx_v60 (r : Fin 50000) (k : Fin 128) : idx_main_v60 (ix2 r k) = ix2 (0 : Fin 1) k :=
  funext fun a => Fin.ext (by match a with | ⟨0, _⟩ => rfl | ⟨1, _⟩ => rfl)
theorem idx_v81 (r : Fin 50000) (k : Fin 64) : idx_main_v81 (ix2 r k) = ix2 (0 : Fin 1) k :=
  funext fun a => Fin.ext (by match a with | ⟨0, _⟩ => rfl | ⟨1, _⟩ => rfl)

/- A vector over the features turned into a row reads the vector at k. -/
theorem idx_v28 (z : Fin 1) (k : Fin 128) : idx_main_v28 (ix2 z k) = ix1 k :=
  funext fun a => Fin.ext (by match a with | ⟨0, _⟩ => rfl)
theorem idx_v33 (z : Fin 1) (k : Fin 128) : idx_main_v33 (ix2 z k) = ix1 k :=
  funext fun a => Fin.ext (by match a with | ⟨0, _⟩ => rfl)
theorem idx_v38 (z : Fin 1) (k : Fin 128) : idx_main_v38 (ix2 z k) = ix1 k :=
  funext fun a => Fin.ext (by match a with | ⟨0, _⟩ => rfl)
theorem idx_v59 (z : Fin 1) (k : Fin 128) : idx_main_v59 (ix2 z k) = ix1 k :=
  funext fun a => Fin.ext (by match a with | ⟨0, _⟩ => rfl)
theorem idx_v80 (z : Fin 1) (k : Fin 64) : idx_main_v80 (ix2 z k) = ix1 k :=
  funext fun a => Fin.ext (by match a with | ⟨0, _⟩ => rfl)

/-! ## The input projection (stages 11 to 14) -/

/-- The input row scaled by the out-degree norm. -/
theorem v13_row (r : Fin 50000) (k : Fin 128) :
    val_main_v13 (F := Ideal) x0 x1 (ix2 r k) = x0 (ix2 r k) * val_main_v9 (F := Ideal) x1 (ix1 r) := by
  rw [val_main_v13_apply, val_main_v12_apply, val_main_v11_apply, idx_v12, idx_v11, Ideal.mulf_def]

theorem v14_row (r : Fin 50000) (q : Fin 128) :
    val_main_v14 (F := Ideal) x0 x1 x3 (ix2 r q)
      = Cert.Spec.proj (fun k => x0 (ix2 r k)) (val_main_v9 (F := Ideal) x1 (ix1 r)) (fun k q' => x3 (ix2 k q')) q := by
  rw [val_main_v14_apply]
  refine Finset.sum_congr rfl (fun k _ => ?_)
  rw [lidx_v14, ridx_v14, v13_row]

/-! ## The output step (stages 77 to 82) -/

theorem v82_row (r : Fin 50000) (q : Fin 64) :
    val_main_v82 (F := Ideal) x0 x1 x2 x3 x4 x5 x6 x7 x8 x9 x10 x11 x12 (ix2 r q)
      = Cert.Spec.post (fun k => val_main_v76 (F := Ideal) x0 x1 x2 x3 x4 x5 x6 x7 x8 x9 x10 x11 (ix2 r k))
          (val_main_v10 (F := Ideal) x2 (ix1 r)) (fun k => x12 (ix1 k)) q := by
  rw [val_main_v82_apply, val_main_v81_apply, val_main_v80_apply, val_main_v79_apply, val_main_v78_apply,
    val_main_v77_apply, idx_v81, idx_v80, idx_v78, idx_v77, Ideal.addf_def, Ideal.mulf_def]
  rfl

/-! ## The second layer after aggregation and the third layer's projection (stages 56 to 66) -/

/-- The rectified post-aggregation row of the second layer. -/
theorem v62_row (r : Fin 50000) (k : Fin 128) :
    val_main_v62 (F := Ideal) x0 x1 x2 x3 x4 x5 x6 x7 x8 x9 x10 (ix2 r k)
      = Cert.Spec.relu (Cert.Spec.post (fun k => val_main_v55 (F := Ideal) x0 x1 x2 x3 x4 x5 x6 x7 x8 x9 (ix2 r k))
          (val_main_v10 (F := Ideal) x2 (ix1 r)) (fun k => x10 (ix1 k))) k := by
  rw [val_main_v62_apply, val_main_v61_apply, val_main_v60_apply, val_main_v59_apply, val_main_v58_apply,
    val_main_v57_apply, val_main_v56_apply, val_main_call5_v0_apply, val_main_call5_cst_apply,
    idx_v60, idx_v59, idx_v57, idx_v56, Ideal.maximumf_def, Ideal.addf_def, Ideal.mulf_def, Ideal.ofBits_def]
  rfl

/-- That row scaled by the out-degree norm. -/
theorem v65_row (r : Fin 50000) (k : Fin 128) :
    val_main_v65 (F := Ideal) x0 x1 x2 x3 x4 x5 x6 x7 x8 x9 x10 (ix2 r k)
      = Cert.Spec.relu (Cert.Spec.post (fun k => val_main_v55 (F := Ideal) x0 x1 x2 x3 x4 x5 x6 x7 x8 x9 (ix2 r k))
          (val_main_v10 (F := Ideal) x2 (ix1 r)) (fun k => x10 (ix1 k))) k * val_main_v9 (F := Ideal) x1 (ix1 r) := by
  rw [val_main_v65_apply, val_main_v64_apply, val_main_v63_apply, idx_v64, idx_v63, v62_row, Ideal.mulf_def]

theorem v66_row (r : Fin 50000) (q : Fin 64) :
    val_main_v66 (F := Ideal) x0 x1 x2 x3 x4 x5 x6 x7 x8 x9 x10 x11 (ix2 r q)
      = Cert.Spec.layer2 (fun k => val_main_v55 (F := Ideal) x0 x1 x2 x3 x4 x5 x6 x7 x8 x9 (ix2 r k))
          (val_main_v10 (F := Ideal) x2 (ix1 r)) (fun k => x10 (ix1 k)) (val_main_v9 (F := Ideal) x1 (ix1 r))
          (fun k q' => x11 (ix2 k q')) q := by
  rw [val_main_v66_apply]
  unfold Cert.Spec.layer2 Cert.Spec.proj
  refine Finset.sum_congr rfl (fun k _ => ?_)
  rw [lidx_v66, ridx_v66, v65_row]

/-! ## The first layer after aggregation, its two dense layers, and the second layer's projection (stages 25 to 45) -/

/-- The rectified post-aggregation row of the first layer. -/
theorem v31_row (r : Fin 50000) (k : Fin 128) :
    val_main_v31 (F := Ideal) x0 x1 x2 x3 x4 (ix2 r k)
      = (Cert.Spec.relu (Cert.Spec.post (fun k => val_main_v24 (F := Ideal) x0 x1 x2 x3 (ix2 r k))
            (val_main_v10 (F := Ideal) x2 (ix1 r)) (fun k => x4 (ix1 k)))) k := by
  rw [val_main_v31_apply, val_main_v30_apply, val_main_v29_apply, val_main_v28_apply, val_main_v27_apply,
    val_main_v26_apply, val_main_v25_apply, val_main_call2_v0_apply, val_main_call2_cst_apply,
    idx_v29, idx_v28, idx_v26, idx_v25, Ideal.maximumf_def, Ideal.addf_def, Ideal.mulf_def, Ideal.ofBits_def]
  rfl

/-- The first inner dense layer, rectified. -/
theorem v36_row (r : Fin 50000) (q : Fin 128) :
    val_main_v36 (F := Ideal) x0 x1 x2 x3 x4 x5 x6 (ix2 r q)
      = (Cert.Spec.relu (Cert.Spec.dense
          (Cert.Spec.relu (Cert.Spec.post (fun k => val_main_v24 (F := Ideal) x0 x1 x2 x3 (ix2 r k))
            (val_main_v10 (F := Ideal) x2 (ix1 r)) (fun k => x4 (ix1 k))))
          (fun k q' => x5 (ix2 k q')) (fun k => x6 (ix1 k)))) q := by
  have hsum : (∑ k : Fin 128, val_main_v31 (F := Ideal) x0 x1 x2 x3 x4 (lidx_main_v32 (ix2 r q) k) * x5 (ridx_main_v32 (ix2 r q) k))
      = ∑ k : Fin 128, (Cert.Spec.relu (Cert.Spec.post (fun k => val_main_v24 (F := Ideal) x0 x1 x2 x3 (ix2 r k))
            (val_main_v10 (F := Ideal) x2 (ix1 r)) (fun k => x4 (ix1 k)))) k * x5 (ix2 k q) :=
    Finset.sum_congr rfl (fun k _ => by rw [lidx_v32, ridx_v32, v31_row])
  rw [val_main_v36_apply, val_main_v35_apply, val_main_v34_apply, val_main_v33_apply, val_main_v32_apply,
    val_main_call3_v0_apply, val_main_call3_cst_apply, idx_v34, idx_v33, hsum,
    Ideal.maximumf_def, Ideal.addf_def, Ideal.ofBits_def]
  rfl

/-- The second inner dense layer, rectified. -/
theorem v41_row (r : Fin 50000) (q : Fin 128) :
    val_main_v41 (F := Ideal) x0 x1 x2 x3 x4 x5 x6 x7 x8 (ix2 r q)
      = (Cert.Spec.relu (Cert.Spec.dense
          (Cert.Spec.relu (Cert.Spec.dense
          (Cert.Spec.relu (Cert.Spec.post (fun k => val_main_v24 (F := Ideal) x0 x1 x2 x3 (ix2 r k))
            (val_main_v10 (F := Ideal) x2 (ix1 r)) (fun k => x4 (ix1 k))))
          (fun k q' => x5 (ix2 k q')) (fun k => x6 (ix1 k))))
          (fun k q' => x7 (ix2 k q')) (fun k => x8 (ix1 k)))) q := by
  have hsum : (∑ k : Fin 128, val_main_v36 (F := Ideal) x0 x1 x2 x3 x4 x5 x6 (lidx_main_v37 (ix2 r q) k) * x7 (ridx_main_v37 (ix2 r q) k))
      = ∑ k : Fin 128, (Cert.Spec.relu (Cert.Spec.dense
          (Cert.Spec.relu (Cert.Spec.post (fun k => val_main_v24 (F := Ideal) x0 x1 x2 x3 (ix2 r k))
            (val_main_v10 (F := Ideal) x2 (ix1 r)) (fun k => x4 (ix1 k))))
          (fun k q' => x5 (ix2 k q')) (fun k => x6 (ix1 k)))) k * x7 (ix2 k q) :=
    Finset.sum_congr rfl (fun k _ => by rw [lidx_v37, ridx_v37, v36_row])
  rw [val_main_v41_apply, val_main_v40_apply, val_main_v39_apply, val_main_v38_apply, val_main_v37_apply,
    val_main_call4_v0_apply, val_main_call4_cst_apply, idx_v39, idx_v38, hsum,
    Ideal.maximumf_def, Ideal.addf_def, Ideal.ofBits_def]
  rfl

/-- That row scaled by the out-degree norm. -/
theorem v44_row (r : Fin 50000) (k : Fin 128) :
    val_main_v44 (F := Ideal) x0 x1 x2 x3 x4 x5 x6 x7 x8 (ix2 r k)
      = (Cert.Spec.relu (Cert.Spec.dense
          (Cert.Spec.relu (Cert.Spec.dense
          (Cert.Spec.relu (Cert.Spec.post (fun k => val_main_v24 (F := Ideal) x0 x1 x2 x3 (ix2 r k))
            (val_main_v10 (F := Ideal) x2 (ix1 r)) (fun k => x4 (ix1 k))))
          (fun k q' => x5 (ix2 k q')) (fun k => x6 (ix1 k))))
          (fun k q' => x7 (ix2 k q')) (fun k => x8 (ix1 k)))) k * val_main_v9 (F := Ideal) x1 (ix1 r) := by
  rw [val_main_v44_apply, val_main_v43_apply, val_main_v42_apply, idx_v43, idx_v42, v41_row, Ideal.mulf_def]

theorem v45_row (r : Fin 50000) (q : Fin 128) :
    val_main_v45 (F := Ideal) x0 x1 x2 x3 x4 x5 x6 x7 x8 x9 (ix2 r q)
      = Cert.Spec.layer1 (fun k => val_main_v24 (F := Ideal) x0 x1 x2 x3 (ix2 r k)) (val_main_v10 (F := Ideal) x2 (ix1 r))
          (fun k => x4 (ix1 k)) (fun k q' => x5 (ix2 k q')) (fun k => x6 (ix1 k)) (fun k q' => x7 (ix2 k q'))
          (fun k => x8 (ix1 k)) (val_main_v9 (F := Ideal) x1 (ix1 r)) (fun k q' => x9 (ix2 k q')) q := by
  rw [val_main_v45_apply]
  unfold Cert.Spec.layer1 Cert.Spec.proj
  refine Finset.sum_congr rfl (fun k _ => ?_)
  rw [lidx_v45, ridx_v45, v44_row]

end Cert.RefRows

end
-- ==== Proof.Chain.lean ====
/-
  The kernel's result array, region by region, is the reference's result stage.
  Each region's output array is a whole-array function of the arrays it finds (its rows the row functions of the
  layers); between regions the host gathers source rows and sums them over destination nodes, the same term in both
  programs once every source index is in range (the kernel's gather masks out-of-range rows, the reference's does not).
  Walking @main's boundaries in order, every array a region reads is identified with a stage of the reference:
  the arguments and the degree norms are carried unchanged from the first boundary, each region's output is the
  reference's projection stage, each aggregation the reference's scatter stage.
-/
import proofs.«413461_j28398323761562_2_alg».proof.Proof.Gen.KernelIdeal.Frame
import proofs.«413461_j28398323761562_2_alg».proof.Proof.Gen.ReferenceIdeal.Read
import proofs.«413461_j28398323761562_2_alg».proof.Proof.Entry0
import proofs.«413461_j28398323761562_2_alg».proof.Proof.Between1
import proofs.«413461_j28398323761562_2_alg».proof.Proof.Between2
import proofs.«413461_j28398323761562_2_alg».proof.Proof.Between3
import proofs.«413461_j28398323761562_2_alg».proof.Proof.TakeGather
import proofs.«413461_j28398323761562_2_alg».proof.Proof.AggEq
import proofs.«413461_j28398323761562_2_alg».proof.Proof.Region0
import proofs.«413461_j28398323761562_2_alg».proof.Proof.Region1
import proofs.«413461_j28398323761562_2_alg».proof.Proof.Region2
import proofs.«413461_j28398323761562_2_alg».proof.Proof.Region3
import proofs.«413461_j28398323761562_2_alg».proof.Proof.RefRows

set_option maxRecDepth 16384

noncomputable section

namespace Cert.Chain

open Cert.KernelIdeal Cert.KernelIdeal.Gen
open Idealize.ShloMosaic Idealize.ShloMosaic.TcCoe Idealize.SL.Sem Idealize.ShloMosaic.StableHlo Idealize.ShloMosaic.ValueIdx
open Cert.ReferenceIdeal.Read (val_main_v9 val_main_v10 val_main_v14 val_main_v24 val_main_v45 val_main_v55 val_main_v66 val_main_v76 val_main_v82)

variable (m : (ℓ : Loc nD τ sig) → Buf (Elt Ideal) ℓ) (ρ : Dev nD → PrngReg)

/-! ## Region 0 -/

/-- A buffer that is no window of region 0 leaves the region as it entered. -/
theorem w6_skip (c : Dev nD) (b : Ref sig .tc) (hb : ∀ w, Pipeline.arrRef spec0 w ≠ b) :
    W6 m ρ c (Proc.devRef .tc b) = W5 m ρ c (Proc.devRef .tc b) := W6_of_ne m ρ c b hb

/-- The out-degree norm column is an input window of region 0: left as entered. -/
theorem w6_v11 (c : Dev nD) : W6 m ρ c (Proc.devRef .tc main_v11) = W5 m ρ c (Proc.devRef .tc main_v11) :=
  (W6_arr m ρ c 1).trans (((dat0 (V5 m ρ) c).arrAt_in 1 rfl _).trans (A_eq0 (V5 m ρ) c 1))

/-- Region 0's output is the reference's first projection stage. -/
theorem out0 (c : Dev nD) : W6 m ρ c (Proc.devRef .tc main_v18) = val_main_v14 (F := Ideal) (m ((c : Thread nD τ).loc main_arg0)) (m ((c : Thread nD τ).loc main_arg1)) (m ((c : Thread nD τ).loc main_arg3)) := by
  refine (W6_arr m ρ c 3).trans ((Cert.KV.final0 (V5 m ρ) c).trans ?_)
  funext i
  obtain ⟨r, q, rfl⟩ : ∃ (r : Fin 50000) (q : Fin 128), i = ix2 r q := ⟨i 0, i 1, eq_ix2 i⟩
  rw [Cert.KV.G0_apply, Cert.RefRows.v14_row]
  show Cert.Spec.proj (fun k => W5 m ρ c (Proc.devRef .tc main_arg0) (ix2 r k)) (W5 m ρ c (Proc.devRef .tc main_v11) (ix2 r (0 : Fin 1))) (fun k q' => W5 m ρ c (Proc.devRef .tc main_arg3) (ix2 k q')) q = _
  rw [w5_arg0, w5_arg3, w5_v11_apply]

/-! ## Between regions 0 and 1, and region 1 -/

/-- The source indices at region 0's exit are the argument's. -/
theorem w6_arg1 (c : Dev nD) : W6 m ρ c (Proc.devRef .tc main_arg1) = (m ((c : Thread nD τ).loc main_arg1)) :=
  (w6_skip m ρ c main_arg1 (by decide)).trans (w5_arg1 m ρ c)
theorem w6_arg2 (c : Dev nD) : W6 m ρ c (Proc.devRef .tc main_arg2) = (m ((c : Thread nD τ).loc main_arg2)) :=
  (w6_skip m ρ c main_arg2 (by decide)).trans (w5_arg2 m ρ c)

/-- Layer 0's aggregation, as region 1 finds it: the reference's first scatter stage. -/
theorem in1_v22 (hs : ∀ c : Dev nD, Cert.Take.InRange (m ((c : Thread nD τ).loc main_arg1))) (c : Dev nD) : W8 m ρ c (Proc.devRef .tc main_v22) = val_main_v24 (F := Ideal) (m ((c : Thread nD τ).loc main_arg0)) (m ((c : Thread nD τ).loc main_arg1)) (m ((c : Thread nD τ).loc main_arg2)) (m ((c : Thread nD τ).loc main_arg3)) := by
  show after (hostOps1_1 (F := Ideal)) (after (hostOps1 (F := Ideal)) (W6 m ρ c)) (Proc.devRef .tc main_v22) = _
  rw [seg1, take1_arg2, Cert.Take.take1 (W6 m ρ c) (by rw [w6_arg1]; exact hs c), w6_arg1, w6_arg2, out0]
  exact agg_v24 _ _ _

/-- What region 1 finds in a buffer the two stretches and region 0 leave alone is what region 0 found. -/
theorem w8_skip (c : Dev nD) (b : Ref sig .tc) (h0 : ∀ w, Pipeline.arrRef spec0 w ≠ b)
    (hb : after (hostOps1_1 (F := Ideal)) (after (hostOps1 (F := Ideal)) (W6 m ρ c)) (Proc.devRef .tc b) = W6 m ρ c (Proc.devRef .tc b)) :
    W8 m ρ c (Proc.devRef .tc b) = W5 m ρ c (Proc.devRef .tc b) :=
  hb.trans (w6_skip m ρ c b h0)

theorem w8_v11 (c : Dev nD) : W8 m ρ c (Proc.devRef .tc main_v11) = W5 m ρ c (Proc.devRef .tc main_v11) :=
  (btw1_v11 (W6 m ρ c)).trans (w6_v11 m ρ c)
theorem w8_v12 (c : Dev nD) : W8 m ρ c (Proc.devRef .tc main_v12) = W5 m ρ c (Proc.devRef .tc main_v12) := w8_skip m ρ c main_v12 (by decide) (btw1_v12 _)
theorem w8_v13 (c : Dev nD) : W8 m ρ c (Proc.devRef .tc main_v13) = W5 m ρ c (Proc.devRef .tc main_v13) := w8_skip m ρ c main_v13 (by decide) (btw1_v13 _)
theorem w8_v14 (c : Dev nD) : W8 m ρ c (Proc.devRef .tc main_v14) = W5 m ρ c (Proc.devRef .tc main_v14) := w8_skip m ρ c main_v14 (by decide) (btw1_v14 _)
theorem w8_v15 (c : Dev nD) : W8 m ρ c (Proc.devRef .tc main_v15) = W5 m ρ c (Proc.devRef .tc main_v15) := w8_skip m ρ c main_v15 (by decide) (btw1_v15 _)
theorem w8_v16 (c : Dev nD) : W8 m ρ c (Proc.devRef .tc main_v16) = W5 m ρ c (Proc.devRef .tc main_v16) := w8_skip m ρ c main_v16 (by decide) (btw1_v16 _)
theorem w8_v17 (c : Dev nD) : W8 m ρ c (Proc.devRef .tc main_v17) = W5 m ρ c (Proc.devRef .tc main_v17) := w8_skip m ρ c main_v17 (by decide) (btw1_v17 _)
theorem w8_arg1 (c : Dev nD) : W8 m ρ c (Proc.devRef .tc main_arg1) = (m ((c : Thread nD τ).loc main_arg1)) := (w8_skip m ρ c main_arg1 (by decide) (btw1_arg1 _)).trans (w5_arg1 m ρ c)
theorem w8_arg2 (c : Dev nD) : W8 m ρ c (Proc.devRef .tc main_arg2) = (m ((c : Thread nD τ).loc main_arg2)) := (w8_skip m ρ c main_arg2 (by decide) (btw1_arg2 _)).trans (w5_arg2 m ρ c)
theorem w8_arg5 (c : Dev nD) : W8 m ρ c (Proc.devRef .tc main_arg5) = (m ((c : Thread nD τ).loc main_arg5)) := (w8_skip m ρ c main_arg5 (by decide) (btw1_arg5 _)).trans (w5_arg5 m ρ c)
theorem w8_arg7 (c : Dev nD) : W8 m ρ c (Proc.devRef .tc main_arg7) = (m ((c : Thread nD τ).loc main_arg7)) := (w8_skip m ρ c main_arg7 (by decide) (btw1_arg7 _)).trans (w5_arg7 m ρ c)
theorem w8_arg9 (c : Dev nD) : W8 m ρ c (Proc.devRef .tc main_arg9) = (m ((c : Thread nD τ).loc main_arg9)) := (w8_skip m ρ c main_arg9 (by decide) (btw1_arg9 _)).trans (w5_arg9 m ρ c)
theorem w8_arg11 (c : Dev nD) : W8 m ρ c (Proc.devRef .tc main_arg11) = (m ((c : Thread nD τ).loc main_arg11)) := (w8_skip m ρ c main_arg11 (by decide) (btw1_arg11 _)).trans (w5_arg11 m ρ c)

/-- Region 1's output is the reference's second projection stage. -/
theorem out1 (hs : ∀ c : Dev nD, Cert.Take.InRange (m ((c : Thread nD τ).loc main_arg1))) (c : Dev nD) : W9 m ρ c (Proc.devRef .tc main_v23) = val_main_v45 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (W9_arr m ρ c 9).trans ((Cert.KV.final1 (V8 m ρ) c).trans ?_)
  funext i
  obtain ⟨r, q, rfl⟩ : ∃ (r : Fin 50000) (q : Fin 128), i = ix2 r q := ⟨i 0, i 1, eq_ix2 i⟩
  rw [Cert.KV.G1_apply, Cert.RefRows.v45_row]
  show Cert.Spec.layer1 (fun k => W8 m ρ c (Proc.devRef .tc main_v22) (ix2 r k)) (W8 m ρ c (Proc.devRef .tc main_v12) (ix2 r (0 : Fin 1)))
    (fun k => W8 m ρ c (Proc.devRef .tc main_v13) (ix2 (0 : Fin 1) k)) (fun k q' => W8 m ρ c (Proc.devRef .tc main_arg5) (ix2 k q'))
    (fun k => W8 m ρ c (Proc.devRef .tc main_v14) (ix2 (0 : Fin 1) k)) (fun k q' => W8 m ρ c (Proc.devRef .tc main_arg7) (ix2 k q'))
    (fun k => W8 m ρ c (Proc.devRef .tc main_v15) (ix2 (0 : Fin 1) k)) (W8 m ρ c (Proc.devRef .tc main_v11) (ix2 r (0 : Fin 1)))
    (fun k q' => W8 m ρ c (Proc.devRef .tc main_arg9) (ix2 k q')) q = _
  rw [in1_v22 m ρ hs, w8_v12, w8_v13, w8_arg5, w8_v14, w8_arg7, w8_v15, w8_v11, w8_arg9, w5_v12_apply, w5_v11_apply,
    funext (w5_v13_apply m ρ c), funext (w5_v14_apply m ρ c), funext (w5_v15_apply m ρ c)]

/-! ## Between regions 1 and 2, and region 2 -/

/-- A buffer that is no window of region 1 leaves the region as it entered. -/
theorem w9_skip (c : Dev nD) (b : Ref sig .tc) (hb : ∀ w, Pipeline.arrRef spec1 w ≠ b) :
    W9 m ρ c (Proc.devRef .tc b) = W8 m ρ c (Proc.devRef .tc b) := W9_of_ne m ρ c b hb
/-- The two degree-norm columns are input windows of region 1: left as entered. -/
theorem w9_v12 (c : Dev nD) : W9 m ρ c (Proc.devRef .tc main_v12) = W8 m ρ c (Proc.devRef .tc main_v12) :=
  (W9_arr m ρ c 1).trans (((dat1 (V8 m ρ) c).arrAt_in 1 rfl _).trans (A_eq1 (V8 m ρ) c 1))
theorem w9_v11 (c : Dev nD) : W9 m ρ c (Proc.devRef .tc main_v11) = W8 m ρ c (Proc.devRef .tc main_v11) :=
  (W9_arr m ρ c 7).trans (((dat1 (V8 m ρ) c).arrAt_in 7 rfl _).trans (A_eq1 (V8 m ρ) c 7))

theorem w9_arg1 (c : Dev nD) : W9 m ρ c (Proc.devRef .tc main_arg1) = (m ((c : Thread nD τ).loc main_arg1)) := (w9_skip m ρ c main_arg1 (by decide)).trans (w8_arg1 m ρ c)
theorem w9_arg2 (c : Dev nD) : W9 m ρ c (Proc.devRef .tc main_arg2) = (m ((c : Thread nD τ).loc main_arg2)) := (w9_skip m ρ c main_arg2 (by decide)).trans (w8_arg2 m ρ c)

/-- Layer 1's aggregation, as region 2 finds it: the reference's second scatter stage. -/
theorem in2_v27 (hs : ∀ c : Dev nD, Cert.Take.InRange (m ((c : Thread nD τ).loc main_arg1))) (c : Dev nD) : W11 m ρ c (Proc.devRef .tc main_v27) = val_main_v55 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  show after (hostOps2_1 (F := Ideal)) (after (hostOps2 (F := Ideal)) (W9 m ρ c)) (Proc.devRef .tc main_v27) = _
  rw [seg2, take2_arg2, Cert.Take.take2 (W9 m ρ c) (by rw [w9_arg1]; exact hs c), w9_arg1, w9_arg2, out1 m ρ hs]
  exact agg_v55 _ _ _

theorem w11_v12 (c : Dev nD) : W11 m ρ c (Proc.devRef .tc main_v12) = W5 m ρ c (Proc.devRef .tc main_v12) :=
  (btw2_v12 (W9 m ρ c)).trans ((w9_v12 m ρ c).trans (w8_v12 m ρ c))
theorem w11_v11 (c : Dev nD) : W11 m ρ c (Proc.devRef .tc main_v11) = W5 m ρ c (Proc.devRef .tc main_v11) :=
  (btw2_v11 (W9 m ρ c)).trans ((w9_v11 m ρ c).trans (w8_v11 m ρ c))
theorem w11_v16 (c : Dev nD) : W11 m ρ c (Proc.devRef .tc main_v16) = W5 m ρ c (Proc.devRef .tc main_v16) :=
  (btw2_v16 (W9 m ρ c)).trans ((w9_skip m ρ c main_v16 (by decide)).trans (w8_v16 m ρ c))
theorem w11_v17 (c : Dev nD) : W11 m ρ c (Proc.devRef .tc main_v17) = W5 m ρ c (Proc.devRef .tc main_v17) :=
  (btw2_v17 (W9 m ρ c)).trans ((w9_skip m ρ c main_v17 (by decide)).trans (w8_v17 m ρ c))
theorem w11_arg1 (c : Dev nD) : W11 m ρ c (Proc.devRef .tc main_arg1) = (m ((c : Thread nD τ).loc main_arg1)) := (btw2_arg1 (W9 m ρ c)).trans (w9_arg1 m ρ c)
theorem w11_arg2 (c : Dev nD) : W11 m ρ c (Proc.devRef .tc main_arg2) = (m ((c : Thread nD τ).loc main_arg2)) := (btw2_arg2 (W9 m ρ c)).trans (w9_arg2 m ρ c)
theorem w11_arg11 (c : Dev nD) : W11 m ρ c (Proc.devRef .tc main_arg11) = (m ((c : Thread nD τ).loc main_arg11)) :=
  (btw2_arg11 (W9 m ρ c)).trans ((w9_skip m ρ c main_arg11 (by decide)).trans (w8_arg11 m ρ c))

/-- Region 2's output is the reference's third projection stage. -/
theorem out2 (hs : ∀ c : Dev nD, Cert.Take.InRange (m ((c : Thread nD τ).loc main_arg1))) (c : Dev nD) : W12 m ρ c (Proc.devRef .tc main_v28) = val_main_v66 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  refine (W12_arr m ρ c 5).trans ((Cert.KV.final2 (V11 m ρ) c).trans ?_)
  funext i
  obtain ⟨r, q, rfl⟩ : ∃ (r : Fin 50000) (q : Fin 64), i = ix2 r q := ⟨i 0, i 1, eq_ix2 i⟩
  rw [Cert.KV.G2_apply, Cert.RefRows.v66_row]
  show Cert.Spec.layer2 (fun k => W11 m ρ c (Proc.devRef .tc main_v27) (ix2 r k)) (W11 m ρ c (Proc.devRef .tc main_v12) (ix2 r (0 : Fin 1)))
    (fun k => W11 m ρ c (Proc.devRef .tc main_v16) (ix2 (0 : Fin 1) k)) (W11 m ρ c (Proc.devRef .tc main_v11) (ix2 r (0 : Fin 1)))
    (fun k q' => W11 m ρ c (Proc.devRef .tc main_arg11) (ix2 k q')) q = _
  rw [in2_v27 m ρ hs, w11_v12, w11_v16, w11_v11, w11_arg11, w5_v12_apply, w5_v11_apply, funext (w5_v16_apply m ρ c)]

/-! ## Between regions 2 and 3, and region 3 -/

theorem w12_skip (c : Dev nD) (b : Ref sig .tc) (hb : ∀ w, Pipeline.arrRef spec2 w ≠ b) :
    W12 m ρ c (Proc.devRef .tc b) = W11 m ρ c (Proc.devRef .tc b) := W12_of_ne m ρ c b hb
/-- The in-degree norm column is an input window of region 2: left as entered. -/
theorem w12_v12 (c : Dev nD) : W12 m ρ c (Proc.devRef .tc main_v12) = W11 m ρ c (Proc.devRef .tc main_v12) :=
  (W12_arr m ρ c 1).trans (((dat2 (V11 m ρ) c).arrAt_in 1 rfl _).trans (A_eq2 (V11 m ρ) c 1))
theorem w12_arg1 (c : Dev nD) : W12 m ρ c (Proc.devRef .tc main_arg1) = (m ((c : Thread nD τ).loc main_arg1)) := (w12_skip m ρ c main_arg1 (by decide)).trans (w11_arg1 m ρ c)
theorem w12_arg2 (c : Dev nD) : W12 m ρ c (Proc.devRef .tc main_arg2) = (m ((c : Thread nD τ).loc main_arg2)) := (w12_skip m ρ c main_arg2 (by decide)).trans (w11_arg2 m ρ c)

/-- Layer 2's aggregation, as region 3 finds it: the reference's third scatter stage. -/
theorem in3_v32 (hs : ∀ c : Dev nD, Cert.Take.InRange (m ((c : Thread nD τ).loc main_arg1))) (c : Dev nD) : W14 m ρ c (Proc.devRef .tc main_v32) = val_main_v76 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  show after (hostOps3_1 (F := Ideal)) (after (hostOps3 (F := Ideal)) (W12 m ρ c)) (Proc.devRef .tc main_v32) = _
  rw [seg3, take3_arg2, Cert.Take.take3 (W12 m ρ c) (by rw [w12_arg1]; exact hs c), w12_arg1, w12_arg2, out2 m ρ hs]
  exact agg_v76 _ _ _

theorem w14_v12 (c : Dev nD) : W14 m ρ c (Proc.devRef .tc main_v12) = W5 m ρ c (Proc.devRef .tc main_v12) :=
  (btw3_v12 (W12 m ρ c)).trans ((w12_v12 m ρ c).trans (w11_v12 m ρ c))
theorem w14_v17 (c : Dev nD) : W14 m ρ c (Proc.devRef .tc main_v17) = W5 m ρ c (Proc.devRef .tc main_v17) :=
  (btw3_v17 (W12 m ρ c)).trans ((w12_skip m ρ c main_v17 (by decide)).trans (w11_v17 m ρ c))

/-- THE RESULT: region 3's output, the kernel's result array, is the reference's result stage of the same arguments. -/
theorem result (hs : ∀ c : Dev nD, Cert.Take.InRange (m ((c : Thread nD τ).loc main_arg1))) (c : Dev nD) : W15 m ρ c (Proc.devRef .tc main_v33) = val_main_v82 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  refine (W15_arr m ρ c 3).trans ((Cert.KV.final3 (V14 m ρ) c).trans ?_)
  funext i
  obtain ⟨r, q, rfl⟩ : ∃ (r : Fin 50000) (q : Fin 64), i = ix2 r q := ⟨i 0, i 1, eq_ix2 i⟩
  rw [Cert.KV.G3_apply, Cert.RefRows.v82_row]
  show Cert.Spec.post (fun k => W14 m ρ c (Proc.devRef .tc main_v32) (ix2 r k)) (W14 m ρ c (Proc.devRef .tc main_v12) (ix2 r (0 : Fin 1)))
    (fun k => W14 m ρ c (Proc.devRef .tc main_v17) (ix2 (0 : Fin 1) k)) q = _
  rw [in3_v32 m ρ hs, w14_v12, w14_v17, w5_v12_apply, funext (w5_v17_apply m ρ c)]

end Cert.Chain

end
-- ==== Proof.lean ====
/-
  The certificate of a three-layer graph-convolution network: a kernel of four row-blocked Pallas regions (projection;
  post-aggregation, two dense layers and the next projection; post-aggregation and the last projection; the final
  post-aggregation) among host stretches that gather source rows and sum them over destination nodes, against a jnp
  reference that does the same with whole-array operations.

  Over the extended reals the two programs compute the same function of the arguments, row by row:
    h0 = (x · nsrc) W0,  a0 = Agg h0,
    h1 = (relu(relu(relu(a0 · ndst + b0) fcW + fcb) fc2W + fc2b) · nsrc) W1,  a1 = Agg h1,
    h2 = (relu(a1 · ndst + b1) · nsrc) W2,  a2 = Agg h2,  out = a2 · ndst + b2,
  where nsrc, ndst are the inverse square roots of the clipped out- and in-degrees and Agg gathers rows at the source
  indices and sums them at the destination indices. A bf16 rounding before a product is the identity there, a product
  into a zero accumulator is the host's dot_general, and a row block of a product depends on the same row block of its
  left operand, so no algebraic law is needed: the two sides are the same sums.

  The one difference is the gather: the kernel's jnp.take fills a row whose (normalised) source index is out of range
  with a NaN pattern, the reference's h[src] clamps the index. The precondition therefore says, beside finiteness, that
  every source index is in range of the node axis (−50000 ≤ src < 50000): there the kernel's mask is all ones and the
  two gathers are one term.

  The three frames are the generated ones (the reference's is its generated run with the result dropped); the ideal
  pass rewrote nothing, so preserves is trivial; the algebraic claim runs the kernel with its result array named
  (the generated launch called once more) and reads that array, region by region, as the reference's result stage.
-/
import proofs.«413461_j28398323761562_2_alg».proof.Defs
import proofs.«413461_j28398323761562_2_alg».proof.Proof.Gen.Kernel
import proofs.«413461_j28398323761562_2_alg».proof.Proof.Gen.Kernel.Skeleton
import proofs.«413461_j28398323761562_2_alg».proof.Proof.Gen.Kernel.Launch
import proofs.«413461_j28398323761562_2_alg».proof.Proof.Gen.Kernel.Points
import proofs.«413461_j28398323761562_2_alg».proof.Proof.Gen.Kernel.Frame
import proofs.«413461_j28398323761562_2_alg».proof.Proof.Gen.KernelIdeal
import proofs.«413461_j28398323761562_2_alg».proof.Proof.Gen.KernelIdeal.Skeleton
import proofs.«413461_j28398323761562_2_alg».proof.Proof.Gen.KernelIdeal.Launch
import proofs.«413461_j28398323761562_2_alg».proof.Proof.Gen.KernelIdeal.Points
import proofs.«413461_j28398323761562_2_alg».proof.Proof.Gen.KernelIdeal.Frame
import proofs.«413461_j28398323761562_2_alg».proof.Proof.Gen.ReferenceIdeal
import proofs.«413461_j28398323761562_2_alg».proof.Proof.Gen.ReferenceIdeal.Run
import proofs.«413461_j28398323761562_2_alg».proof.Proof.Gen.ReferenceIdeal.Read
import proofs.«413461_j28398323761562_2_alg».proof.Proof.Gen.Pre_finite_inputs
import proofs.«413461_j28398323761562_2_alg».proof.Proof.KRun
import proofs.«413461_j28398323761562_2_alg».proof.Proof.SrcRange
import proofs.«413461_j28398323761562_2_alg».proof.Proof.Chain
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its generated run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both programs end with the reference's result stage of the (agreeing) arguments in their result arrays: the kernel
    by the chain through its four regions (under the source indices' range, read off the precondition), the reference
    by its generated run. -/
theorem algebraic : Cert.algebraic_KernelIdeal_ReferenceIdeal := by
  intro m ρ m' ρ' hpre hagree
  refine ⟨fun c => Cert.ReferenceIdeal.Read.val_main_v82 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)), ?_, ?_⟩
  · exact (θ_run Cert.KernelIdeal.defs _ _).mono
      (fun r h c => ⟨(h c).1.trans (Cert.Chain.result m ρ (fun c e => Cert.Take.src_range m hpre c e) c), (h c).2⟩)
      (Cert.KernelIdeal.Named.run_named (F := Ideal) m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7, h8, h9, h10, h11, h12⟩ := hagree c
    rw [Cert.ReferenceIdeal.Read.val_main_v82_eq, h0, h1, h2, h3, h4, h5, h6, h7, h8, h9, h10, h11, h12]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
